-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S262144 : Shape := ⟨1, ![262144]⟩
abbrev S128x64 : Shape := ⟨2, ![128, 64]⟩
abbrev S128x64x64 : Shape := ⟨3, ![128, 64, 64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128x64x64 : S_.BroadcastsInDim S128x64x64 (![] : Fin 0 → Fin S128x64x64.rank)
  reducesTo_S128x64x64_S_d0_1_2 : S128x64x64.ReducesTo [0, 1, 2] S_

variable [Facts]

def fn {F : FTy → Type} [FloatOps F] (main_arg0 : FVec F S262144x64 .f32) (main_arg1 : IVec S262144 32) (main_arg2 : FVec F S128x64 .f32) (main_arg3 : FVec F S128x64x64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64x64 .f32 := Host.absf main_arg3
  let main_cst_2 : FVec F S_ .f32 := constant S_ .f32 0x7F800000#32
  let main_v10 : FVec F S128x64x64 .f32 := broadcastInDim S128x64x64 ![] bcast_S_S128x64x64 main_cst_2
  let main_v11 : IVec S128x64x64 1 := cmpf .olt main_v9 main_v10
  let main_c_3 : IVec S_ 1 := constantI S_ 1 1#1
  let main_v12 : IVec S_ 1 := (fun x v => Host.reduce IntOp.andi x v reducesTo_S128x64x64_S_d0_1_2 h_S_) main_v11 main_c_3
  let main_v13 : IVec S_ 1 := andi main_v8 main_v12
  main_v13
-- ==== Kernel.lean ====
abbrev S262144x64 : Shape := ⟨2, ![262144, 64]⟩
abbrev S262144 : Shape := ⟨1, ![262144]⟩
abbrev S128x64 : Shape := ⟨2, ![128, 64]⟩
abbrev S128x64x64 : Shape := ⟨3, ![128, 64, 64]⟩
abbrev S262144x1 : Shape := ⟨2, ![262144, 1]⟩
abbrev S2x64x128 : Shape := ⟨3, ![2, 64, 128]⟩
abbrev S2x1x128 : Shape := ⟨3, ![2, 1, 128]⟩
abbrev S8192x64 : Shape := ⟨2, ![8192, 64]⟩
abbrev S8192x1 : Shape := ⟨2, ![8192, 1]⟩
abbrev S1x64x128 : Shape := ⟨3, ![1, 64, 128]⟩
abbrev S1x1x128 : Shape := ⟨3, ![1, 1, 128]⟩
abbrev S64x128 : Shape := ⟨2, ![64, 128]⟩
abbrev S1x128 : Shape := ⟨2, ![1, 128]⟩
abbrev S8192x128 : Shape := ⟨2, ![8192, 128]⟩
abbrev S128 : Shape := ⟨1, ![128]⟩
abbrev S_ : Shape := ⟨0, ![]⟩
abbrev S128x1 : Shape := ⟨2, ![128, 1]⟩
abbrev S1x64 : Shape := ⟨2, ![1, 64]⟩
abbrev S1x1 : Shape := ⟨2, ![1, 1]⟩
abbrev S2x1x1 : Shape := ⟨3, ![2, 1, 1]⟩
abbrev S4096x64 : Shape := ⟨2, ![4096, 64]⟩
abbrev S4096x1 : Shape := ⟨2, ![4096, 1]⟩
abbrev S1x1x1 : Shape := ⟨3, ![1, 1, 1]⟩
abbrev S4096 : Shape := ⟨1, ![4096]⟩
abbrev S1 : Shape := ⟨1, ![1]⟩
abbrev S64 : Shape := ⟨1, ![64]⟩

abbrev nBuf : Space → Nat
  | .hbm => 39
  | .vmem => 19
  | .smem => 0
  | _ => 0

abbrev bufTy : (tb : Table) → Fin (tcTables nBuf tb) → BufTy
  | .hbm, ⟨0, _⟩ => ⟨S262144x64, .f32⟩
  | .hbm, ⟨1, _⟩ => ⟨S262144, .i32⟩
  | .hbm, ⟨2, _⟩ => ⟨S128x64, .f32⟩
  | .hbm, ⟨3, _⟩ => ⟨S128x64x64, .f32⟩
  | .hbm, ⟨4, _⟩ => ⟨S262144x1, .i32⟩
  | .hbm, ⟨5, _⟩ => ⟨S2x64x128, .f32⟩
  | .hbm, ⟨6, _⟩ => ⟨S2x1x128, .f32⟩
  | .hbm, ⟨7, _⟩ => ⟨S_, .f32⟩
  | .hbm, ⟨8, _⟩ => ⟨S64x128, .f32⟩
  | .hbm, ⟨9, _⟩ => ⟨S128x64, .f32⟩
  | .hbm, ⟨10, _⟩ => ⟨S_, .f32⟩
  | .hbm, ⟨11, _⟩ => ⟨S1x128, .f32⟩
  | .hbm, ⟨12, _⟩ => ⟨S128x1, .f32⟩
  | .hbm, ⟨13, _⟩ => ⟨S128x64, .f32⟩
  | .hbm, ⟨14, _⟩ => ⟨S128x64, .f32⟩
  | .hbm, ⟨15, _⟩ => ⟨S128x64, .f32⟩
  | .hbm, ⟨16, _⟩ => ⟨S128x64, .f32⟩
  | .hbm, ⟨17, _⟩ => ⟨S128x64, .f32⟩
  | .hbm, ⟨18, _⟩ => ⟨S1x64, .f32⟩
  | .hbm, ⟨19, _⟩ => ⟨S1x64, .f32⟩
  | .hbm, ⟨20, _⟩ => ⟨S1x1, .f32⟩
  | .hbm, ⟨21, _⟩ => ⟨S1x64, .f32⟩
  | .hbm, ⟨22, _⟩ => ⟨S1x64, .f32⟩
  | .hbm, ⟨23, _⟩ => ⟨S2x1x1, .f32⟩
  | .hbm, ⟨24, _⟩ => ⟨S_, .f32⟩
  | .hbm, ⟨25, _⟩ => ⟨S_, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S128x64, .f32⟩
  | .hbm, ⟨30, _⟩ => ⟨S128x64, .f32⟩
  | .hbm, ⟨31, _⟩ => ⟨S128x64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S128x64x64, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S8192x64, .f32⟩
  | .local _ .vmem, ⟨1, _⟩ => ⟨S8192x64, .f32⟩
  | .local _ .vmem, ⟨2, _⟩ => ⟨S8192x1, .i32⟩
  | .local _ .vmem, ⟨3, _⟩ => ⟨S8192x1, .i32⟩
  | .local _ .vmem, ⟨4, _⟩ => ⟨S1x64x128, .f32⟩
  | .local _ .vmem, ⟨5, _⟩ => ⟨S1x64x128, .f32⟩
  | .local _ .vmem, ⟨6, _⟩ => ⟨S1x1x128, .f32⟩
  | .local _ .vmem, ⟨7, _⟩ => ⟨S1x1x128, .f32⟩
  | .local _ .vmem, ⟨8, _⟩ => ⟨S64x128, .f32⟩
  | .local _ .vmem, ⟨9, _⟩ => ⟨S1x128, .f32⟩
  | .local _ .vmem, ⟨10, _⟩ => ⟨S4096x64, .f32⟩
  | .local _ .vmem, ⟨11, _⟩ => ⟨S4096x64, .f32⟩
  | .local _ .vmem, ⟨12, _⟩ => ⟨S4096x1, .i32⟩
  | .local _ .vmem, ⟨13, _⟩ => ⟨S4096x1, .i32⟩
  | .local _ .vmem, ⟨14, _⟩ => ⟨S1x64, .f32⟩
  | .local _ .vmem, ⟨15, _⟩ => ⟨S1x64, .f32⟩
  | .local _ .vmem, ⟨16, _⟩ => ⟨S1x1x1, .f32⟩
  | .local _ .vmem, ⟨17, _⟩ => ⟨S1x1x1, .f32⟩
  | .local _ .vmem, ⟨18, _⟩ => ⟨S1x1, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v28 : BitVec 1 := Scalar.cmpi .eq arg1 c31_i32
  let v29 : BitVec 32 := Scalar.extui v28
  let c0_i32_14 : BitVec 32 := 0#32
  let v30 : BitVec 1 := Scalar.cmpi .ne v29 c0_i32_14
  v30

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S262144_S262144x1 : S262144.ShapeCasts S262144x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x128_d1_w32 : S8192x128.Iotas .tc 32 [1]
  broadcasts_S8192x1_S8192x128 : S8192x1.Broadcasts S8192x128
  natLt_1_32 : 1 < 32
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  reduces_S8192x128_S128 : S8192x128.Reduces [0] S128
  shapeCasts_S128_S1x128 : S128.ShapeCasts S1x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S2x64x128_S64x128_d0 : S2x64x128.ReducesTo [0] S64x128
  h_S_ : 0 < S_.numel
  transposes_S64x128_S128x64_1_0 : S64x128.Transposes [1, 0] S128x64
  reducesTo_S2x1x128_S1x128_d0 : S2x1x128.ReducesTo [0] S1x128
  shapeCasts_S1x128_S128x1 : S1x128.ShapeCasts S128x1
  bcast_S128x1_S128x64_0_1 : S128x1.BroadcastsInDim S128x64 (![0, 1] : Fin 2 → Fin S128x64.rank)
  slices_S128x64_S1x64_127_0 : S128x64.Slices ![127, 0] S1x64
  slices_S128x1_S1x1_127_0 : S128x1.Slices ![127, 0] S1x1
  bcast_S1x1_S1x64_0_1 : S1x1.BroadcastsInDim S1x64 (![0, 1] : Fin 2 → Fin S1x64.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x64_S4096x64_0_0 : ∀ a, (![0, 0] : Fin 2 → Nat) a + S4096x64.size a ≤ S4096x64.size a
  h_S4096x64 : 0 < S4096x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x1_S1 : S4096x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  shapeCasts_S1x64_S64 : S1x64.ShapeCasts S64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  reducesTo_S128x64_S_d0_1 : S128x64.ReducesTo [0, 1] S_
  reducesTo_S128x64x64_S_d0_1_2 : S128x64x64.ReducesTo [0, 1, 2] S_
  dot_S8192x64_S8192x128_S64x128_0_0_1_1_n_n_wf : DotDims.WF S8192x64 S8192x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S262144x1.size a
  hwx0_1 : ∀ i : grid0.Coords, EltTy.bits .i32 = 32 ∨ (Rect.block (s := S262144x1) S8192x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S2x64x128.size a
  hwx0_2 : ∀ i : grid0.Coords, EltTy.bits .f32 = 32 ∨ (Rect.block (s := S2x64x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S262144x64.size a
  hwx1_0 : ∀ i : grid1.Coords, EltTy.bits .f32 = 32 ∨ (Rect.block (s := S262144x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S262144x1.size a
  hwx1_1 : ∀ i : grid1.Coords, EltTy.bits .i32 = 32 ∨ (Rect.block (s := S262144x1) S4096x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S2x1x1.size a
  hwx1_4 : ∀ i : grid1.Coords, EltTy.bits .f32 = 32 ∨ (Rect.block (s := S2x1x1) S1x1x1.size (cc1_transform_4 i) (hinb1_4 i)).WholeWords (EltTy.packing .f32)

variable [Facts₀]

def dot_S8192x64_S8192x128_S64x128_0_0_1_1_n_n : DotDims S8192x64 S8192x128 S64x128 where
  lhsContracting := [0]
  rhsContracting := [0]
  lhsNonContracting := [1]
  rhsNonContracting := [1]
  lhsBatch := []
  rhsBatch := []
  wf := dot_S8192x64_S8192x128_S64x128_0_0_1_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S262144x64 : Shape := ⟨2, ![262144, 64]⟩
abbrev S262144 : Shape := ⟨1, ![262144]⟩
abbrev S128x64 : Shape := ⟨2, ![128, 64]⟩
abbrev S128x64x64 : Shape := ⟨3, ![128, 64, 64]⟩
abbrev S_ : Shape := ⟨0, ![]⟩
abbrev S128 : Shape := ⟨1, ![128]⟩
abbrev S262144x1 : Shape := ⟨2, ![262144, 1]⟩
abbrev S128x1 : Shape := ⟨2, ![128, 1]⟩
abbrev S1 : Shape := ⟨1, ![1]⟩
abbrev S1x64 : Shape := ⟨2, ![1, 64]⟩
abbrev S64 : Shape := ⟨1, ![64]⟩

abbrev nBuf : Space → Nat
  | .hbm => 73
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144, .i32⟩
  | .hbm, ⟨2, _⟩ => ⟨S128x64, .f32⟩
  | .hbm, ⟨3, _⟩ => ⟨S128x64x64, .f32⟩
  | .hbm, ⟨4, _⟩ => ⟨S_, .f32⟩
  | .hbm, ⟨5, _⟩ => ⟨S262144, .f32⟩
  | .hbm, ⟨6, _⟩ => ⟨S_, .f32⟩
  | .hbm, ⟨7, _⟩ => ⟨S128, .f32⟩
  | .hbm, ⟨8, _⟩ => ⟨S262144x1, .i32⟩
  | .hbm, ⟨9, _⟩ => ⟨S128, .f32⟩
  | .hbm, ⟨10, _⟩ => ⟨S_, .f32⟩
  | .hbm, ⟨11, _⟩ => ⟨S128x64, .f32⟩
  | .hbm, ⟨12, _⟩ => ⟨S262144x1, .i32⟩
  | .hbm, ⟨13, _⟩ => ⟨S128x64, .f32⟩
  | .hbm, ⟨14, _⟩ => ⟨S128x1, .f32⟩
  | .hbm, ⟨15, _⟩ => ⟨S128x64, .f32⟩
  | .hbm, ⟨16, _⟩ => ⟨S128x64, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x64, .f32⟩
  | .hbm, ⟨26, _⟩ => ⟨S262144x64, .f32⟩
  | .hbm, ⟨27, _⟩ => ⟨S_, .f32⟩
  | .hbm, ⟨28, _⟩ => ⟨S128x64, .f32⟩
  | .hbm, ⟨29, _⟩ => ⟨S262144x1, .i32⟩
  | .hbm, ⟨30, _⟩ => ⟨S128x64, .f32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S262144x64, .f32⟩
  | .hbm, ⟨40, _⟩ => ⟨S262144x64, .f32⟩
  | .hbm, ⟨41, _⟩ => ⟨S_, .f32⟩
  | .hbm, ⟨42, _⟩ => ⟨S262144, .f32⟩
  | .hbm, ⟨43, _⟩ => ⟨S_, .i32⟩
  | .hbm, ⟨44, _⟩ => ⟨S262144, .i32⟩
  | .hbm, ⟨45, _⟩ => ⟨S262144, .i1⟩
  | .hbm, ⟨46, _⟩ => ⟨S_, .i32⟩
  | .hbm, ⟨47, _⟩ => ⟨S262144, .i32⟩
  | .hbm, ⟨48, _⟩ => ⟨S262144, .i32⟩
  | .hbm, ⟨49, _⟩ => ⟨S262144, .i32⟩
  | .hbm, ⟨50, _⟩ => ⟨S262144x1, .i32⟩
  | .hbm, ⟨51, _⟩ => ⟨S262144, .f32⟩
  | .hbm, ⟨52, _⟩ => ⟨S262144, .f32⟩
  | .hbm, ⟨53, _⟩ => ⟨S262144, .f32⟩
  | .hbm, ⟨54, _⟩ => ⟨S_, .f32⟩
  | .hbm, ⟨55, _⟩ => ⟨S128, .f32⟩
  | .hbm, ⟨56, _⟩ => ⟨S262144x1, .i32⟩
  | .hbm, ⟨57, _⟩ => ⟨S128, .f32⟩
  | .hbm, ⟨58, _⟩ => ⟨S1, .f32⟩
  | .hbm, ⟨59, _⟩ => ⟨S_, .f32⟩
  | .hbm, ⟨60, _⟩ => ⟨S1x64, .f32⟩
  | .hbm, ⟨61, _⟩ => ⟨S64, .f32⟩
  | .hbm, ⟨62, _⟩ => ⟨S1x64, .f32⟩
  | .hbm, ⟨63, _⟩ => ⟨S128x64, .f32⟩
  | .hbm, ⟨64, _⟩ => ⟨S128x64, .f32⟩
  | .hbm, ⟨65, _⟩ => ⟨S128x64, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S128x64x64, .f32⟩
  | .hbm, ⟨70, _⟩ => ⟨S_, .f32⟩
  | .hbm, ⟨71, _⟩ => ⟨S_, .f32⟩
  | .hbm, ⟨72, _⟩ => ⟨S_, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S128 : S_.BroadcastsInDim S128 (![] : Fin 0 → Fin S128.rank)
  bcast_S262144_S262144x1_0 : S262144.BroadcastsInDim S262144x1 (![0] : Fin 1 → Fin S262144x1.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  reducesTo_S262144x64_S262144_d1 : S262144x64.ReducesTo [1] S262144
  h_S_ : 0 < S_.numel
  slices_S128_S1_127 : S128.Slices ![127] S1
  shapeCasts_S1_S_ : S1.ShapeCasts S_
  slices_S128x64_S1x64_127_0 : S128x64.Slices ![127, 0] S1x64
  shapeCasts_S1x64_S64 : S1x64.ShapeCasts S64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  reducesTo_S128x64_S_d0_1 : S128x64.ReducesTo [0, 1] S_
  reducesTo_S128x64x64_S_d0_1_2 : S128x64x64.ReducesTo [0, 1, 2] S_
  scatter_S128_S262144x1_S262144_n_0_0_1_wf : ScatterDims.WF S128 S262144x1 S262144 [] [0] [0] 1
  scatter_S128x64_S262144x1_S262144x64_1_0_0_1_wf : ScatterDims.WF S128x64 S262144x1 S262144x64 [1] [0] [0] 1
  gather_S128x64_S262144x1_S262144x64_1_0_n_n_0_1_164_wf : GatherDims.WF S128x64 S262144x1 S262144x64 [1] [0] [] [0] [] 1 ![1, 64]
  gather_S128_S262144x1_S262144_n_0_n_n_0_1_1_wf : GatherDims.WF S128 S262144x1 S262144 [] [0] [] [0] [] 1 ![1]

variable [Facts₀]

def scatter_S128_S262144x1_S262144_n_0_0_1 : ScatterDims S128 S262144x1 S262144 where
  updateWindowDims := []
  insertedWindowDims := [0]
  scatterDimsToOperandDims := [0]
  indexVectorDim := 1
  wf := scatter_S128_S262144x1_S262144_n_0_0_1_wf
def scatter_S128x64_S262144x1_S262144x64_1_0_0_1 : ScatterDims S128x64 S262144x1 S262144x64 where
  updateWindowDims := [1]
  insertedWindowDims := [0]
  scatterDimsToOperandDims := [0]
  indexVectorDim := 1
  wf := scatter_S128x64_S262144x1_S262144x64_1_0_0_1_wf
def gather_S128x64_S262144x1_S262144x64_1_0_n_n_0_1_164 : GatherDims S128x64 S262144x1 S262144x64 where
  offsetDims := [1]
  collapsedSliceDims := [0]
  operandBatchingDims := []
  startIndicesBatchingDims := []
  startIndexMap := [0]
  indexVectorDim := 1
  sliceSizes := ![1, 64]
  wf := gather_S128x64_S262144x1_S262144x64_1_0_n_n_0_1_164_wf
def gather_S128_S262144x1_S262144_n_0_n_n_0_1_1 : GatherDims S128 S262144x1 S262144 where
  offsetDims := []
  collapsedSliceDims := [0]
  operandBatchingDims := []
  startIndicesBatchingDims := []
  startIndexMap := [0]
  indexVectorDim := 1
  sliceSizes := ![1]
  wf := gather_S128_S262144x1_S262144_n_0_n_n_0_1_1_wf

class Facts : Prop extends Facts₀ where

variable [Facts]
-- ==== Proof.K.Shared.lean ====
/- What the two regions' body runs are stated over: each window's block at a grid point read off the array the region
   finds; the two branch conditions of each kernel in closed form over the grid (the first row-block of a half resets the
   accumulators, the last one copies them out); where the output windows are idle; the staging and scratch memrefs; and the
   region invariant with the kernel's own scratch buffers named. -/
import proofs.«406997_j73443940761980_3_alg».proof.Proof.Gen.Kernel.Launch
import proofs.«406997_j73443940761980_3_alg».proof.Proof.Gen.Kernel.Skeleton
import proofs.«406997_j73443940761980_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: the class sums and counts of one half of the rows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first branch of the body: the row-block index within the half is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The second branch: the row-block index within the half is the last, 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev VO0_2 : View sig .tc .vmem S1x64x128 .f32 := (Memref.whole cc0_stg2_0 : Memref sig .tc .vmem S1x64x128 .f32).view
abbrev VO0_3 : View sig .tc .vmem S1x1x128 .f32 := (Memref.whole cc0_stg3_0 : Memref sig .tc .vmem S1x1x128 .f32).view
abbrev ms0_0 (t : Fin cfg0.N) : Memref sig .tc .vmem S8192x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The two accumulators: the sums, feature by class, and the counts by class. -/
abbrev scM0_0 : Memref sig .tc .vmem S64x128 .f32 := Memref.whole cc0_scratch0
abbrev scM0_1 : Memref sig .tc .vmem S1x128 .f32 := Memref.whole cc0_scratch1
abbrev VS0_0 : View sig .tc .vmem S64x128 .f32 := scM0_0.view
abbrev VS0_1 : View sig .tc .vmem S1x128 .f32 := scM0_1.view

/-- The scoped buffers region 0 never touches (region 1's), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

/-! ## Region 1: the squared projections of the last class's rows, one half of the rows -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev VO1_4 : View sig .tc .vmem S1x1x1 .f32 := (Memref.whole cc1_stg4_0 : Memref sig .tc .vmem S1x1x1 .f32).view
abbrev ms1_0 (t : Fin cfg1.N) : Memref sig .tc .vmem S4096x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)
/-- The accumulator of the squared projections. -/
abbrev scM1_0 : Memref sig .tc .vmem S1x1 .f32 := Memref.whole cc1_scratch0
abbrev VS1_0 : View sig .tc .vmem S1x1 .f32 := scM1_0.view

/-- The scoped buffers region 1 never touches (region 0's), each at some contents, beside what is said of the accumulator. -/
def others1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

/-- The class invariant with the accumulator as a memref owned at some contents. -/
theorem PhiA1_eq (c : Dev nD) :
    (Pipeline.ΦA spec1 c : sProp 𝕄)
      = iprop(others1 c (iprop(∃ d, owns (c : Thread nD τ) scM1_0 fullShare d)) ∗ (∃ r, prngReg c r)) := by
  unfold Pipeline.ΦA others1; rw [scopedRest1_eq]; simp only [scM1_0, owns_whole]; try rfl

end Regions

end Cert.Kernel.Fr

end
-- ==== Proof.K.Run0A.lean ====
/- The body of the sums-and-counts kernel at the first row-block of a half: both accumulators are reset, then this block's sums and counts are added. The pieces each buffer ends with are found by running the body. -/
import proofs.«406997_j73443940761980_3_alg».proof.Proof.K.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S8192x64 .f32) (harg2 : arg2.IsWhole) (arg3 : Memref sig .tc .vmem S8192x1 .i32) (harg3 : arg3.IsWhole) (arg4 : Memref sig .tc .vmem S1x64x128 .f32) (harg4 : arg4.IsWhole) (arg5 : Memref sig .tc .vmem S1x1x128 .f32) (harg5 : arg5.IsWhole) (arg6 : Memref sig .tc .vmem S64x128 .f32) (harg6 : arg6.IsWhole) (arg7 : Memref sig .tc .vmem S1x128 .f32) (harg7 : arg7.IsWhole) (hc0 : cond0_0 i) (hc1 : ¬cond0_1 i)
    (x0 : Vec F S8192x64 .f32) (x1 : Vec F S8192x1 .i32) :
    Σ' (L2 : List (View.Piece (Elt F) S1x64x128 .f32)) (L3 : List (View.Piece (Elt F) S1x1x128 .f32)) (LS0 : List (View.Piece (Elt F) S64x128 .f32)), { LS1 : List (View.Piece (Elt F) S1x128 .f32) //
      ∀ (xi2 : Vec F S1x64x128 .f32) (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨[], [], ?_, ?_, fun xi2 xi3 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.K.Run0B.lean ====
/- The body of the sums-and-counts kernel at a middle row-block: this block's sums and counts are added to what the block before left. The pieces each buffer ends with are found by running the body. -/
import proofs.«406997_j73443940761980_3_alg».proof.Proof.K.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S8192x64 .f32) (harg2 : arg2.IsWhole) (arg3 : Memref sig .tc .vmem S8192x1 .i32) (harg3 : arg3.IsWhole) (arg4 : Memref sig .tc .vmem S1x64x128 .f32) (harg4 : arg4.IsWhole) (arg5 : Memref sig .tc .vmem S1x1x128 .f32) (harg5 : arg5.IsWhole) (arg6 : Memref sig .tc .vmem S64x128 .f32) (harg6 : arg6.IsWhole) (arg7 : Memref sig .tc .vmem S1x128 .f32) (harg7 : arg7.IsWhole) (hc0 : ¬cond0_0 i) (hc1 : ¬cond0_1 i)
    (x0 : Vec F S8192x64 .f32) (x1 : Vec F S8192x1 .i32) (xs0 : Vec F S64x128 .f32) (xs1 : Vec F S1x128 .f32) :
    Σ' (L2 : List (View.Piece (Elt F) S1x64x128 .f32)) (L3 : List (View.Piece (Elt F) S1x1x128 .f32)) (LS0 : List (View.Piece (Elt F) S64x128 .f32)), { LS1 : List (View.Piece (Elt F) S1x128 .f32) //
      ∀ (xi2 : Vec F S1x64x128 .f32) (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨[], [], ?_, ?_, fun xi2 xi3 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.K.Run0C.lean ====
/- The body of the sums-and-counts kernel at the last row-block of a half: this block's sums and counts are added, then both accumulators are copied to the output blocks. The pieces each buffer ends with are found by running the body. -/
import proofs.«406997_j73443940761980_3_alg».proof.Proof.K.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S8192x64 .f32) (harg2 : arg2.IsWhole) (arg3 : Memref sig .tc .vmem S8192x1 .i32) (harg3 : arg3.IsWhole) (arg4 : Memref sig .tc .vmem S1x64x128 .f32) (harg4 : arg4.IsWhole) (arg5 : Memref sig .tc .vmem S1x1x128 .f32) (harg5 : arg5.IsWhole) (arg6 : Memref sig .tc .vmem S64x128 .f32) (harg6 : arg6.IsWhole) (arg7 : Memref sig .tc .vmem S1x128 .f32) (harg7 : arg7.IsWhole) (hc0 : ¬cond0_0 i) (hc1 : cond0_1 i)
    (x0 : Vec F S8192x64 .f32) (x1 : Vec F S8192x1 .i32) (xs0 : Vec F S64x128 .f32) (xs1 : Vec F S1x128 .f32) :
    Σ' (L2 : List (View.Piece (Elt F) S1x64x128 .f32)) (L3 : List (View.Piece (Elt F) S1x1x128 .f32)) (LS0 : List (View.Piece (Elt F) S64x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, ?_, ?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Fr

end
-- ==== Proof.K.Reg0.lean ====
/- Region 0 as a pipeline with proof data: what the two output blocks and the two accumulators (the sums, feature by
   class, and the counts by class) hold after each grid point, by recursion on the point — the first row-block of a half
   starts the accumulators afresh, every other one continues from what the point before left, the last one of a half also
   fills the output blocks —; the region invariant that carries the accumulators from point to point; and the body
   obligation at every point. -/
import proofs.«406997_j73443940761980_3_alg».proof.Proof.K.Run0A
import proofs.«406997_j73443940761980_3_alg».proof.Proof.K.Run0B
import proofs.«406997_j73443940761980_3_alg».proof.Proof.K.Run0C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The four buffers' contents after a point: output block of the sums, output block of the counts, the sums' accumulator,
    the counts' accumulator. -/
abbrev Outs0 (F : FTy → Type) [FloatOps F] : Type := Vec F S1x64x128 .f32 × Vec F S1x1x128 .f32 × Vec F S64x128 .f32 × Vec F S1x128 .f32

/-- The body's run at a first row-block of a half, at the point's memrefs and input blocks. -/
abbrev run0A (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)
/-- The body's run at a middle row-block, from the accumulators' contents `xs0`, `xs1`. -/
abbrev run0B (c : Dev nD) (t : Fin cfg0.N) (h0 : ¬t.val % 16 = 0) (h1 : ¬t.val % 16 = 15) (xs0 : Vec F S64x128 .f32) (xs1 : Vec F S1x128 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) xs0 xs1
/-- The body's run at the last row-block of a half. -/
abbrev run0C (c : Dev nD) (t : Fin cfg0.N) (h0 : ¬t.val % 16 = 0) (h1 : t.val % 16 = 15) (xs0 : Vec F S64x128 .f32) (xs1 : Vec F S1x128 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) xs0 xs1

/-- What each case leaves: its pieces read back (an idle output block's entry is a placeholder nothing consults). -/
def case0A (c : Dev nD) (t : Fin cfg0.N) (h0 : t.val % 16 = 0) (h1 : ¬t.val % 16 = 15) : Outs0 F :=
  (VO0_2.read (Elt F) (VO0_2.writes (Elt F) VO0_2.junk (run0A V c t h0 h1).1),
   VO0_3.read (Elt F) (VO0_3.writes (Elt F) VO0_3.junk (run0A V c t h0 h1).2.1),
   VS0_0.read (Elt F) (VS0_0.writes (Elt F) VS0_0.junk (run0A V c t h0 h1).2.2.1),
   VS0_1.read (Elt F) (VS0_1.writes (Elt F) VS0_1.junk (run0A V c t h0 h1).2.2.2.1))
def case0B (c : Dev nD) (t : Fin cfg0.N) (h0 : ¬t.val % 16 = 0) (h1 : ¬t.val % 16 = 15) (xs0 : Vec F S64x128 .f32) (xs1 : Vec F S1x128 .f32) : Outs0 F :=
  (VO0_2.read (Elt F) (VO0_2.writes (Elt F) VO0_2.junk (run0B V c t h0 h1 xs0 xs1).1),
   VO0_3.read (Elt F) (VO0_3.writes (Elt F) VO0_3.junk (run0B V c t h0 h1 xs0 xs1).2.1),
   VS0_0.read (Elt F) (VS0_0.writes (Elt F) VS0_0.junk (run0B V c t h0 h1 xs0 xs1).2.2.1),
   VS0_1.read (Elt F) (VS0_1.writes (Elt F) VS0_1.junk (run0B V c t h0 h1 xs0 xs1).2.2.2.1))
def case0C (c : Dev nD) (t : Fin cfg0.N) (h0 : ¬t.val % 16 = 0) (h1 : t.val % 16 = 15) (xs0 : Vec F S64x128 .f32) (xs1 : Vec F S1x128 .f32) : Outs0 F :=
  (VO0_2.read (Elt F) (VO0_2.writes (Elt F) VO0_2.junk (run0C V c t h0 h1 xs0 xs1).1),
   VO0_3.read (Elt F) (VO0_3.writes (Elt F) VO0_3.junk (run0C V c t h0 h1 xs0 xs1).2.1),
   VS0_0.read (Elt F) (VS0_0.writes (Elt F) VS0_0.junk (run0C V c t h0 h1 xs0 xs1).2.2.1),
   VS0_1.read (Elt F) (VS0_1.writes (Elt F) VS0_1.junk (run0C V c t h0 h1 xs0 xs1).2.2.2.1))

/-- Each case's pieces cover the buffers it stores into. -/
theorem scover0_A_0 (c : Dev nD) (t : Fin cfg0.N) (h0 : t.val % 16 = 0) (h1 : ¬t.val % 16 = 15) (y : S64x128.Idx) :
    ∃ pc ∈ (run0A V c t h0 h1).2.2.1, y ∈ pc.1.set :=
  View.cover_of_tiledL (run0A V c t h0 h1).2.2.1 S64x128.size (by sl_kernel_rfl) y
theorem scover0_A_1 (c : Dev nD) (t : Fin cfg0.N) (h0 : t.val % 16 = 0) (h1 : ¬t.val % 16 = 15) (y : S1x128.Idx) :
    ∃ pc ∈ (run0A V c t h0 h1).2.2.2.1, y ∈ pc.1.set :=
  View.cover_of_tiledL (run0A V c t h0 h1).2.2.2.1 S1x128.size (by sl_kernel_rfl) y
theorem scover0_B_0 (c : Dev nD) (t : Fin cfg0.N) (h0 : ¬t.val % 16 = 0) (h1 : ¬t.val % 16 = 15) (xs0 : Vec F S64x128 .f32) (xs1 : Vec F S1x128 .f32) (y : S64x128.Idx) :
    ∃ pc ∈ (run0B V c t h0 h1 xs0 xs1).2.2.1, y ∈ pc.1.set :=
  View.cover_of_tiledL (run0B V c t h0 h1 xs0 xs1).2.2.1 S64x128.size (by sl_kernel_rfl) y
theorem scover0_B_1 (c : Dev nD) (t : Fin cfg0.N) (h0 : ¬t.val % 16 = 0) (h1 : ¬t.val % 16 = 15) (xs0 : Vec F S64x128 .f32) (xs1 : Vec F S1x128 .f32) (y : S1x128.Idx) :
    ∃ pc ∈ (run0B V c t h0 h1 xs0 xs1).2.2.2.1, y ∈ pc.1.set :=
  View.cover_of_tiledL (run0B V c t h0 h1 xs0 xs1).2.2.2.1 S1x128.size (by sl_kernel_rfl) y
theorem scover0_C_0 (c : Dev nD) (t : Fin cfg0.N) (h0 : ¬t.val % 16 = 0) (h1 : t.val % 16 = 15) (xs0 : Vec F S64x128 .f32) (xs1 : Vec F S1x128 .f32) (y : S64x128.Idx) :
    ∃ pc ∈ (run0C V c t h0 h1 xs0 xs1).2.2.1, y ∈ pc.1.set :=
  View.cover_of_tiledL (run0C V c t h0 h1 xs0 xs1).2.2.1 S64x128.size (by sl_kernel_rfl) y
theorem scover0_C_1 (c : Dev nD) (t : Fin cfg0.N) (h0 : ¬t.val % 16 = 0) (h1 : t.val % 16 = 15) (xs0 : Vec F S64x128 .f32) (xs1 : Vec F S1x128 .f32) (y : S1x128.Idx) :
    ∃ pc ∈ (run0C V c t h0 h1 xs0 xs1).2.2.2.1, y ∈ pc.1.set :=
  View.cover_of_tiledL (run0C V c t h0 h1 xs0 xs1).2.2.2.1 S1x128.size (by sl_kernel_rfl) y
theorem cover0_C_2 (c : Dev nD) (t : Fin cfg0.N) (h0 : ¬t.val % 16 = 0) (h1 : t.val % 16 = 15) (xs0 : Vec F S64x128 .f32) (xs1 : Vec F S1x128 .f32) (y : S1x64x128.Idx) :
    ∃ pc ∈ (run0C V c t h0 h1 xs0 xs1).1, y ∈ pc.1.set :=
  View.cover_of_tiledL (run0C V c t h0 h1 xs0 xs1).1 S1x64x128.size (by sl_kernel_rfl) y
theorem cover0_C_3 (c : Dev nD) (t : Fin cfg0.N) (h0 : ¬t.val % 16 = 0) (h1 : t.val % 16 = 15) (xs0 : Vec F S64x128 .f32) (xs1 : Vec F S1x128 .f32) (y : S1x1x128.Idx) :
    ∃ pc ∈ (run0C V c t h0 h1 xs0 xs1).2.1, y ∈ pc.1.set :=
  View.cover_of_tiledL (run0C V c t h0 h1 xs0 xs1).2.1 S1x1x128.size (by sl_kernel_rfl) y

/-! ## What the buffers hold after each point -/

/-- The accumulation: the case the point's position in its half selects, run at the point's blocks, the accumulators taken
    from what the point before left unless the point starts a half. -/
def outsAt0 (c : Dev nD) : (n : ℕ) → n < cfg0.N → Outs0 F
  | 0, hn => case0A V c ⟨0, hn⟩ (Nat.zero_mod _) (by show ¬(0 % 16 = 15); decide)
  | n + 1, hn =>
    if h0 : (n + 1) % 16 = 0 then
      if h1 : (n + 1) % 16 = 15 then False.elim (by omega)
      else case0A V c ⟨n + 1, hn⟩ h0 h1
    else
      if h1 : (n + 1) % 16 = 15 then
        case0C V c ⟨n + 1, hn⟩ h0 h1 (outsAt0 c n (Nat.lt_of_succ_lt hn)).2.2.1 (outsAt0 c n (Nat.lt_of_succ_lt hn)).2.2.2
      else
        case0B V c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 16 = 0) (h1 : ¬t.val % 16 = 15) :
    outsAt0 V c t.val t.isLt = case0A V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = case0B V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = case0C V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards the
    two accumulators at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 32 := lt_of_lt_of_eq t.isLt (show cfg0.N = 32 from N_0)
  by_cases h0 : t.val % 16 = 0
  · by_cases h1 : t.val % 16 = 15
    · exfalso; omega
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold case0A; (try dsimp only)
      by_cases hz : t.val = 0
      · rw [PhiS0_castSucc V c t, PhiS0_zero V c _ _ hz, PhiA0_eq]
        iintro ⟨⟨⟨HS0, HS1, Hoth⟩, Hg⟩, Ho, ⟨%d0, H0⟩, ⟨%d1, H1⟩, ⟨%d2, H2⟩, ⟨%d3, H3⟩⟩
        iapply ((run0A V c t h0 h1).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 V c t h0 h1)
            isplitl [HS1]
            · unfold owns; iexists _; isplitr
              swap; · iexact HS1
              ipureintro; exact View.read_writes_of_cover _ _ _ _ _ (scover0_A_1 V c t h0 h1)
            iexact Hoth
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨HS0, HS1, Hoth⟩, Hg⟩, Ho, ⟨%d0, H0⟩, ⟨%d1, H1⟩, ⟨%d2, H2⟩, ⟨%d3, H3⟩⟩
        iapply ((run0A V c t h0 h1).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 V c t h0 h1)
            isplitl [HS1]
            · unfold owns; iexists _; isplitr
              swap; · iexact HS1
              ipureintro; exact View.read_writes_of_cover _ _ _ _ _ (scover0_A_1 V c t h0 h1)
            iexact Hoth
          iexact Hg
        isplitl [Ho]; · iexact Ho
        isplitl [H0]; · iexact H0
        isplitl [H1]; · iexact H1
        isplitl [H2]; · iexists _; iexact H2
        iexists _; iexact H3
  · have hz : t.val ≠ 0 := fun hz => h0 (by rw [hz])
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold case0C; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((run0C V c t h0 h1 _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 V c t h0 h1 _ _)
          isplitl [HS1]
          · unfold owns; iexists _; isplitr
            swap; · iexact HS1
            ipureintro; exact View.read_writes_of_cover _ _ _ _ _ (scover0_C_1 V c t h0 h1 _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 V c t h0 h1 _ _)
      unfold owns; iexists _; isplitr
      swap; · iexact H3
      ipureintro; exact View.read_writes_of_cover _ _ _ _ _ (cover0_C_3 V c t h0 h1 _ _)
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold case0B; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((run0B V c t h0 h1 _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 V c t h0 h1 _ _)
          isplitl [HS1]
          · unfold owns; iexists _; isplitr
            swap; · iexact HS1
            ipureintro; exact View.read_writes_of_cover _ _ _ _ _ (scover0_B_1 V c t h0 h1 _ _)
          iexact Hoth
        iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Regions

end Cert.Kernel.Fr

end
-- ==== Proof.K.Run1A.lean ====
/- The body of the squared-projection kernel at the first row-block of a half: the accumulator is reset, then this block's squared projections of the last class's rows are added. The pieces each buffer ends with are found by running the body. -/
import proofs.«406997_j73443940761980_3_alg».proof.Proof.K.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S4096x64 .f32) (harg2 : arg2.IsWhole) (arg3 : Memref sig .tc .vmem S4096x1 .i32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1x1 .f32) (harg6 : arg6.IsWhole) (arg7 : Memref sig .tc .vmem S1x1 .f32) (harg7 : arg7.IsWhole) (hc0 : cond1_0 i) (hc1 : ¬cond1_1 i)
    (x0 : Vec F S4096x64 .f32) (x1 : Vec F S4096x1 .i32) (x2 : Vec F S1x64 .f32) (x3 : Vec F S1x64 .f32) :
    Σ' (L4 : List (View.Piece (Elt F) S1x1x1 .f32)), { LS0 : List (View.Piece (Elt F) S1x1 .f32) //
      ∀ (xi4 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pass3_kernel i arg2 harg2 arg3 harg3 arg4 harg4 arg5 harg5 arg6 harg6 arg7 harg7) K } := by
  refine ⟨[], ?_, fun xi4 E K => ?run⟩
  case run =>
    simp only [cc1__pass3_kernel_eq_skeleton]; unfold cc1__pass3_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.Run1B.lean ====
/- The body of the squared-projection kernel at a middle row-block: this block's squared projections of the last class's rows are added to what the block before left. The pieces each buffer ends with are found by running the body. -/
import proofs.«406997_j73443940761980_3_alg».proof.Proof.K.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S4096x64 .f32) (harg2 : arg2.IsWhole) (arg3 : Memref sig .tc .vmem S4096x1 .i32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1x1 .f32) (harg6 : arg6.IsWhole) (arg7 : Memref sig .tc .vmem S1x1 .f32) (harg7 : arg7.IsWhole) (hc0 : ¬cond1_0 i) (hc1 : ¬cond1_1 i)
    (x0 : Vec F S4096x64 .f32) (x1 : Vec F S4096x1 .i32) (x2 : Vec F S1x64 .f32) (x3 : Vec F S1x64 .f32) (xs0 : Vec F S1x1 .f32) :
    Σ' (L4 : List (View.Piece (Elt F) S1x1x1 .f32)), { LS0 : List (View.Piece (Elt F) S1x1 .f32) //
      ∀ (xi4 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pass3_kernel i arg2 harg2 arg3 harg3 arg4 harg4 arg5 harg5 arg6 harg6 arg7 harg7) K } := by
  refine ⟨[], ?_, fun xi4 E K => ?run⟩
  case run =>
    simp only [cc1__pass3_kernel_eq_skeleton]; unfold cc1__pass3_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.Run1C.lean ====
/- The body of the squared-projection kernel at the last row-block of a half: this block's term is added, then the accumulator is copied to the output block. The pieces each buffer ends with are found by running the body. -/
import proofs.«406997_j73443940761980_3_alg».proof.Proof.K.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S4096x64 .f32) (harg2 : arg2.IsWhole) (arg3 : Memref sig .tc .vmem S4096x1 .i32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1x1 .f32) (harg6 : arg6.IsWhole) (arg7 : Memref sig .tc .vmem S1x1 .f32) (harg7 : arg7.IsWhole) (hc0 : ¬cond1_0 i) (hc1 : cond1_1 i)
    (x0 : Vec F S4096x64 .f32) (x1 : Vec F S4096x1 .i32) (x2 : Vec F S1x64 .f32) (x3 : Vec F S1x64 .f32) (xs0 : Vec F S1x1 .f32) :
    Σ' (L4 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__pass3_kernel i arg2 harg2 arg3 harg3 arg4 harg4 arg5 harg5 arg6 harg6 arg7 harg7) K } := by
  refine ⟨?_, ?_, fun E K => ?run⟩
  case run =>
    simp only [cc1__pass3_kernel_eq_skeleton]; unfold cc1__pass3_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.K.Reg1.lean ====
/- Region 1 as a pipeline with proof data: what the output block and the accumulator of the squared projections hold after
   each grid point, by recursion on the point — the first row-block of a half starts the accumulator afresh, every other one
   continues from what the point before left, the last one of a half also fills the output block —; the region invariant
   that carries the accumulator from point to point; and the body obligation at every point. -/
import proofs.«406997_j73443940761980_3_alg».proof.Proof.K.Run1A
import proofs.«406997_j73443940761980_3_alg».proof.Proof.K.Run1B
import proofs.«406997_j73443940761980_3_alg».proof.Proof.K.Run1C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The two buffers' contents after a point: the output block, the accumulator. -/
abbrev Outs1 (F : FTy → Type) [FloatOps F] : Type := Vec F S1x1x1 .f32 × Vec F S1x1 .f32

abbrev run1A (c : Dev nD) (t : Fin cfg1.N) (h0 : t.val % 32 = 0) (h1 : ¬t.val % 32 = 31) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)
abbrev run1B (c : Dev nD) (t : Fin cfg1.N) (h0 : ¬t.val % 32 = 0) (h1 : ¬t.val % 32 = 31) (xs0 : Vec F S1x1 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs0
abbrev run1C (c : Dev nD) (t : Fin cfg1.N) (h0 : ¬t.val % 32 = 0) (h1 : t.val % 32 = 31) (xs0 : Vec F S1x1 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) xs0

/-- What each case leaves: its pieces read back (an idle output block's entry is a placeholder nothing consults). -/
def case1A (c : Dev nD) (t : Fin cfg1.N) (h0 : t.val % 32 = 0) (h1 : ¬t.val % 32 = 31) : Outs1 F :=
  (VO1_4.read (Elt F) (VO1_4.writes (Elt F) VO1_4.junk (run1A V c t h0 h1).1),
   VS1_0.read (Elt F) (VS1_0.writes (Elt F) VS1_0.junk (run1A V c t h0 h1).2.1))
def case1B (c : Dev nD) (t : Fin cfg1.N) (h0 : ¬t.val % 32 = 0) (h1 : ¬t.val % 32 = 31) (xs0 : Vec F S1x1 .f32) : Outs1 F :=
  (VO1_4.read (Elt F) (VO1_4.writes (Elt F) VO1_4.junk (run1B V c t h0 h1 xs0).1),
   VS1_0.read (Elt F) (VS1_0.writes (Elt F) VS1_0.junk (run1B V c t h0 h1 xs0).2.1))
def case1C (c : Dev nD) (t : Fin cfg1.N) (h0 : ¬t.val % 32 = 0) (h1 : t.val % 32 = 31) (xs0 : Vec F S1x1 .f32) : Outs1 F :=
  (VO1_4.read (Elt F) (VO1_4.writes (Elt F) VO1_4.junk (run1C V c t h0 h1 xs0).1),
   VS1_0.read (Elt F) (VS1_0.writes (Elt F) VS1_0.junk (run1C V c t h0 h1 xs0).2.1))

theorem scover1_A_0 (c : Dev nD) (t : Fin cfg1.N) (h0 : t.val % 32 = 0) (h1 : ¬t.val % 32 = 31) (y : S1x1.Idx) :
    ∃ pc ∈ (run1A V c t h0 h1).2.1, y ∈ pc.1.set :=
  View.cover_of_tiledL (run1A V c t h0 h1).2.1 S1x1.size (by sl_kernel_rfl) y
theorem scover1_B_0 (c : Dev nD) (t : Fin cfg1.N) (h0 : ¬t.val % 32 = 0) (h1 : ¬t.val % 32 = 31) (xs0 : Vec F S1x1 .f32) (y : S1x1.Idx) :
    ∃ pc ∈ (run1B V c t h0 h1 xs0).2.1, y ∈ pc.1.set :=
  View.cover_of_tiledL (run1B V c t h0 h1 xs0).2.1 S1x1.size (by sl_kernel_rfl) y
theorem scover1_C_0 (c : Dev nD) (t : Fin cfg1.N) (h0 : ¬t.val % 32 = 0) (h1 : t.val % 32 = 31) (xs0 : Vec F S1x1 .f32) (y : S1x1.Idx) :
    ∃ pc ∈ (run1C V c t h0 h1 xs0).2.1, y ∈ pc.1.set :=
  View.cover_of_tiledL (run1C V c t h0 h1 xs0).2.1 S1x1.size (by sl_kernel_rfl) y
theorem cover1_C_4 (c : Dev nD) (t : Fin cfg1.N) (h0 : ¬t.val % 32 = 0) (h1 : t.val % 32 = 31) (xs0 : Vec F S1x1 .f32) (y : S1x1x1.Idx) :
    ∃ pc ∈ (run1C V c t h0 h1 xs0).1, y ∈ pc.1.set :=
  View.cover_of_tiledL (run1C V c t h0 h1 xs0).1 S1x1x1.size (by sl_kernel_rfl) y

/-! ## What the buffers hold after each point -/

def outsAt1 (c : Dev nD) : (n : ℕ) → n < cfg1.N → Outs1 F
  | 0, hn => case1A V c ⟨0, hn⟩ (Nat.zero_mod _) (by show ¬(0 % 32 = 31); decide)
  | n + 1, hn =>
    if h0 : (n + 1) % 32 = 0 then
      if h1 : (n + 1) % 32 = 31 then False.elim (by omega)
      else case1A V c ⟨n + 1, hn⟩ h0 h1
    else
      if h1 : (n + 1) % 32 = 31 then
        case1C V c ⟨n + 1, hn⟩ h0 h1 (outsAt1 c n (Nat.lt_of_succ_lt hn)).2
      else
        case1B V c ⟨n + 1, hn⟩ h0 h1 (outsAt1 c n (Nat.lt_of_succ_lt hn)).2

theorem outsAt1_A (c : Dev nD) (t : Fin cfg1.N) (h0 : t.val % 32 = 0) (h1 : ¬t.val % 32 = 31) :
    outsAt1 V c t.val t.isLt = case1A V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = case1B V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = case1C V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the point
    before left, the other scoped buffers at anything, the generator register at some state. -/
def PhiS1 (c : Dev nD) : (n : ℕ) → n ≤ cfg1.N → sProp 𝕄
  | 0, _ => Pipeline.ΦA spec1 c
  | n + 1, hn => iprop(others1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(others1 c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(others1 c (owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 64 := lt_of_lt_of_eq t.isLt (show cfg1.N = 64 from N_1)
  by_cases h0 : t.val % 32 = 0
  · by_cases h1 : t.val % 32 = 31
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold case1A; (try dsimp only)
      by_cases hz : t.val = 0
      · rw [PhiS1_castSucc V c t, PhiS1_zero V c _ _ hz, PhiA1_eq]
        unfold others1
        iintro ⟨⟨⟨O1, O2, O3, O4, O5, O6, O7, O8, O9, O10, HS0⟩, Hg⟩, Ho, ⟨%d0, H0⟩, ⟨%d1, H1⟩, ⟨%d2, H2⟩, ⟨%d3, H3⟩, ⟨%d4, H4⟩⟩
        iapply ((run1A V c t h0 h1).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [O1 O2 O3 O4 O5 O6 O7 O8 O9 O10 HS0 Hg]
        · isplitl [O1 O2 O3 O4 O5 O6 O7 O8 O9 O10 HS0]
          · isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            unfold owns; iexists _; isplitr
            swap; · iexact HS0
            ipureintro; exact View.read_writes_of_cover _ _ _ _ _ (scover1_A_0 V c t h0 h1)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        unfold others1
        iintro ⟨⟨⟨O1, O2, O3, O4, O5, O6, O7, O8, O9, O10, HS0⟩, Hg⟩, Ho, ⟨%d0, H0⟩, ⟨%d1, H1⟩, ⟨%d2, H2⟩, ⟨%d3, H3⟩, ⟨%d4, H4⟩⟩
        iapply ((run1A V c t h0 h1).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [O1 O2 O3 O4 O5 O6 O7 O8 O9 O10 HS0 Hg]
        · isplitl [O1 O2 O3 O4 O5 O6 O7 O8 O9 O10 HS0]
          · isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            unfold owns; iexists _; isplitr
            swap; · iexact HS0
            ipureintro; exact View.read_writes_of_cover _ _ _ _ _ (scover1_A_0 V c t h0 h1)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 32 = 31
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold case1C; (try dsimp only)
      rw [PhiS1_castSucc V c t, PhiS1_pos V c _ _ hz]
      unfold others1
      iintro ⟨⟨⟨O1, O2, O3, O4, O5, O6, O7, O8, O9, O10, HS0⟩, Hg⟩, Ho, ⟨%d0, H0⟩, ⟨%d1, H1⟩, ⟨%d2, H2⟩, ⟨%d3, H3⟩, ⟨%d4, H4⟩⟩
      iapply ((run1C V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [O1 O2 O3 O4 O5 O6 O7 O8 O9 O10 HS0 Hg]
      · isplitl [O1 O2 O3 O4 O5 O6 O7 O8 O9 O10 HS0]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          unfold owns; iexists _; isplitr
          swap; · iexact HS0
          ipureintro; exact View.read_writes_of_cover _ _ _ _ _ (scover1_C_0 V c t h0 h1 _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 V c t h0 h1 _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold case1B; (try dsimp only)
      rw [PhiS1_castSucc V c t, PhiS1_pos V c _ _ hz]
      unfold others1
      iintro ⟨⟨⟨O1, O2, O3, O4, O5, O6, O7, O8, O9, O10, HS0⟩, Hg⟩, Ho, ⟨%d0, H0⟩, ⟨%d1, H1⟩, ⟨%d2, H2⟩, ⟨%d3, H3⟩, ⟨%d4, H4⟩⟩
      iapply ((run1B V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [O1 O2 O3 O4 O5 O6 O7 O8 O9 O10 HS0 Hg]
      · isplitl [O1 O2 O3 O4 O5 O6 O7 O8 O9 O10 HS0]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          unfold owns; iexists _; isplitr
          swap; · iexact HS0
          ipureintro; exact View.read_writes_of_cover _ _ _ _ _ (scover1_B_0 V c t h0 h1 _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  unfold others1
  iintro ⟨⟨O1, O2, O3, O4, O5, O6, O7, O8, O9, O10, HS0⟩, Hg⟩
  isplitl [O1 O2 O3 O4 O5 O6 O7 O8 O9 O10 HS0]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    iexists _; iexact HS0
  iexact Hg

end Regions

end Cert.Kernel.Fr

end
-- ==== Proof.KI.Shared.lean ====
/- What the two regions' body runs are stated over: each window's block at a grid point read off the array the region
   finds; the two branch conditions of each kernel in closed form over the grid (the first row-block of a half resets the
   accumulators, the last one copies them out); where the output windows are idle; the staging and scratch memrefs; and the
   region invariant with the kernel's own scratch buffers named. -/
import proofs.«406997_j73443940761980_3_alg».proof.Proof.Gen.KernelIdeal.Launch
import proofs.«406997_j73443940761980_3_alg».proof.Proof.Gen.KernelIdeal.Skeleton
import proofs.«406997_j73443940761980_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: the class sums and counts of one half of the rows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first branch of the body: the row-block index within the half is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The second branch: the row-block index within the half is the last, 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev VO0_2 : View sig .tc .vmem S1x64x128 .f32 := (Memref.whole cc0_stg2_0 : Memref sig .tc .vmem S1x64x128 .f32).view
abbrev VO0_3 : View sig .tc .vmem S1x1x128 .f32 := (Memref.whole cc0_stg3_0 : Memref sig .tc .vmem S1x1x128 .f32).view
abbrev ms0_0 (t : Fin cfg0.N) : Memref sig .tc .vmem S8192x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The two accumulators: the sums, feature by class, and the counts by class. -/
abbrev scM0_0 : Memref sig .tc .vmem S64x128 .f32 := Memref.whole cc0_scratch0
abbrev scM0_1 : Memref sig .tc .vmem S1x128 .f32 := Memref.whole cc0_scratch1
abbrev VS0_0 : View sig .tc .vmem S64x128 .f32 := scM0_0.view
abbrev VS0_1 : View sig .tc .vmem S1x128 .f32 := scM0_1.view

/-- The scoped buffers region 0 never touches (region 1's), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

/-! ## Region 1: the squared projections of the last class's rows, one half of the rows -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev VO1_4 : View sig .tc .vmem S1x1x1 .f32 := (Memref.whole cc1_stg4_0 : Memref sig .tc .vmem S1x1x1 .f32).view
abbrev ms1_0 (t : Fin cfg1.N) : Memref sig .tc .vmem S4096x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)
/-- The accumulator of the squared projections. -/
abbrev scM1_0 : Memref sig .tc .vmem S1x1 .f32 := Memref.whole cc1_scratch0
abbrev VS1_0 : View sig .tc .vmem S1x1 .f32 := scM1_0.view

/-- The scoped buffers region 1 never touches (region 0's), each at some contents, beside what is said of the accumulator. -/
def others1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

/-- The class invariant with the accumulator as a memref owned at some contents. -/
theorem PhiA1_eq (c : Dev nD) :
    (Pipeline.ΦA spec1 c : sProp 𝕄)
      = iprop(others1 c (iprop(∃ d, owns (c : Thread nD τ) scM1_0 fullShare d)) ∗ (∃ r, prngReg c r)) := by
  unfold Pipeline.ΦA others1; rw [scopedRest1_eq]; simp only [scM1_0, owns_whole]; try rfl

end Regions

end Cert.KernelIdeal.Fr

end
-- ==== Proof.KI.Run0A.lean ====
/- The body of the sums-and-counts kernel at the first row-block of a half: both accumulators are reset, then this block's sums and counts are added. The pieces each buffer ends with are found by running the body. -/
import proofs.«406997_j73443940761980_3_alg».proof.Proof.KI.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S8192x64 .f32) (harg2 : arg2.IsWhole) (arg3 : Memref sig .tc .vmem S8192x1 .i32) (harg3 : arg3.IsWhole) (arg4 : Memref sig .tc .vmem S1x64x128 .f32) (harg4 : arg4.IsWhole) (arg5 : Memref sig .tc .vmem S1x1x128 .f32) (harg5 : arg5.IsWhole) (arg6 : Memref sig .tc .vmem S64x128 .f32) (harg6 : arg6.IsWhole) (arg7 : Memref sig .tc .vmem S1x128 .f32) (harg7 : arg7.IsWhole) (hc0 : cond0_0 i) (hc1 : ¬cond0_1 i)
    (x0 : Vec F S8192x64 .f32) (x1 : Vec F S8192x1 .i32) :
    Σ' (L2 : List (View.Piece (Elt F) S1x64x128 .f32)) (L3 : List (View.Piece (Elt F) S1x1x128 .f32)) (LS0 : List (View.Piece (Elt F) S64x128 .f32)), { LS1 : List (View.Piece (Elt F) S1x128 .f32) //
      ∀ (xi2 : Vec F S1x64x128 .f32) (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨[], [], ?_, ?_, fun xi2 xi3 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.KI.Run0B.lean ====
/- The body of the sums-and-counts kernel at a middle row-block: this block's sums and counts are added to what the block before left. The pieces each buffer ends with are found by running the body. -/
import proofs.«406997_j73443940761980_3_alg».proof.Proof.KI.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S8192x64 .f32) (harg2 : arg2.IsWhole) (arg3 : Memref sig .tc .vmem S8192x1 .i32) (harg3 : arg3.IsWhole) (arg4 : Memref sig .tc .vmem S1x64x128 .f32) (harg4 : arg4.IsWhole) (arg5 : Memref sig .tc .vmem S1x1x128 .f32) (harg5 : arg5.IsWhole) (arg6 : Memref sig .tc .vmem S64x128 .f32) (harg6 : arg6.IsWhole) (arg7 : Memref sig .tc .vmem S1x128 .f32) (harg7 : arg7.IsWhole) (hc0 : ¬cond0_0 i) (hc1 : ¬cond0_1 i)
    (x0 : Vec F S8192x64 .f32) (x1 : Vec F S8192x1 .i32) (xs0 : Vec F S64x128 .f32) (xs1 : Vec F S1x128 .f32) :
    Σ' (L2 : List (View.Piece (Elt F) S1x64x128 .f32)) (L3 : List (View.Piece (Elt F) S1x1x128 .f32)) (LS0 : List (View.Piece (Elt F) S64x128 .f32)), { LS1 : List (View.Piece (Elt F) S1x128 .f32) //
      ∀ (xi2 : Vec F S1x64x128 .f32) (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨[], [], ?_, ?_, fun xi2 xi3 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.KI.Run0C.lean ====
/- The body of the sums-and-counts kernel at the last row-block of a half: this block's sums and counts are added, then both accumulators are copied to the output blocks. The pieces each buffer ends with are found by running the body. -/
import proofs.«406997_j73443940761980_3_alg».proof.Proof.KI.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S8192x64 .f32) (harg2 : arg2.IsWhole) (arg3 : Memref sig .tc .vmem S8192x1 .i32) (harg3 : arg3.IsWhole) (arg4 : Memref sig .tc .vmem S1x64x128 .f32) (harg4 : arg4.IsWhole) (arg5 : Memref sig .tc .vmem S1x1x128 .f32) (harg5 : arg5.IsWhole) (arg6 : Memref sig .tc .vmem S64x128 .f32) (harg6 : arg6.IsWhole) (arg7 : Memref sig .tc .vmem S1x128 .f32) (harg7 : arg7.IsWhole) (hc0 : ¬cond0_0 i) (hc1 : cond0_1 i)
    (x0 : Vec F S8192x64 .f32) (x1 : Vec F S8192x1 .i32) (xs0 : Vec F S64x128 .f32) (xs1 : Vec F S1x128 .f32) :
    Σ' (L2 : List (View.Piece (Elt F) S1x64x128 .f32)) (L3 : List (View.Piece (Elt F) S1x1x128 .f32)) (LS0 : List (View.Piece (Elt F) S64x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, ?_, ?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Fr

end
-- ==== Proof.KI.Reg0.lean ====
/- Region 0 as a pipeline with proof data: what the two output blocks and the two accumulators (the sums, feature by
   class, and the counts by class) hold after each grid point, by recursion on the point — the first row-block of a half
   starts the accumulators afresh, every other one continues from what the point before left, the last one of a half also
   fills the output blocks —; the region invariant that carries the accumulators from point to point; and the body
   obligation at every point. -/
import proofs.«406997_j73443940761980_3_alg».proof.Proof.KI.Run0A
import proofs.«406997_j73443940761980_3_alg».proof.Proof.KI.Run0B
import proofs.«406997_j73443940761980_3_alg».proof.Proof.KI.Run0C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The four buffers' contents after a point: output block of the sums, output block of the counts, the sums' accumulator,
    the counts' accumulator. -/
abbrev Outs0 (F : FTy → Type) [FloatOps F] : Type := Vec F S1x64x128 .f32 × Vec F S1x1x128 .f32 × Vec F S64x128 .f32 × Vec F S1x128 .f32

/-- The body's run at a first row-block of a half, at the point's memrefs and input blocks. -/
abbrev run0A (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)
/-- The body's run at a middle row-block, from the accumulators' contents `xs0`, `xs1`. -/
abbrev run0B (c : Dev nD) (t : Fin cfg0.N) (h0 : ¬t.val % 16 = 0) (h1 : ¬t.val % 16 = 15) (xs0 : Vec F S64x128 .f32) (xs1 : Vec F S1x128 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) xs0 xs1
/-- The body's run at the last row-block of a half. -/
abbrev run0C (c : Dev nD) (t : Fin cfg0.N) (h0 : ¬t.val % 16 = 0) (h1 : t.val % 16 = 15) (xs0 : Vec F S64x128 .f32) (xs1 : Vec F S1x128 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) xs0 xs1

/-- What each case leaves: its pieces read back (an idle output block's entry is a placeholder nothing consults). -/
def case0A (c : Dev nD) (t : Fin cfg0.N) (h0 : t.val % 16 = 0) (h1 : ¬t.val % 16 = 15) : Outs0 F :=
  (VO0_2.read (Elt F) (VO0_2.writes (Elt F) VO0_2.junk (run0A V c t h0 h1).1),
   VO0_3.read (Elt F) (VO0_3.writes (Elt F) VO0_3.junk (run0A V c t h0 h1).2.1),
   VS0_0.read (Elt F) (VS0_0.writes (Elt F) VS0_0.junk (run0A V c t h0 h1).2.2.1),
   VS0_1.read (Elt F) (VS0_1.writes (Elt F) VS0_1.junk (run0A V c t h0 h1).2.2.2.1))
def case0B (c : Dev nD) (t : Fin cfg0.N) (h0 : ¬t.val % 16 = 0) (h1 : ¬t.val % 16 = 15) (xs0 : Vec F S64x128 .f32) (xs1 : Vec F S1x128 .f32) : Outs0 F :=
  (VO0_2.read (Elt F) (VO0_2.writes (Elt F) VO0_2.junk (run0B V c t h0 h1 xs0 xs1).1),
   VO0_3.read (Elt F) (VO0_3.writes (Elt F) VO0_3.junk (run0B V c t h0 h1 xs0 xs1).2.1),
   VS0_0.read (Elt F) (VS0_0.writes (Elt F) VS0_0.junk (run0B V c t h0 h1 xs0 xs1).2.2.1),
   VS0_1.read (Elt F) (VS0_1.writes (Elt F) VS0_1.junk (run0B V c t h0 h1 xs0 xs1).2.2.2.1))
def case0C (c : Dev nD) (t : Fin cfg0.N) (h0 : ¬t.val % 16 = 0) (h1 : t.val % 16 = 15) (xs0 : Vec F S64x128 .f32) (xs1 : Vec F S1x128 .f32) : Outs0 F :=
  (VO0_2.read (Elt F) (VO0_2.writes (Elt F) VO0_2.junk (run0C V c t h0 h1 xs0 xs1).1),
   VO0_3.read (Elt F) (VO0_3.writes (Elt F) VO0_3.junk (run0C V c t h0 h1 xs0 xs1).2.1),
   VS0_0.read (Elt F) (VS0_0.writes (Elt F) VS0_0.junk (run0C V c t h0 h1 xs0 xs1).2.2.1),
   VS0_1.read (Elt F) (VS0_1.writes (Elt F) VS0_1.junk (run0C V c t h0 h1 xs0 xs1).2.2.2.1))

/-- Each case's pieces cover the buffers it stores into. -/
theorem scover0_A_0 (c : Dev nD) (t : Fin cfg0.N) (h0 : t.val % 16 = 0) (h1 : ¬t.val % 16 = 15) (y : S64x128.Idx) :
    ∃ pc ∈ (run0A V c t h0 h1).2.2.1, y ∈ pc.1.set :=
  View.cover_of_tiledL (run0A V c t h0 h1).2.2.1 S64x128.size (by sl_kernel_rfl) y
theorem scover0_A_1 (c : Dev nD) (t : Fin cfg0.N) (h0 : t.val % 16 = 0) (h1 : ¬t.val % 16 = 15) (y : S1x128.Idx) :
    ∃ pc ∈ (run0A V c t h0 h1).2.2.2.1, y ∈ pc.1.set :=
  View.cover_of_tiledL (run0A V c t h0 h1).2.2.2.1 S1x128.size (by sl_kernel_rfl) y
theorem scover0_B_0 (c : Dev nD) (t : Fin cfg0.N) (h0 : ¬t.val % 16 = 0) (h1 : ¬t.val % 16 = 15) (xs0 : Vec F S64x128 .f32) (xs1 : Vec F S1x128 .f32) (y : S64x128.Idx) :
    ∃ pc ∈ (run0B V c t h0 h1 xs0 xs1).2.2.1, y ∈ pc.1.set :=
  View.cover_of_tiledL (run0B V c t h0 h1 xs0 xs1).2.2.1 S64x128.size (by sl_kernel_rfl) y
theorem scover0_B_1 (c : Dev nD) (t : Fin cfg0.N) (h0 : ¬t.val % 16 = 0) (h1 : ¬t.val % 16 = 15) (xs0 : Vec F S64x128 .f32) (xs1 : Vec F S1x128 .f32) (y : S1x128.Idx) :
    ∃ pc ∈ (run0B V c t h0 h1 xs0 xs1).2.2.2.1, y ∈ pc.1.set :=
  View.cover_of_tiledL (run0B V c t h0 h1 xs0 xs1).2.2.2.1 S1x128.size (by sl_kernel_rfl) y
theorem scover0_C_0 (c : Dev nD) (t : Fin cfg0.N) (h0 : ¬t.val % 16 = 0) (h1 : t.val % 16 = 15) (xs0 : Vec F S64x128 .f32) (xs1 : Vec F S1x128 .f32) (y : S64x128.Idx) :
    ∃ pc ∈ (run0C V c t h0 h1 xs0 xs1).2.2.1, y ∈ pc.1.set :=
  View.cover_of_tiledL (run0C V c t h0 h1 xs0 xs1).2.2.1 S64x128.size (by sl_kernel_rfl) y
theorem scover0_C_1 (c : Dev nD) (t : Fin cfg0.N) (h0 : ¬t.val % 16 = 0) (h1 : t.val % 16 = 15) (xs0 : Vec F S64x128 .f32) (xs1 : Vec F S1x128 .f32) (y : S1x128.Idx) :
    ∃ pc ∈ (run0C V c t h0 h1 xs0 xs1).2.2.2.1, y ∈ pc.1.set :=
  View.cover_of_tiledL (run0C V c t h0 h1 xs0 xs1).2.2.2.1 S1x128.size (by sl_kernel_rfl) y
theorem cover0_C_2 (c : Dev nD) (t : Fin cfg0.N) (h0 : ¬t.val % 16 = 0) (h1 : t.val % 16 = 15) (xs0 : Vec F S64x128 .f32) (xs1 : Vec F S1x128 .f32) (y : S1x64x128.Idx) :
    ∃ pc ∈ (run0C V c t h0 h1 xs0 xs1).1, y ∈ pc.1.set :=
  View.cover_of_tiledL (run0C V c t h0 h1 xs0 xs1).1 S1x64x128.size (by sl_kernel_rfl) y
theorem cover0_C_3 (c : Dev nD) (t : Fin cfg0.N) (h0 : ¬t.val % 16 = 0) (h1 : t.val % 16 = 15) (xs0 : Vec F S64x128 .f32) (xs1 : Vec F S1x128 .f32) (y : S1x1x128.Idx) :
    ∃ pc ∈ (run0C V c t h0 h1 xs0 xs1).2.1, y ∈ pc.1.set :=
  View.cover_of_tiledL (run0C V c t h0 h1 xs0 xs1).2.1 S1x1x128.size (by sl_kernel_rfl) y

/-! ## What the buffers hold after each point -/

/-- The accumulation: the case the point's position in its half selects, run at the point's blocks, the accumulators taken
    from what the point before left unless the point starts a half. -/
def outsAt0 (c : Dev nD) : (n : ℕ) → n < cfg0.N → Outs0 F
  | 0, hn => case0A V c ⟨0, hn⟩ (Nat.zero_mod _) (by show ¬(0 % 16 = 15); decide)
  | n + 1, hn =>
    if h0 : (n + 1) % 16 = 0 then
      if h1 : (n + 1) % 16 = 15 then False.elim (by omega)
      else case0A V c ⟨n + 1, hn⟩ h0 h1
    else
      if h1 : (n + 1) % 16 = 15 then
        case0C V c ⟨n + 1, hn⟩ h0 h1 (outsAt0 c n (Nat.lt_of_succ_lt hn)).2.2.1 (outsAt0 c n (Nat.lt_of_succ_lt hn)).2.2.2
      else
        case0B V c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 16 = 0) (h1 : ¬t.val % 16 = 15) :
    outsAt0 V c t.val t.isLt = case0A V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = case0B V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = case0C V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards the
    two accumulators at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 32 := lt_of_lt_of_eq t.isLt (show cfg0.N = 32 from N_0)
  by_cases h0 : t.val % 16 = 0
  · by_cases h1 : t.val % 16 = 15
    · exfalso; omega
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold case0A; (try dsimp only)
      by_cases hz : t.val = 0
      · rw [PhiS0_castSucc V c t, PhiS0_zero V c _ _ hz, PhiA0_eq]
        iintro ⟨⟨⟨HS0, HS1, Hoth⟩, Hg⟩, Ho, ⟨%d0, H0⟩, ⟨%d1, H1⟩, ⟨%d2, H2⟩, ⟨%d3, H3⟩⟩
        iapply ((run0A V c t h0 h1).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 V c t h0 h1)
            isplitl [HS1]
            · unfold owns; iexists _; isplitr
              swap; · iexact HS1
              ipureintro; exact View.read_writes_of_cover _ _ _ _ _ (scover0_A_1 V c t h0 h1)
            iexact Hoth
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨HS0, HS1, Hoth⟩, Hg⟩, Ho, ⟨%d0, H0⟩, ⟨%d1, H1⟩, ⟨%d2, H2⟩, ⟨%d3, H3⟩⟩
        iapply ((run0A V c t h0 h1).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 V c t h0 h1)
            isplitl [HS1]
            · unfold owns; iexists _; isplitr
              swap; · iexact HS1
              ipureintro; exact View.read_writes_of_cover _ _ _ _ _ (scover0_A_1 V c t h0 h1)
            iexact Hoth
          iexact Hg
        isplitl [Ho]; · iexact Ho
        isplitl [H0]; · iexact H0
        isplitl [H1]; · iexact H1
        isplitl [H2]; · iexists _; iexact H2
        iexists _; iexact H3
  · have hz : t.val ≠ 0 := fun hz => h0 (by rw [hz])
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold case0C; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((run0C V c t h0 h1 _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 V c t h0 h1 _ _)
          isplitl [HS1]
          · unfold owns; iexists _; isplitr
            swap; · iexact HS1
            ipureintro; exact View.read_writes_of_cover _ _ _ _ _ (scover0_C_1 V c t h0 h1 _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 V c t h0 h1 _ _)
      unfold owns; iexists _; isplitr
      swap; · iexact H3
      ipureintro; exact View.read_writes_of_cover _ _ _ _ _ (cover0_C_3 V c t h0 h1 _ _)
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold case0B; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((run0B V c t h0 h1 _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 V c t h0 h1 _ _)
          isplitl [HS1]
          · unfold owns; iexists _; isplitr
            swap; · iexact HS1
            ipureintro; exact View.read_writes_of_cover _ _ _ _ _ (scover0_B_1 V c t h0 h1 _ _)
          iexact Hoth
        iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Regions

end Cert.KernelIdeal.Fr

end
-- ==== Proof.KI.Run1A.lean ====
/- The body of the squared-projection kernel at the first row-block of a half: the accumulator is reset, then this block's squared projections of the last class's rows are added. The pieces each buffer ends with are found by running the body. -/
import proofs.«406997_j73443940761980_3_alg».proof.Proof.KI.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S4096x64 .f32) (harg2 : arg2.IsWhole) (arg3 : Memref sig .tc .vmem S4096x1 .i32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1x1 .f32) (harg6 : arg6.IsWhole) (arg7 : Memref sig .tc .vmem S1x1 .f32) (harg7 : arg7.IsWhole) (hc0 : cond1_0 i) (hc1 : ¬cond1_1 i)
    (x0 : Vec F S4096x64 .f32) (x1 : Vec F S4096x1 .i32) (x2 : Vec F S1x64 .f32) (x3 : Vec F S1x64 .f32) :
    Σ' (L4 : List (View.Piece (Elt F) S1x1x1 .f32)), { LS0 : List (View.Piece (Elt F) S1x1 .f32) //
      ∀ (xi4 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pass3_kernel i arg2 harg2 arg3 harg3 arg4 harg4 arg5 harg5 arg6 harg6 arg7 harg7) K } := by
  refine ⟨[], ?_, fun xi4 E K => ?run⟩
  case run =>
    simp only [cc1__pass3_kernel_eq_skeleton]; unfold cc1__pass3_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.Run1B.lean ====
/- The body of the squared-projection kernel at a middle row-block: this block's squared projections of the last class's rows are added to what the block before left. The pieces each buffer ends with are found by running the body. -/
import proofs.«406997_j73443940761980_3_alg».proof.Proof.KI.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S4096x64 .f32) (harg2 : arg2.IsWhole) (arg3 : Memref sig .tc .vmem S4096x1 .i32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1x1 .f32) (harg6 : arg6.IsWhole) (arg7 : Memref sig .tc .vmem S1x1 .f32) (harg7 : arg7.IsWhole) (hc0 : ¬cond1_0 i) (hc1 : ¬cond1_1 i)
    (x0 : Vec F S4096x64 .f32) (x1 : Vec F S4096x1 .i32) (x2 : Vec F S1x64 .f32) (x3 : Vec F S1x64 .f32) (xs0 : Vec F S1x1 .f32) :
    Σ' (L4 : List (View.Piece (Elt F) S1x1x1 .f32)), { LS0 : List (View.Piece (Elt F) S1x1 .f32) //
      ∀ (xi4 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pass3_kernel i arg2 harg2 arg3 harg3 arg4 harg4 arg5 harg5 arg6 harg6 arg7 harg7) K } := by
  refine ⟨[], ?_, fun xi4 E K => ?run⟩
  case run =>
    simp only [cc1__pass3_kernel_eq_skeleton]; unfold cc1__pass3_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.Run1C.lean ====
/- The body of the squared-projection kernel at the last row-block of a half: this block's term is added, then the accumulator is copied to the output block. The pieces each buffer ends with are found by running the body. -/
import proofs.«406997_j73443940761980_3_alg».proof.Proof.KI.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S4096x64 .f32) (harg2 : arg2.IsWhole) (arg3 : Memref sig .tc .vmem S4096x1 .i32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1x1 .f32) (harg6 : arg6.IsWhole) (arg7 : Memref sig .tc .vmem S1x1 .f32) (harg7 : arg7.IsWhole) (hc0 : ¬cond1_0 i) (hc1 : cond1_1 i)
    (x0 : Vec F S4096x64 .f32) (x1 : Vec F S4096x1 .i32) (x2 : Vec F S1x64 .f32) (x3 : Vec F S1x64 .f32) (xs0 : Vec F S1x1 .f32) :
    Σ' (L4 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__pass3_kernel i arg2 harg2 arg3 harg3 arg4 harg4 arg5 harg5 arg6 harg6 arg7 harg7) K } := by
  refine ⟨?_, ?_, fun E K => ?run⟩
  case run =>
    simp only [cc1__pass3_kernel_eq_skeleton]; unfold cc1__pass3_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KI.Reg1.lean ====
/- Region 1 as a pipeline with proof data: what the output block and the accumulator of the squared projections hold after
   each grid point, by recursion on the point — the first row-block of a half starts the accumulator afresh, every other one
   continues from what the point before left, the last one of a half also fills the output block —; the region invariant
   that carries the accumulator from point to point; and the body obligation at every point. -/
import proofs.«406997_j73443940761980_3_alg».proof.Proof.KI.Run1A
import proofs.«406997_j73443940761980_3_alg».proof.Proof.KI.Run1B
import proofs.«406997_j73443940761980_3_alg».proof.Proof.KI.Run1C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The two buffers' contents after a point: the output block, the accumulator. -/
abbrev Outs1 (F : FTy → Type) [FloatOps F] : Type := Vec F S1x1x1 .f32 × Vec F S1x1 .f32

abbrev run1A (c : Dev nD) (t : Fin cfg1.N) (h0 : t.val % 32 = 0) (h1 : ¬t.val % 32 = 31) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)
abbrev run1B (c : Dev nD) (t : Fin cfg1.N) (h0 : ¬t.val % 32 = 0) (h1 : ¬t.val % 32 = 31) (xs0 : Vec F S1x1 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs0
abbrev run1C (c : Dev nD) (t : Fin cfg1.N) (h0 : ¬t.val % 32 = 0) (h1 : t.val % 32 = 31) (xs0 : Vec F S1x1 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) xs0

/-- What each case leaves: its pieces read back (an idle output block's entry is a placeholder nothing consults). -/
def case1A (c : Dev nD) (t : Fin cfg1.N) (h0 : t.val % 32 = 0) (h1 : ¬t.val % 32 = 31) : Outs1 F :=
  (VO1_4.read (Elt F) (VO1_4.writes (Elt F) VO1_4.junk (run1A V c t h0 h1).1),
   VS1_0.read (Elt F) (VS1_0.writes (Elt F) VS1_0.junk (run1A V c t h0 h1).2.1))
def case1B (c : Dev nD) (t : Fin cfg1.N) (h0 : ¬t.val % 32 = 0) (h1 : ¬t.val % 32 = 31) (xs0 : Vec F S1x1 .f32) : Outs1 F :=
  (VO1_4.read (Elt F) (VO1_4.writes (Elt F) VO1_4.junk (run1B V c t h0 h1 xs0).1),
   VS1_0.read (Elt F) (VS1_0.writes (Elt F) VS1_0.junk (run1B V c t h0 h1 xs0).2.1))
def case1C (c : Dev nD) (t : Fin cfg1.N) (h0 : ¬t.val % 32 = 0) (h1 : t.val % 32 = 31) (xs0 : Vec F S1x1 .f32) : Outs1 F :=
  (VO1_4.read (Elt F) (VO1_4.writes (Elt F) VO1_4.junk (run1C V c t h0 h1 xs0).1),
   VS1_0.read (Elt F) (VS1_0.writes (Elt F) VS1_0.junk (run1C V c t h0 h1 xs0).2.1))

theorem scover1_A_0 (c : Dev nD) (t : Fin cfg1.N) (h0 : t.val % 32 = 0) (h1 : ¬t.val % 32 = 31) (y : S1x1.Idx) :
    ∃ pc ∈ (run1A V c t h0 h1).2.1, y ∈ pc.1.set :=
  View.cover_of_tiledL (run1A V c t h0 h1).2.1 S1x1.size (by sl_kernel_rfl) y
theorem scover1_B_0 (c : Dev nD) (t : Fin cfg1.N) (h0 : ¬t.val % 32 = 0) (h1 : ¬t.val % 32 = 31) (xs0 : Vec F S1x1 .f32) (y : S1x1.Idx) :
    ∃ pc ∈ (run1B V c t h0 h1 xs0).2.1, y ∈ pc.1.set :=
  View.cover_of_tiledL (run1B V c t h0 h1 xs0).2.1 S1x1.size (by sl_kernel_rfl) y
theorem scover1_C_0 (c : Dev nD) (t : Fin cfg1.N) (h0 : ¬t.val % 32 = 0) (h1 : t.val % 32 = 31) (xs0 : Vec F S1x1 .f32) (y : S1x1.Idx) :
    ∃ pc ∈ (run1C V c t h0 h1 xs0).2.1, y ∈ pc.1.set :=
  View.cover_of_tiledL (run1C V c t h0 h1 xs0).2.1 S1x1.size (by sl_kernel_rfl) y
theorem cover1_C_4 (c : Dev nD) (t : Fin cfg1.N) (h0 : ¬t.val % 32 = 0) (h1 : t.val % 32 = 31) (xs0 : Vec F S1x1 .f32) (y : S1x1x1.Idx) :
    ∃ pc ∈ (run1C V c t h0 h1 xs0).1, y ∈ pc.1.set :=
  View.cover_of_tiledL (run1C V c t h0 h1 xs0).1 S1x1x1.size (by sl_kernel_rfl) y

/-! ## What the buffers hold after each point -/

def outsAt1 (c : Dev nD) : (n : ℕ) → n < cfg1.N → Outs1 F
  | 0, hn => case1A V c ⟨0, hn⟩ (Nat.zero_mod _) (by show ¬(0 % 32 = 31); decide)
  | n + 1, hn =>
    if h0 : (n + 1) % 32 = 0 then
      if h1 : (n + 1) % 32 = 31 then False.elim (by omega)
      else case1A V c ⟨n + 1, hn⟩ h0 h1
    else
      if h1 : (n + 1) % 32 = 31 then
        case1C V c ⟨n + 1, hn⟩ h0 h1 (outsAt1 c n (Nat.lt_of_succ_lt hn)).2
      else
        case1B V c ⟨n + 1, hn⟩ h0 h1 (outsAt1 c n (Nat.lt_of_succ_lt hn)).2

theorem outsAt1_A (c : Dev nD) (t : Fin cfg1.N) (h0 : t.val % 32 = 0) (h1 : ¬t.val % 32 = 31) :
    outsAt1 V c t.val t.isLt = case1A V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = case1B V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = case1C V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the point
    before left, the other scoped buffers at anything, the generator register at some state. -/
def PhiS1 (c : Dev nD) : (n : ℕ) → n ≤ cfg1.N → sProp 𝕄
  | 0, _ => Pipeline.ΦA spec1 c
  | n + 1, hn => iprop(others1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(others1 c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(others1 c (owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 64 := lt_of_lt_of_eq t.isLt (show cfg1.N = 64 from N_1)
  by_cases h0 : t.val % 32 = 0
  · by_cases h1 : t.val % 32 = 31
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold case1A; (try dsimp only)
      by_cases hz : t.val = 0
      · rw [PhiS1_castSucc V c t, PhiS1_zero V c _ _ hz, PhiA1_eq]
        unfold others1
        iintro ⟨⟨⟨O1, O2, O3, O4, O5, O6, O7, O8, O9, O10, HS0⟩, Hg⟩, Ho, ⟨%d0, H0⟩, ⟨%d1, H1⟩, ⟨%d2, H2⟩, ⟨%d3, H3⟩, ⟨%d4, H4⟩⟩
        iapply ((run1A V c t h0 h1).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [O1 O2 O3 O4 O5 O6 O7 O8 O9 O10 HS0 Hg]
        · isplitl [O1 O2 O3 O4 O5 O6 O7 O8 O9 O10 HS0]
          · isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            unfold owns; iexists _; isplitr
            swap; · iexact HS0
            ipureintro; exact View.read_writes_of_cover _ _ _ _ _ (scover1_A_0 V c t h0 h1)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        unfold others1
        iintro ⟨⟨⟨O1, O2, O3, O4, O5, O6, O7, O8, O9, O10, HS0⟩, Hg⟩, Ho, ⟨%d0, H0⟩, ⟨%d1, H1⟩, ⟨%d2, H2⟩, ⟨%d3, H3⟩, ⟨%d4, H4⟩⟩
        iapply ((run1A V c t h0 h1).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [O1 O2 O3 O4 O5 O6 O7 O8 O9 O10 HS0 Hg]
        · isplitl [O1 O2 O3 O4 O5 O6 O7 O8 O9 O10 HS0]
          · isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            unfold owns; iexists _; isplitr
            swap; · iexact HS0
            ipureintro; exact View.read_writes_of_cover _ _ _ _ _ (scover1_A_0 V c t h0 h1)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 32 = 31
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold case1C; (try dsimp only)
      rw [PhiS1_castSucc V c t, PhiS1_pos V c _ _ hz]
      unfold others1
      iintro ⟨⟨⟨O1, O2, O3, O4, O5, O6, O7, O8, O9, O10, HS0⟩, Hg⟩, Ho, ⟨%d0, H0⟩, ⟨%d1, H1⟩, ⟨%d2, H2⟩, ⟨%d3, H3⟩, ⟨%d4, H4⟩⟩
      iapply ((run1C V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [O1 O2 O3 O4 O5 O6 O7 O8 O9 O10 HS0 Hg]
      · isplitl [O1 O2 O3 O4 O5 O6 O7 O8 O9 O10 HS0]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          unfold owns; iexists _; isplitr
          swap; · iexact HS0
          ipureintro; exact View.read_writes_of_cover _ _ _ _ _ (scover1_C_0 V c t h0 h1 _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 V c t h0 h1 _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold case1B; (try dsimp only)
      rw [PhiS1_castSucc V c t, PhiS1_pos V c _ _ hz]
      unfold others1
      iintro ⟨⟨⟨O1, O2, O3, O4, O5, O6, O7, O8, O9, O10, HS0⟩, Hg⟩, Ho, ⟨%d0, H0⟩, ⟨%d1, H1⟩, ⟨%d2, H2⟩, ⟨%d3, H3⟩, ⟨%d4, H4⟩⟩
      iapply ((run1B V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [O1 O2 O3 O4 O5 O6 O7 O8 O9 O10 HS0 Hg]
      · isplitl [O1 O2 O3 O4 O5 O6 O7 O8 O9 O10 HS0]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          unfold owns; iexists _; isplitr
          swap; · iexact HS0
          ipureintro; exact View.read_writes_of_cover _ _ _ _ _ (scover1_B_0 V c t h0 h1 _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  unfold others1
  iintro ⟨⟨O1, O2, O3, O4, O5, O6, O7, O8, O9, O10, HS0⟩, Hg⟩
  isplitl [O1 O2 O3 O4 O5 O6 O7 O8 O9 O10 HS0]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    iexists _; iexact HS0
  iexact Hg

end Regions

end Cert.KernelIdeal.Fr

end
-- ==== Proof.KI.Pieces0.lean ====
/- What each case of the sums-and-counts kernel leaves in its accumulators and output blocks, as the body's arithmetic of the
   point's input blocks and of what the accumulators held: the pieces the run found, read back, are the skeleton's payloads. -/
import proofs.«406997_j73443940761980_3_alg».proof.Proof.KI.Reg0
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The rows' block and the labels' block at a point, at their literal types. -/
abbrev xblk0 (c : Dev nD) (t : Fin cfg0.N) : Vec F S8192x64 .f32 := iblk0 V c 0 t
abbrev tblk0 (c : Dev nD) (t : Fin cfg0.N) : Vec F S8192x1 .i32 := iblk0 V c 1 t

private theorem hz2 : (![0, 0] : Fin 2 → Nat) = fun _ => 0 := funext fun a => by fin_cases a <;> rfl
private theorem hz3 : (![0, 0, 0] : Fin 3 → Nat) = fun _ => 0 := funext fun a => by fin_cases a <;> rfl

theorem case0A_s0 (c : Dev nD) (t : Fin cfg0.N) (h0 : t.val % 16 = 0) (h1 : ¬t.val % 16 = 15) :
    (case0A V c t h0 h1).2.2.1 = k0_pay4 (tblk0 V c t) (xblk0 V c t) (k0_pay1 (F := F)) := by
  unfold case0A
  dsimp only
  rw [View.read_writes_eq_canon _ _ _ (scover0_A_0 V c t h0 h1)]
  unfold run0A kernelRun0_A
  dsimp only
  sl_unfold_words
  rw [View.canon_cons_unit_zero (S := S64x128) hz2, View.readCov_unit_zero (S := S64x128) _ hz2]
  simp only [View.readAt_eq_ld, (hs0_0 t).read_unread, (hs0_1 t).read_unread, (Memref.isWhole_whole _).read_unread,
    View.ld_unit_zero (S := S8192x64) hz2, View.ld_unit_zero (S := S8192x1) hz2, View.ld_unit_zero (S := S64x128) hz2,
    View.ld_unit_zero (S := S1x128) hz2]
theorem case0A_s1 (c : Dev nD) (t : Fin cfg0.N) (h0 : t.val % 16 = 0) (h1 : ¬t.val % 16 = 15) :
    (case0A V c t h0 h1).2.2.2 = k0_pay5 (tblk0 V c t) (k0_pay2 (F := F)) := by
  unfold case0A
  dsimp only
  rw [View.read_writes_eq_canon _ _ _ (scover0_A_1 V c t h0 h1)]
  unfold run0A kernelRun0_A
  dsimp only
  sl_unfold_words
  rw [View.canon_cons_unit_zero (S := S1x128) hz2, View.readCov_unit_zero (S := S1x128) _ hz2]
  simp only [View.readAt_eq_ld, (hs0_0 t).read_unread, (hs0_1 t).read_unread, (Memref.isWhole_whole _).read_unread,
    View.ld_unit_zero (S := S8192x64) hz2, View.ld_unit_zero (S := S8192x1) hz2, View.ld_unit_zero (S := S64x128) hz2,
    View.ld_unit_zero (S := S1x128) hz2]
theorem case0B_s0 (c : Dev nD) (t : Fin cfg0.N) (h0 : ¬t.val % 16 = 0) (h1 : ¬t.val % 16 = 15) (xs0 : Vec F S64x128 .f32) (xs1 : Vec F S1x128 .f32) :
    (case0B V c t h0 h1 xs0 xs1).2.2.1 = k0_pay4 (tblk0 V c t) (xblk0 V c t) xs0 := by
  unfold case0B
  dsimp only
  rw [View.read_writes_eq_canon _ _ _ (scover0_B_0 V c t h0 h1 xs0 xs1)]
  unfold run0B kernelRun0_B
  dsimp only
  sl_unfold_words
  rw [View.canon_unit_zero hz2]
  simp only [View.readAt_eq_ld, (hs0_0 t).read_unread, (hs0_1 t).read_unread, (Memref.isWhole_whole _).read_unread,
    View.ld_unit_zero (S := S8192x64) hz2, View.ld_unit_zero (S := S8192x1) hz2, View.ld_unit_zero (S := S64x128) hz2,
    View.ld_unit_zero (S := S1x128) hz2]
theorem case0B_s1 (c : Dev nD) (t : Fin cfg0.N) (h0 : ¬t.val % 16 = 0) (h1 : ¬t.val % 16 = 15) (xs0 : Vec F S64x128 .f32) (xs1 : Vec F S1x128 .f32) :
    (case0B V c t h0 h1 xs0 xs1).2.2.2 = k0_pay5 (tblk0 V c t) xs1 := by
  unfold case0B
  dsimp only
  rw [View.read_writes_eq_canon _ _ _ (scover0_B_1 V c t h0 h1 xs0 xs1)]
  unfold run0B kernelRun0_B
  dsimp only
  sl_unfold_words
  rw [View.canon_unit_zero hz2]
  simp only [View.readAt_eq_ld, (hs0_0 t).read_unread, (hs0_1 t).read_unread, (Memref.isWhole_whole _).read_unread,
    View.ld_unit_zero (S := S8192x64) hz2, View.ld_unit_zero (S := S8192x1) hz2, View.ld_unit_zero (S := S64x128) hz2,
    View.ld_unit_zero (S := S1x128) hz2]
theorem case0C_s0 (c : Dev nD) (t : Fin cfg0.N) (h0 : ¬t.val % 16 = 0) (h1 : t.val % 16 = 15) (xs0 : Vec F S64x128 .f32) (xs1 : Vec F S1x128 .f32) :
    (case0C V c t h0 h1 xs0 xs1).2.2.1 = k0_pay4 (tblk0 V c t) (xblk0 V c t) xs0 := by
  unfold case0C
  dsimp only
  rw [View.read_writes_eq_canon _ _ _ (scover0_C_0 V c t h0 h1 xs0 xs1)]
  unfold run0C kernelRun0_C
  dsimp only
  sl_unfold_words
  rw [View.canon_unit_zero hz2]
  simp only [View.readAt_eq_ld, (hs0_0 t).read_unread, (hs0_1 t).read_unread, (Memref.isWhole_whole _).read_unread,
    View.ld_unit_zero (S := S8192x64) hz2, View.ld_unit_zero (S := S8192x1) hz2, View.ld_unit_zero (S := S64x128) hz2,
    View.ld_unit_zero (S := S1x128) hz2]
theorem case0C_s1 (c : Dev nD) (t : Fin cfg0.N) (h0 : ¬t.val % 16 = 0) (h1 : t.val % 16 = 15) (xs0 : Vec F S64x128 .f32) (xs1 : Vec F S1x128 .f32) :
    (case0C V c t h0 h1 xs0 xs1).2.2.2 = k0_pay5 (tblk0 V c t) xs1 := by
  unfold case0C
  dsimp only
  rw [View.read_writes_eq_canon _ _ _ (scover0_C_1 V c t h0 h1 xs0 xs1)]
  unfold run0C kernelRun0_C
  dsimp only
  sl_unfold_words
  rw [View.canon_unit_zero hz2]
  simp only [View.readAt_eq_ld, (hs0_0 t).read_unread, (hs0_1 t).read_unread, (Memref.isWhole_whole _).read_unread,
    View.ld_unit_zero (S := S8192x64) hz2, View.ld_unit_zero (S := S8192x1) hz2, View.ld_unit_zero (S := S64x128) hz2,
    View.ld_unit_zero (S := S1x128) hz2]
/-- At the last row-block of a half the output blocks take the accumulators' new contents. -/
theorem case0C_o2 (c : Dev nD) (t : Fin cfg0.N) (h0 : ¬t.val % 16 = 0) (h1 : t.val % 16 = 15) (xs0 : Vec F S64x128 .f32) (xs1 : Vec F S1x128 .f32) :
    (case0C V c t h0 h1 xs0 xs1).1 = k0_pay6 (k0_pay4 (tblk0 V c t) (xblk0 V c t) xs0) := by
  unfold case0C
  dsimp only
  rw [View.read_writes_eq_canon _ _ _ (cover0_C_2 V c t h0 h1 xs0 xs1)]
  unfold run0C kernelRun0_C
  dsimp only
  sl_unfold_words
  rw [View.canon_unit_zero hz3]
  simp only [View.readAt_eq_ld, (hs0_0 t).read_unread, (hs0_1 t).read_unread, (Memref.isWhole_whole _).read_unread,
    View.ld_unit_zero (S := S8192x64) hz2, View.ld_unit_zero (S := S8192x1) hz2, View.ld_unit_zero (S := S64x128) hz2,
    View.ld_unit_zero (S := S1x128) hz2,
    View.readCov_unit_zero (S := S64x128) _ hz2]
theorem case0C_o3 (c : Dev nD) (t : Fin cfg0.N) (h0 : ¬t.val % 16 = 0) (h1 : t.val % 16 = 15) (xs0 : Vec F S64x128 .f32) (xs1 : Vec F S1x128 .f32) :
    (case0C V c t h0 h1 xs0 xs1).2.1 = k0_pay7 (k0_pay5 (tblk0 V c t) xs1) := by
  unfold case0C
  dsimp only
  rw [View.read_writes_eq_canon _ _ _ (cover0_C_3 V c t h0 h1 xs0 xs1)]
  unfold run0C kernelRun0_C
  dsimp only
  sl_unfold_words
  rw [View.canon_unit_zero hz3]
  simp only [View.readAt_eq_ld, (hs0_0 t).read_unread, (hs0_1 t).read_unread, (Memref.isWhole_whole _).read_unread,
    View.ld_unit_zero (S := S8192x64) hz2, View.ld_unit_zero (S := S8192x1) hz2, View.ld_unit_zero (S := S64x128) hz2,
    View.ld_unit_zero (S := S1x128) hz2,
    View.readCov_unit_zero (S := S1x128) _ hz2]

end Regions

end Cert.KernelIdeal.Fr

end
-- ==== Proof.KSpec.lean ====
/- What the kernel's two passes leave in their output arrays, as functions of the rows, the labels (as a column) and, for the
   second pass, the two row vectors it is handed. Each pass walks one half of the rows per leading index of its output:
   half `h` is the rows h·131072 … h·131072 + 131071. -/
import Idealize.ShloMosaic.PureOps.Ideal
import Idealize.ShloMosaic.Lib.ValueIdx

noncomputable section

namespace Cert.KSpec

open Idealize.ShloMosaic Idealize.ShloMosaic.ValueIdx

abbrev SX : Shape := ⟨2, ![262144, 64]⟩
abbrev STc : Shape := ⟨2, ![262144, 1]⟩
abbrev SR : Shape := ⟨2, ![1, 64]⟩

/-- Row `r` of half `h`. -/
def halfRow (h : Fin 2) (r : Fin 131072) : Fin 262144 := ⟨h.val * 131072 + r.val, by omega⟩

/-- Row `n` carries class number `k` (the label column read signed). -/
abbrev labelled (tt : STc.Idx → BitVec 32) (n : Fin 262144) (k : ℕ) : Prop := (tt (ix2 n (0 : Fin 1))).toInt = (k : ℤ)

/-- The first pass's sums: at (h, d, c) the sum of feature `d` over the rows of half `h` labelled `c`. -/
def psum (x : SX.Idx → EReal) (tt : STc.Idx → BitVec 32) : (⟨3, ![2, 64, 128]⟩ : Shape).Idx → EReal := fun i =>
  ∑ r : Fin 131072, if labelled tt (halfRow (i 0) r) (i 2).val then x (ix2 (halfRow (i 0) r) (i 1)) else 0

/-- The first pass's counts: at (h, 0, c) the number of rows of half `h` labelled `c`. -/
def pcnt (tt : STc.Idx → BitVec 32) : (⟨3, ![2, 1, 128]⟩ : Shape).Idx → EReal := fun i =>
  ∑ r : Fin 131072, if labelled tt (halfRow (i 0) r) (i 2).val then (1 : EReal) else 0

/-- A row's projection: the sum over the features of (row − ml) · ss. -/
def proj (x : SX.Idx → EReal) (ml ss : SR.Idx → EReal) (n : Fin 262144) : EReal :=
  ∑ d : Fin 64, (x (ix2 n d) - ml (ix2 (0 : Fin 1) d)) * ss (ix2 (0 : Fin 1) d)

/-- The second pass's output: at (h, 0, 0) the sum over the rows of half `h` labelled 127 of the squared projection. -/
def psq (x : SX.Idx → EReal) (tt : STc.Idx → BitVec 32) (ml ss : SR.Idx → EReal) : (⟨3, ![2, 1, 1]⟩ : Shape).Idx → EReal := fun i =>
  ∑ r : Fin 131072, if labelled tt (halfRow (i 0) r) 127 then proj x ml ss (halfRow (i 0) r) * proj x ml ss (halfRow (i 0) r) else 0

end Cert.KSpec

end
-- ==== Proof.LibTileSum.lean ====
/-
  Sums over an index set made of B equal tiles followed by a tail, and the few facts about the extended reals that go
  with them. A sum over Fin (B * E + N) is the sum over the B tiles of E plus the sum over the tail of N, and the same
  holds for a sum restricted by a predicate; a sum over the tiles of a quantity that does not depend on the tile is B
  copies of it; a sum over the places of Fin N equal to j is the term at j; B copies of a REAL number c, added in the
  extended reals, are (B : ℝ) * c (the extended reals are not a semiring, so the statement is made for real c); the
  inclusion of the reals commutes with finite sums, so a finite sum of real numbers is a real number; a sum of a one per
  element is the number of elements; the reciprocal square root of 1 is 1 and that of a positive real r is the real
  number (sqrt r)⁻¹; and in a family of integers all below K nobody equals a j with K ≤ j.
-/
import Idealize.ShloMosaic.PureOps.Ideal

noncomputable section

namespace Cert.Lib.TileSum

open Idealize.ShloMosaic

/-! ### Tiles and tail -/

theorem tile_lt {B E : ℕ} (N : ℕ) (t : Fin B) (e : Fin E) : t.val * E + e.val < B * E + N := by
  have h1 : t.val * E + e.val < (t.val + 1) * E := by
    have := e.isLt
    rw [Nat.add_mul, Nat.one_mul]
    omega
  have h2 : (t.val + 1) * E ≤ B * E := Nat.mul_le_mul_right E (Nat.succ_le_of_lt t.isLt)
  omega

/-- The flat position of element e of tile t: t * E + e. -/
def tileIx (B E N : ℕ) (t : Fin B) (e : Fin E) : Fin (B * E + N) := ⟨t.val * E + e.val, tile_lt N t e⟩

/-- The flat position of element n of the tail: B * E + n. -/
def tailIx (B E N : ℕ) (n : Fin N) : Fin (B * E + N) := ⟨B * E + n.val, by have := n.isLt; omega⟩

@[simp] theorem tileIx_val (B E N : ℕ) (t : Fin B) (e : Fin E) : (tileIx B E N t e).val = t.val * E + e.val := rfl
@[simp] theorem tailIx_val (B E N : ℕ) (n : Fin N) : (tailIx B E N n).val = B * E + n.val := rfl

/-- A sum over Fin (B * E) is the sum over the B tiles of the sums over the E places of a tile. -/
theorem sum_tiles {M : Type*} [AddCommMonoid M] (B E : ℕ) (g : Fin (B * E) → M) :
    ∑ k : Fin (B * E), g k = ∑ t : Fin B, ∑ e : Fin E, g ⟨t.val * E + e.val, by simpa using tile_lt 0 t e⟩ := by
  rw [← Fintype.sum_prod_type' (f := fun (t : Fin B) (e : Fin E) => g ⟨t.val * E + e.val, by simpa using tile_lt 0 t e⟩)]
  rw [← (finProdFinEquiv (m := B) (n := E)).sum_comp g]
  refine Finset.sum_congr rfl fun p _ => ?_
  congr 1
  apply Fin.ext
  simp [finProdFinEquiv, Nat.mul_comm, Nat.add_comm]

/-- A sum over Fin (B * E + N) is the sum over the B tiles of E plus the sum over the tail of N. -/
theorem sum_tiles_tail {M : Type*} [AddCommMonoid M] (B E N : ℕ) (f : Fin (B * E + N) → M) :
    ∑ k : Fin (B * E + N), f k
      = (∑ t : Fin B, ∑ e : Fin E, f (tileIx B E N t e)) + ∑ n : Fin N, f (tailIx B E N n) := by
  rw [Fin.sum_univ_add, sum_tiles]
  rfl

/-- The same for a sum restricted by a predicate: each tile, and the tail, restricted by the predicate at its places. -/
theorem sum_filter_tiles_tail {M : Type*} [AddCommMonoid M] (B E N : ℕ) (p : Fin (B * E + N) → Prop) [DecidablePred p]
    (f : Fin (B * E + N) → M) :
    ∑ k ∈ Finset.univ.filter p, f k
      = (∑ t : Fin B, ∑ e ∈ Finset.univ.filter (fun e => p (tileIx B E N t e)), f (tileIx B E N t e))
        + ∑ n ∈ Finset.univ.filter (fun n => p (tailIx B E N n)), f (tailIx B E N n) := by
  rw [Finset.sum_filter, sum_tiles_tail]
  simp only [Finset.sum_filter]

/-- A sum over the B tiles of a quantity that does not depend on the tile is B copies of it. -/
theorem sum_tiles_const {M : Type*} [AddCommMonoid M] (B : ℕ) (c : M) : ∑ _t : Fin B, c = B • c := by
  simp

/-- A sum over the places of Fin N whose value is j is the term at j. -/
theorem sum_filter_val_eq {M : Type*} [AddCommMonoid M] {N : ℕ} (j : ℕ) (hj : j < N) (f : Fin N → M) :
    ∑ n ∈ Finset.univ.filter (fun n : Fin N => n.val = j), f n = f ⟨j, hj⟩ := by
  have h : Finset.univ.filter (fun n : Fin N => n.val = j) = {⟨j, hj⟩} := by
    ext n
    simp [Fin.ext_iff]
  rw [h, Finset.sum_singleton]

/-! ### Real numbers inside the extended reals -/

/-- The inclusion of the reals commutes with finite sums. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem exists_real_sum {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_finset_sum]; exact Finset.sum_congr rfl hg⟩

/-- A product of two real numbers is a real number. -/
theorem exists_real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- B copies of a real number c are (B : ℝ) * c. -/
theorem nsmul_coe (B : ℕ) (c : ℝ) : B • (c : EReal) = ((B : ℝ) : EReal) * (c : EReal) := by
  rw [← EReal.coe_nsmul, nsmul_eq_mul, EReal.coe_mul]

/-- B copies of a real number c, summed over the tiles, are (B : ℝ) * c. -/
theorem sum_tiles_real (B : ℕ) (c : ℝ) : ∑ _t : Fin B, (c : EReal) = ((B : ℝ) : EReal) * (c : EReal) := by
  rw [sum_tiles_const, nsmul_coe]

/-- A sum of a one per element, in the extended reals, is the number of elements. -/
theorem sum_ones {ι : Type*} (s : Finset ι) : ∑ _i ∈ s, (1 : EReal) = ((s.card : ℝ) : EReal) := by
  have h := coe_finset_sum s (fun _ => (1 : ℝ))
  rw [Finset.sum_const, nsmul_eq_mul, mul_one] at h
  rw [h]
  simp only [EReal.coe_one]

/-! ### The reciprocal square root -/

/-- The reciprocal square root of 1 is 1. -/
theorem rsqrt_one : Ideal.rsqrt ((1 : ℝ) : EReal) = 1 := by
  rw [Ideal.rsqrt_coe]
  norm_num

/-- The reciprocal square root of a positive real r is the real number (sqrt r)⁻¹. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a real number. -/
theorem exists_real_rsqrt {r : ℝ} (h : 0 < r) : ∃ q : ℝ, Ideal.rsqrt (r : EReal) = (q : EReal) :=
  ⟨_, rsqrt_pos h⟩

/-! ### Bounded targets -/

/-- In a family of integers all below K, nobody equals a j with K ≤ j. -/
theorem filter_eq_empty_of_lt {E : ℕ} (d : Fin E → ℤ) (K : ℤ) (hd : ∀ e, d e < K) (j : ℤ) (hj : K ≤ j) :
    Finset.univ.filter (fun e => d e = j) = ∅ := by
  apply Finset.filter_eq_empty_iff.mpr
  intro e _ he
  have := hd e
  omega

end Cert.Lib.TileSum

end
-- ==== Proof.LibHostSums.lean ====
/-
  Sums over the two leading axes of an array, read index by index at the ideal values.

  A host reduction over axes 0 and 1 of an array of extents A × B × C gathers, at channel c, the entries whose last
  coordinate is c: these are exactly the entries (a, b, c), one for each pair (a, b), so a sum over them is the double
  sum over a and b, and there are A · B of them. Over both axes of an A × B matrix the reduction gathers every entry.
  Hence: a float sum is the initial value plus the double sum; an integer sum of an all-ones array is the initial word
  plus the word of A · B, and when A · B is below 2³¹ that word, read as a signed integer and converted, is the real
  number A · B. Beside these, the elementwise facts such sums are taken of: an extended real never differs from
  itself, so the test "x ≠ x" is the bit 0 everywhere and its negation the bit 1; a selection under an all-ones mask is
  its first branch; the float of the bit "v = w" is 1 where the two agree and 0 elsewhere; a scalar broadcast reads the
  scalar; dropping a trailing axis of extent one, and cutting one channel out of the last axis, read the source at the
  evident index.
-/
import Idealize.ShloMosaic.PureOps.Ideal.Laws
import Idealize.ShloMosaic.Lib.ValueIdx
import Idealize.ShloMosaic.Lib.ValueLayout

noncomputable section

namespace Cert.Lib.HostSums

open Idealize.ShloMosaic Idealize.ShloMosaic.ValueIdx

variable {A B C : ℕ}

/-! ## The entries that reduce to a channel -/

/-- Dropping the two leading coordinates of (a, b, c) leaves c. -/
theorem drop_axes01_val (h : (⟨3, ![A, B, C]⟩ : Shape).ReducesTo [0, 1] ⟨1, ![C]⟩)
    (i : (⟨3, ![A, B, C]⟩ : Shape).Idx) : ((h.drop i 0 : Fin C) : ℕ) = (i 2 : ℕ) := rfl

/-- An entry reduces to channel `ch` exactly when its last coordinate is `ch`. -/
theorem drop_axes01_eq_iff (h : (⟨3, ![A, B, C]⟩ : Shape).ReducesTo [0, 1] ⟨1, ![C]⟩)
    (i : (⟨3, ![A, B, C]⟩ : Shape).Idx) (ch : Fin C) : h.drop i = ix1 ch ↔ i 2 = ch := by
  constructor
  · intro e
    have e0 := congrArg (fun j : (⟨1, ![C]⟩ : Shape).Idx => ((j 0 : Fin C) : ℕ)) e
    exact Fin.ext ((drop_axes01_val h i).symm.trans e0)
  · intro e
    funext b
    match b with
    | ⟨0, _⟩ => exact Fin.ext ((drop_axes01_val h i).trans (congrArg Fin.val e))

/-- A sum over the entries that reduce to channel `ch` is the double sum over the two leading coordinates, in any
    commutative monoid: (a, b) ↦ (a, b, ch) is a bijection onto those entries. -/
theorem sum_filter_drop_axes01 {M : Type*} [AddCommMonoid M] (h : (⟨3, ![A, B, C]⟩ : Shape).ReducesTo [0, 1] ⟨1, ![C]⟩)
    (f : (⟨3, ![A, B, C]⟩ : Shape).Idx → M) (ch : Fin C) :
    ∑ i ∈ Finset.univ.filter (fun i => h.drop i = ix1 ch), f i = ∑ a : Fin A, ∑ b : Fin B, f (ix3 a b ch) := by
  rw [← Fintype.sum_prod_type' (f := fun (a : Fin A) (b : Fin B) => f (ix3 a b ch))]
  refine Finset.sum_nbij' (fun i => ((i 0 : Fin A), (i 1 : Fin B))) (fun p => ix3 p.1 p.2 ch) ?_ ?_ ?_ ?_ ?_
  · intro i _; exact Finset.mem_univ _
  · intro p _; exact Finset.mem_filter.2 ⟨Finset.mem_univ _, (drop_axes01_eq_iff h _ ch).2 rfl⟩
  · intro i hi
    have e : i 2 = ch := (drop_axes01_eq_iff h i ch).1 (Finset.mem_filter.1 hi).2
    rw [← e]; exact (eq_ix3 i).symm
  · intro p _; rfl
  · intro i hi
    have e : i 2 = ch := (drop_axes01_eq_iff h i ch).1 (Finset.mem_filter.1 hi).2
    rw [← e]; exact congrArg f (eq_ix3 i)

/-- There are A · B entries that reduce to a channel. -/
theorem card_filter_drop_axes01 (h : (⟨3, ![A, B, C]⟩ : Shape).ReducesTo [0, 1] ⟨1, ![C]⟩) (ch : Fin C) :
    (Finset.univ.filter (fun i => h.drop i = ix1 ch)).card = A * B := by
  rw [Finset.card_eq_sum_ones, sum_filter_drop_axes01 h (fun _ => (1 : ℕ)) ch]
  simp

/-! ## Float sums over the two leading axes -/

/-- The exact sum over axes 0 and 1 of an A × B × C array, at channel `ch`: the initial value plus the double sum of
    the entries (a, b, ch). -/
theorem hostReduceAdd_axes01_rank3 (h : (⟨3, ![A, B, C]⟩ : Shape).ReducesTo [0, 1] ⟨1, ![C]⟩)
    (f : (⟨3, ![A, B, C]⟩ : Shape).Idx → EReal) (init : EReal) (ch : Fin C) :
    Ideal.hostReduceAdd h f init (ix1 ch) = init + ∑ a : Fin A, ∑ b : Fin B, f (ix3 a b ch) := by
  unfold Ideal.hostReduceAdd
  rw [sum_filter_drop_axes01]

/-- The same for the host's float sum as a program writes it, its initial value an array read at its first index. -/
theorem reduceAdd_axes01_rank3 {φ : FTy} {u : Shape} (x : FVec Ideal ⟨3, ![A, B, C]⟩ φ) (init : u.Idx → Ideal φ)
    (h : (⟨3, ![A, B, C]⟩ : Shape).ReducesTo [0, 1] ⟨1, ![C]⟩) (hu : 0 < u.numel) (ch : Fin C) :
    Host.reduceAdd (F := Ideal) x init h hu (ix1 ch)
      = init (Shape.Idx.first hu) + ∑ a : Fin A, ∑ b : Fin B, x (ix3 a b ch) :=
  hostReduceAdd_axes01_rank3 h x _ ch

/-- The exact sum over both axes of an A × B matrix: the initial value plus the double sum of all entries. -/
theorem hostReduceAdd_axes01_rank2 (h : (⟨2, ![A, B]⟩ : Shape).ReducesTo [0, 1] ⟨0, ![]⟩)
    (f : (⟨2, ![A, B]⟩ : Shape).Idx → EReal) (init : EReal) (j : (⟨0, ![]⟩ : Shape).Idx) :
    Ideal.hostReduceAdd h f init j = init + ∑ a : Fin A, ∑ b : Fin B, f (ix2 a b) := by
  rw [Ideal.hostReduceAdd_total h (fun b => b.elim0) f init j, sum_idx2]

/-- The same for the host's float sum as a program writes it. -/
theorem reduceAdd_axes01_rank2 {φ : FTy} {u : Shape} (x : FVec Ideal ⟨2, ![A, B]⟩ φ) (init : u.Idx → Ideal φ)
    (h : (⟨2, ![A, B]⟩ : Shape).ReducesTo [0, 1] ⟨0, ![]⟩) (hu : 0 < u.numel) (j : (⟨0, ![]⟩ : Shape).Idx) :
    Host.reduceAdd (F := Ideal) x init h hu j = init (Shape.Idx.first hu) + ∑ a : Fin A, ∑ b : Fin B, x (ix2 a b) :=
  hostReduceAdd_axes01_rank2 h x _ j

/-! ## Counting with 32-bit words -/

/-- Adding the word 1 once for each member of a finite set, from `v`: `v` plus the word of the set's size. -/
theorem fold_addi_ones {ι : Type*} [DecidableEq ι] (S : Finset ι) (x : ι → BitVec 32) (hx : ∀ i ∈ S, x i = 1#32)
    (v : BitVec 32) : S.fold IntOp.addi v x = v + BitVec.ofNat 32 S.card := by
  induction S using Finset.induction_on with
  | empty => simp
  | insert a S ha ih =>
    rw [Finset.fold_insert ha, ih (fun i hi => hx i (Finset.mem_insert_of_mem hi)), hx a (Finset.mem_insert_self a S),
      Finset.card_insert_of_notMem ha, IntOp.addi_eq_add]
    show 1#32 + (v + BitVec.ofNat 32 S.card) = v + BitVec.ofNat 32 (S.card + 1)
    rw [BitVec.ofNat_add, BitVec.add_comm 1#32, BitVec.add_assoc]

/-- The integer sum over axes 0 and 1 of an all-ones A × B × C array, at a channel: the initial word plus the word of
    A · B. -/
theorem reduce_addi_ones_axes01 {u : Shape} (x : IVec ⟨3, ![A, B, C]⟩ 32) (hx : ∀ i, x i = 1#32)
    (init : u.Idx → BitVec 32) (h : (⟨3, ![A, B, C]⟩ : Shape).ReducesTo [0, 1] ⟨1, ![C]⟩) (hu : 0 < u.numel)
    (ch : Fin C) :
    Host.reduce IntOp.addi x init h hu (ix1 ch) = init (Shape.Idx.first hu) + BitVec.ofNat 32 (A * B) := by
  classical
  rw [Host.reduce_eq_fold, fold_addi_ones _ x (fun i _ => hx i), card_filter_drop_axes01]

/-- A natural number below 2³¹, as a 32-bit word read signed, is itself. -/
theorem toInt_ofNat_of_lt {n : ℕ} (hn : n < 2 ^ 31) : (BitVec.ofNat 32 n).toInt = (n : ℤ) := by
  have ht : (BitVec.ofNat 32 n).toNat = n := by rw [BitVec.toNat_ofNat]; exact Nat.mod_eq_of_lt (by omega)
  rw [BitVec.toInt_eq_toNat_of_lt (by rw [ht]; omega), ht]

/-- So its conversion to a float, at the ideal values, is the real number `n`. -/
theorem sitofp_ofNat_of_lt {n : ℕ} (hn : n < 2 ^ 31) :
    FloatOps.sitofp (F := Ideal) .f32 (BitVec.ofNat 32 n) = ((n : ℝ) : EReal) := by
  show (((BitVec.ofNat 32 n).toInt : ℝ) : EReal) = _
  rw [toInt_ofNat_of_lt hn, Int.cast_natCast]

/-! ## Elementwise facts at the ideal values -/

variable {s : Shape} {φ : FTy}

/-- An extended real never differs from itself: "x ≠ x" is the bit 0 at every index. -/
theorem cmpf_une_self (x : FVec Ideal s φ) (i : s.Idx) : cmpf .une x x i = 0#1 := by
  show Ideal.cmp .une (x i) (x i) = 0#1
  simp [Ideal.cmp]

/-- … and its negation is the bit 1 at every index. -/
theorem noti_cmpf_une_self (x : FVec Ideal s φ) (i : s.Idx) : noti (cmpf .une x x) i = 1#1 := by
  show ~~~(cmpf .une x x i) = 1#1
  rw [cmpf_une_self]; rfl

/-- A selection under an all-ones mask is its first branch. -/
theorem select_of_ones {α : Type} (c : IVec s 1) (hc : ∀ i, c i = 1#1) (a b : s.Idx → α) (i : s.Idx) :
    select c a b i = a i := by
  rw [select_apply, hc, select_one]

/-- An all-ones mask widened to 32 bits is the word 1 at every index. -/
theorem extui_of_ones (c : IVec s 1) (hc : ∀ i, c i = 1#1) (h : 1 < 32) (i : s.Idx) : extui 32 c h i = 1#32 := by
  rw [extui_apply, hc]; rfl

/-- The float of the bit "v = w": 1 where the two agree, 0 elsewhere. -/
theorem uitofp_cmpf_oeq (v w : FVec Ideal s .f32) (i : s.Idx) :
    (uitofp .f32 (cmpf .oeq v w) : FVec Ideal s .f32) i = if v i = w i then 1 else 0 := by
  show (((Ideal.cmp .oeq (v i) (w i)).toNat : ℝ) : EReal) = _
  by_cases e : v i = w i
  · simp [Ideal.cmp, e]
  · simp [Ideal.cmp, e]

/-- A scalar broadcast to any shape reads the scalar at every index. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x ix0 := by
  unfold broadcastInDim
  exact congrArg x (funext fun a => a.elim0)

/-! ## Layout operations at an index -/

/-- An A × B × 1 array recast as an A × B matrix reads, at (a, b), the source at (a, b, 0): the two row-major
    positions are both a · B + b. -/
theorem reshape_ab1_ab_apply {α : Type} (x : (⟨3, ![A, B, 1]⟩ : Shape).Idx → α)
    (h : (⟨3, ![A, B, 1]⟩ : Shape).ShapeCasts ⟨2, ![A, B]⟩) (a : Fin A) (b : Fin B) :
    shapeCast ⟨2, ![A, B]⟩ x h (ix2 a b) = x (ix3 a b 0) := by
  refine shapeCast_apply x h (ix2 a b) (ix3 a b 0) ?_
  rw [Shape.rowMajor_val_three, Shape.rowMajor_val_two]
  show (a.val * B + b.val) * 1 + 0 = a.val * B + b.val
  omega

/-- One channel `k` cut out of the last axis of an A × B × n array reads, at (a, b, 0), the source at (a, b, k). -/
theorem slice_last_apply {α : Type} {n : ℕ} (o : ℕ) (x : (⟨3, ![A, B, n]⟩ : Shape).Idx → α)
    (h : (⟨3, ![A, B, n]⟩ : Shape).Slices ![0, 0, o] ⟨3, ![A, B, 1]⟩) (a : Fin A) (b : Fin B) (k : Fin n)
    (hk : k.val = o) : extractStridedSlice ⟨3, ![A, B, 1]⟩ ![0, 0, o] x h (ix3 a b 0) = x (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.Lib.HostSums

end
-- ==== Proof.KI.Value0A.lean ====
/- The payloads of the sums-and-counts kernel read at an index, at the extended reals. -/
import proofs.«406997_j73443940761980_3_alg».proof.Proof.Gen.KernelIdeal.Skeleton
import proofs.«406997_j73443940761980_3_alg».proof.Proof.LibHostSums
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

open scoped BigOperators

namespace Cert.KernelIdeal.Pay0

open Idealize.ShloMosaic Idealize.ShloMosaic.TcCoe Idealize.ShloMosaic.ValueIdx Idealize.SL.Sem
open Cert.KernelIdeal Cert.KernelIdeal.Gen

/-- The one-hot entry: at row r and class cl, one when the label of row r read signed is cl's number, else zero. -/
theorem pay3_apply (v3 : Vec Ideal S8192x1 .i32) (r : Fin 8192) (cl : Fin 128) :
    k0_pay3 (F := Ideal) v3 (ix2 r cl) = if (v3 (ix2 r (0 : Fin 1))).toInt = (cl.val : ℤ) then (1 : EReal) else 0 := by
  unfold k0_pay3
  dsimp only
  rw [sitofp_apply, extui_apply]
  simp only [cmpi]
  rw [shapeCast_self, Idealize.ShloMosaic.iota_single_apply,
    broadcastTo_apply v3 broadcasts_S8192x1_S8192x128 (ix2 r cl) (ix2 r (0 : Fin 1)) (fun a => by
      match a with
      | ⟨0, _⟩ => show r.val = if (8192 : Nat) = 1 then 0 else r.val; rw [if_neg (by decide)]
      | ⟨1, _⟩ => show (0 : Nat) = if (1 : Nat) = 1 then 0 else cl.val; rw [if_pos rfl])]
  show FloatOps.sitofp (F := Ideal) .f32 (BitVec.setWidth 32 (IntOp.cmpi .eq (v3 (ix2 r (0 : Fin 1))) (BitVec.ofNat 32 cl.val))) = _
  have hcl : (BitVec.ofNat 32 cl.val).toInt = (cl.val : ℤ) := Cert.Lib.HostSums.toInt_ofNat_of_lt (by have := cl.isLt; omega)
  by_cases h : v3 (ix2 r (0 : Fin 1)) = BitVec.ofNat 32 cl.val
  · rw [Idealize.ShloMosaic.StableHlo.Predicate.cmpi_eq_iff.mpr h, if_pos (by rw [h, hcl])]
    show (((BitVec.setWidth 32 1#1).toInt : ℝ) : EReal) = 1
    rw [show (BitVec.setWidth 32 1#1 : BitVec 32).toInt = 1 from by decide]
    simp
  · have h0 : IntOp.cmpi .eq (v3 (ix2 r (0 : Fin 1))) (BitVec.ofNat 32 cl.val) = 0#1 :=
      eq_zero_of_ne_one (fun hc => h (Idealize.ShloMosaic.StableHlo.Predicate.cmpi_eq_iff.mp hc))
    rw [h0, if_neg (fun hc => h (BitVec.eq_of_toInt_eq (hc.trans hcl.symm)))]
    show (((BitVec.setWidth 32 0#1).toInt : ℝ) : EReal) = 0
    rw [show (BitVec.setWidth 32 0#1 : BitVec 32).toInt = 0 from by decide]
    simp

/-- The counts' new contents: at class cl, what the accumulator held plus the number of the block's rows labelled cl. -/
theorem pay5_apply (v3 : Vec Ideal S8192x1 .i32) (v19 : Vec Ideal S1x128 .f32) (u : Fin 1) (cl : Fin 128) :
    k0_pay5 (F := Ideal) v3 v19 (ix2 u cl)
      = v19 (ix2 u cl) + ∑ r : Fin 8192, if (v3 (ix2 r (0 : Fin 1))).toInt = (cl.val : ℤ) then (1 : EReal) else 0 := by
  unfold k0_pay5
  dsimp only
  rw [shapeCast_self, addf_apply]
  refine congrArg (v19 (ix2 u cl) + ·) ?_
  refine (shapeCast_a_1a_apply _ shapeCasts_S128_S1x128 u cl).trans ?_
  refine (Ideal.multiReduction_add_single (k0_pay3 (F := Ideal) v3) 0x00000000#32 reduces_S8192x128_S128 (.inl rfl) rfl (ix1 cl)).trans ?_
  refine Finset.sum_congr rfl fun r _ => ?_
  refine (congrArg (k0_pay3 (F := Ideal) v3) (?_ : _ = ix2 r cl)).trans (pay3_apply v3 r cl)
  funext a
  match a with
  | ⟨0, _⟩ => rfl
  | ⟨1, _⟩ => rfl

/-- The rows' operand of the product is read at (contraction position, output row). -/
theorem lhs_pay4_0 (i : S64x128.Idx) (q : dot_S8192x64_S8192x128_S64x128_0_0_1_1_n_n.contr.Idx) :
    (dot_S8192x64_S8192x128_S64x128_0_0_1_1_n_n.lhsIdx i q 0).val = (q ⟨0, by decide⟩).val :=
  dot_S8192x64_S8192x128_S64x128_0_0_1_1_n_n.lhsIdx_val_of_single rfl i q
theorem lhs_pay4_1 (i : S64x128.Idx) (q : dot_S8192x64_S8192x128_S64x128_0_0_1_1_n_n.contr.Idx) :
    (dot_S8192x64_S8192x128_S64x128_0_0_1_1_n_n.lhsIdx i q 1).val = (i 0).val := by
  unfold DotDims.lhsIdx
  rw [dif_neg (show ¬(1 : Fin S8192x64.rank) ∈ dot_S8192x64_S8192x128_S64x128_0_0_1_1_n_n.lhsBatch by decide), dif_pos (show (1 : Fin S8192x64.rank) ∈ dot_S8192x64_S8192x128_S64x128_0_0_1_1_n_n.lhsNonContracting by decide)]
  rfl
/-- The one-hot operand is read at (contraction position, output column). -/
theorem rhs_pay4_0 (i : S64x128.Idx) (q : dot_S8192x64_S8192x128_S64x128_0_0_1_1_n_n.contr.Idx) :
    (dot_S8192x64_S8192x128_S64x128_0_0_1_1_n_n.rhsIdx i q 0).val = (q ⟨0, by decide⟩).val :=
  dot_S8192x64_S8192x128_S64x128_0_0_1_1_n_n.rhsIdx_val_of_single rfl i q
theorem rhs_pay4_1 (i : S64x128.Idx) (q : dot_S8192x64_S8192x128_S64x128_0_0_1_1_n_n.contr.Idx) :
    (dot_S8192x64_S8192x128_S64x128_0_0_1_1_n_n.rhsIdx i q 1).val = (i 1).val := by
  unfold DotDims.rhsIdx
  rw [dif_neg (show ¬(1 : Fin S8192x128.rank) ∈ dot_S8192x64_S8192x128_S64x128_0_0_1_1_n_n.rhsBatch by decide), dif_pos (show (1 : Fin S8192x128.rank) ∈ dot_S8192x64_S8192x128_S64x128_0_0_1_1_n_n.rhsNonContracting by decide)]
  rfl

/-- The sums' new contents: at feature d and class cl, what the accumulator held plus the sum of feature d over the
    block's rows labelled cl. -/
theorem pay4_apply (v3 : Vec Ideal S8192x1 .i32) (v10 : Vec Ideal S8192x64 .f32) (v11 : Vec Ideal S64x128 .f32) (d : Fin 64) (cl : Fin 128) :
    k0_pay4 (F := Ideal) v3 v10 v11 (ix2 d cl)
      = v11 (ix2 d cl) + ∑ r : Fin 8192, if (v3 (ix2 r (0 : Fin 1))).toInt = (cl.val : ℤ) then v10 (ix2 r d) else 0 := by
  unfold k0_pay4
  try dsimp only
  rw [shapeCast_self, addf_apply]
  refine congrArg (v11 (ix2 d cl) + ·) ?_
  simp only [matmul]
  rw [Ideal.matmul_constant_zero_apply, ← Equiv.sum_comp (contrEquiv1 dot_S8192x64_S8192x128_S64x128_0_0_1_1_n_n 8192 rfl rfl).symm]
  refine Finset.sum_congr rfl fun k _ => ?_
  have hk := contrEquiv1_symm_val dot_S8192x64_S8192x128_S64x128_0_0_1_1_n_n 8192 rfl rfl k
  have el : dot_S8192x64_S8192x128_S64x128_0_0_1_1_n_n.lhsIdx (ix2 d cl) ((contrEquiv1 dot_S8192x64_S8192x128_S64x128_0_0_1_1_n_n 8192 rfl rfl).symm k) = ix2 k d := funext fun a => Fin.ext (by
    match a with
    | ⟨0, _⟩ => exact (lhs_pay4_0 _ _).trans hk
    | ⟨1, _⟩ => exact lhs_pay4_1 _ _)
  have er : dot_S8192x64_S8192x128_S64x128_0_0_1_1_n_n.rhsIdx (ix2 d cl) ((contrEquiv1 dot_S8192x64_S8192x128_S64x128_0_0_1_1_n_n 8192 rfl rfl).symm k) = ix2 k cl := funext fun a => Fin.ext (by
    match a with
    | ⟨0, _⟩ => exact (rhs_pay4_0 _ _).trans hk
    | ⟨1, _⟩ => exact rhs_pay4_1 _ _)
  rw [el, er, truncf_apply, truncf_apply, pay3_apply]
  by_cases h : (v3 (ix2 k (0 : Fin 1))).toInt = (cl.val : ℤ)
  · rw [if_pos h, if_pos h, mul_one]
  · rw [if_neg h, if_neg h, mul_zero]

/-- The reset contents are zero everywhere. -/
theorem pay1_apply (i : S64x128.Idx) : (k0_pay1 (F := Ideal)) i = 0 := by
  unfold k0_pay1
  try dsimp only
  rw [shapeCast_self, broadcast_apply]
  exact Ideal.ofBits_zero_f32
theorem pay2_apply (i : S1x128.Idx) : (k0_pay2 (F := Ideal)) i = 0 := by
  unfold k0_pay2
  try dsimp only
  rw [shapeCast_self, broadcast_apply]
  exact Ideal.ofBits_zero_f32

/-- The output blocks are the accumulators with a leading unit axis. -/
theorem pay6_apply (v : Vec Ideal S64x128 .f32) (u : Fin 1) (d : Fin 64) (cl : Fin 128) :
    k0_pay6 (F := Ideal) v (ix3 u d cl) = v (ix2 d cl) := by
  unfold k0_pay6
  exact shapeCast_ab_1ab_apply v shapeCasts_S64x128_S1x64x128 u d cl
theorem pay7_apply (v : Vec Ideal S1x128 .f32) (u : Fin 1) (u' : Fin 1) (cl : Fin 128) :
    k0_pay7 (F := Ideal) v (ix3 u u' cl) = v (ix2 u' cl) := by
  unfold k0_pay7
  exact shapeCast_ab_1ab_apply v shapeCasts_S1x128_S1x1x128 u u' cl

end Cert.KernelIdeal.Pay0

end
-- ==== Proof.KI.Value0B.lean ====
/- Region 0, point by point: each input block as rows of the rows' array and of the label column; the accumulators after
   point n as the sum of the terms of the row-blocks of n's half up to n, a term being, per feature and class, the sum of
   the feature over the block's rows carrying the class (for the counts, their number); the sixteen terms of a half as
   the sum over the half's rows; what a flushing point writes back; and that the flushed blocks cover the output arrays. -/
import proofs.«406997_j73443940761980_3_alg».proof.Proof.KI.Pieces0
import proofs.«406997_j73443940761980_3_alg».proof.Proof.KSpec
import proofs.«406997_j73443940761980_3_alg».proof.Proof.LibTileSum
import proofs.«406997_j73443940761980_3_alg».proof.Proof.KI.Value0A
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Fr.Val0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

section Regions
variable (V : (c : Dev nD) → (b : Ref sig .tc) → Buf (Elt Ideal) ((c : Thread nD τ).loc b))

/-- Row r of row-block B (the row-blocks are numbered through both halves, 0 … 31). -/
def blkRow (B : ℕ) (r : Fin 8192) : Fin 262144 := ⟨B % 32 * 8192 + r.val, by have := r.isLt; omega⟩

/-- Where the windows' blocks sit, decided over the grid: the rows' and the labels' block at point t is row-block t, the
    output block is the half t / 16, and every block has its full size. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- The rows' block at point t, read at (r, d): the rows' array at row r of row-block t. -/
theorem xblk0_apply (c : Dev nD) (t : Fin cfg0.N) (r : Fin 8192) (d : Fin 64) :
    xblk0 V c t (ix2 r d) = (V c main_arg0 : S262144x64.Idx → EReal) (ix2 (blkRow t.val r) d) := by
  obtain ⟨e0, e1, -⟩ := idx_facts0 t
  have hN : t.val < 32 := lt_of_lt_of_eq t.isLt (show cfg0.N = 32 from N_0)
  unfold xblk0 iblk0
  rw [View.read_apply]
  show V c main_arg0 _ = V c main_arg0 _
  congr 1
  funext a
  apply Fin.ext
  match a with
  | ⟨0, _⟩ => show win0_0.index t 0 * 8192 + 1 * r.val = t.val % 32 * 8192 + r.val; rw [e0]; omega
  | ⟨1, _⟩ => show win0_0.index t 1 * 64 + 1 * d.val = d.val; rw [e1]; omega

/-- The labels' block at point t, read at (r, 0): the label column at row r of row-block t. -/
theorem tblk0_apply (c : Dev nD) (t : Fin cfg0.N) (r : Fin 8192) :
    tblk0 V c t (ix2 r (0 : Fin 1)) = (V c main_v0 : S262144x1.Idx → BitVec 32) (ix2 (blkRow t.val r) (0 : Fin 1)) := by
  obtain ⟨-, -, e0, e1, -⟩ := idx_facts0 t
  have hN : t.val < 32 := lt_of_lt_of_eq t.isLt (show cfg0.N = 32 from N_0)
  unfold tblk0 iblk0
  rw [View.read_apply]
  show V c main_v0 _ = V c main_v0 _
  congr 1
  funext a
  apply Fin.ext
  match a with
  | ⟨0, _⟩ => show win0_1.index t 0 * 8192 + 1 * r.val = t.val % 32 * 8192 + r.val; rw [e0]; omega
  | ⟨1, _⟩ => show win0_1.index t 1 * 1 + 1 * 0 = 0; rw [e1]

/-- Row-block B's term of the sums: at feature d and class cl, the sum of feature d over the rows of the block labelled cl. -/
def sumTerm (x : Cert.KSpec.SX.Idx → EReal) (tt : Cert.KSpec.STc.Idx → BitVec 32) (d : Fin 64) (cl : Fin 128) (B : ℕ) : EReal :=
  ∑ r : Fin 8192, if (tt (ix2 (blkRow B r) (0 : Fin 1))).toInt = (cl.val : ℤ) then x (ix2 (blkRow B r) d) else 0
/-- Row-block B's term of the counts: the number of the block's rows labelled cl. -/
def cntTerm (tt : Cert.KSpec.STc.Idx → BitVec 32) (cl : Fin 128) (B : ℕ) : EReal :=
  ∑ r : Fin 8192, if (tt (ix2 (blkRow B r) (0 : Fin 1))).toInt = (cl.val : ℤ) then (1 : EReal) else 0

/-- A point adds its row-block's term onto the sums. -/
theorem pay4_blocks (c : Dev nD) (t : Fin cfg0.N) (acc : Vec Ideal S64x128 .f32) (d : Fin 64) (cl : Fin 128) :
    k0_pay4 (F := Ideal) (tblk0 V c t) (xblk0 V c t) acc (ix2 d cl)
      = acc (ix2 d cl) + sumTerm (V c main_arg0) (V c main_v0) d cl t.val := by
  refine (Cert.KernelIdeal.Pay0.pay4_apply (tblk0 V c t) (xblk0 V c t) acc d cl).trans ?_
  refine congrArg (acc (ix2 d cl) + ·) ?_
  unfold sumTerm
  refine Finset.sum_congr rfl fun r _ => ?_
  rw [tblk0_apply V c t r, xblk0_apply V c t r d]

/-- A point adds its row-block's term onto the counts. -/
theorem pay5_blocks (c : Dev nD) (t : Fin cfg0.N) (acc : Vec Ideal S1x128 .f32) (u : Fin 1) (cl : Fin 128) :
    k0_pay5 (F := Ideal) (tblk0 V c t) acc (ix2 u cl)
      = acc (ix2 u cl) + cntTerm (V c main_v0) cl t.val := by
  refine (Cert.KernelIdeal.Pay0.pay5_apply (tblk0 V c t) acc u cl).trans ?_
  refine congrArg (acc (ix2 u cl) + ·) ?_
  unfold cntTerm
  refine Finset.sum_congr rfl fun r _ => ?_
  rw [tblk0_apply V c t r]

/-- The sums' accumulator after point n holds, at feature d and class cl, the terms of the row-blocks of n's half up to n. -/
theorem sums_after (c : Dev nD) : ∀ (n : ℕ) (hn : n < cfg0.N) (d : Fin 64) (cl : Fin 128),
    (outsAt0 V c n hn).2.2.1 (ix2 d cl)
      = ∑ b ∈ Finset.range (n % 16 + 1), sumTerm (V c main_arg0) (V c main_v0) d cl (n / 16 * 16 + b)
  | 0, hn, d, cl => by
    rw [show outsAt0 V c 0 hn = case0A V c ⟨0, hn⟩ (Nat.zero_mod _) (by show ¬(0 % 16 = 15); decide) from rfl]
    rw [case0A_s0 V c ⟨0, hn⟩ _ _, pay4_blocks V c ⟨0, hn⟩ (k0_pay1 (F := Ideal)) d cl, Cert.KernelIdeal.Pay0.pay1_apply, zero_add]
    show sumTerm (V c main_arg0) (V c main_v0) d cl 0 = ∑ b ∈ Finset.range 1, sumTerm (V c main_arg0) (V c main_v0) d cl (0 + b)
    rw [Finset.sum_range_one]
  | n + 1, hn, d, cl => by
    by_cases h0 : (n + 1) % 16 = 0
    · have h1 : ¬(n + 1) % 16 = 15 := by omega
      have e : outsAt0 V c (n + 1) hn = case0A V c ⟨n + 1, hn⟩ h0 h1 := (dif_pos h0).trans ((dif_neg h1).trans rfl)
      rw [e, case0A_s0 V c ⟨n + 1, hn⟩ h0 h1, pay4_blocks V c ⟨n + 1, hn⟩ (k0_pay1 (F := Ideal)) d cl, Cert.KernelIdeal.Pay0.pay1_apply, zero_add]
      rw [h0, Finset.sum_range_one]
      dsimp only
      congr 1
      omega
    · by_cases h1 : (n + 1) % 16 = 15
      · have e : outsAt0 V c (n + 1) hn = case0C V c ⟨n + 1, hn⟩ h0 h1 (outsAt0 V c n (Nat.lt_of_succ_lt hn)).2.2.1 (outsAt0 V c n (Nat.lt_of_succ_lt hn)).2.2.2 :=
          (dif_neg h0).trans ((dif_pos h1).trans rfl)
        rw [e, case0C_s0 V c ⟨n + 1, hn⟩ h0 h1 _ _, pay4_blocks V c ⟨n + 1, hn⟩ _ d cl, sums_after c n (Nat.lt_of_succ_lt hn) d cl]
        have e1 : (n + 1) % 16 + 1 = (n % 16 + 1) + 1 := by omega
        have e2 : (n + 1) / 16 = n / 16 := by omega
        rw [e1, e2, Finset.sum_range_succ _ (n % 16 + 1)]
        dsimp only
        congr 2
        omega
      · have e : outsAt0 V c (n + 1) hn = case0B V c ⟨n + 1, hn⟩ h0 h1 (outsAt0 V c n (Nat.lt_of_succ_lt hn)).2.2.1 (outsAt0 V c n (Nat.lt_of_succ_lt hn)).2.2.2 :=
          (dif_neg h0).trans ((dif_neg h1).trans rfl)
        rw [e, case0B_s0 V c ⟨n + 1, hn⟩ h0 h1 _ _, pay4_blocks V c ⟨n + 1, hn⟩ _ d cl, sums_after c n (Nat.lt_of_succ_lt hn) d cl]
        have e1 : (n + 1) % 16 + 1 = (n % 16 + 1) + 1 := by omega
        have e2 : (n + 1) / 16 = n / 16 := by omega
        rw [e1, e2, Finset.sum_range_succ _ (n % 16 + 1)]
        dsimp only
        congr 2
        omega

/-- The counts' accumulator after point n holds, at class cl, the terms of the row-blocks of n's half up to n. -/
theorem counts_after (c : Dev nD) : ∀ (n : ℕ) (hn : n < cfg0.N) (u : Fin 1) (cl : Fin 128),
    (outsAt0 V c n hn).2.2.2 (ix2 u cl)
      = ∑ b ∈ Finset.range (n % 16 + 1), cntTerm (V c main_v0) cl (n / 16 * 16 + b)
  | 0, hn, u, cl => by
    rw [show outsAt0 V c 0 hn = case0A V c ⟨0, hn⟩ (Nat.zero_mod _) (by show ¬(0 % 16 = 15); decide) from rfl]
    rw [case0A_s1 V c ⟨0, hn⟩ _ _, pay5_blocks V c ⟨0, hn⟩ (k0_pay2 (F := Ideal)) u cl, Cert.KernelIdeal.Pay0.pay2_apply, zero_add]
    show cntTerm (V c main_v0) cl 0 = ∑ b ∈ Finset.range 1, cntTerm (V c main_v0) cl (0 + b)
    rw [Finset.sum_range_one]
  | n + 1, hn, u, cl => by
    by_cases h0 : (n + 1) % 16 = 0
    · have h1 : ¬(n + 1) % 16 = 15 := by omega
      have e : outsAt0 V c (n + 1) hn = case0A V c ⟨n + 1, hn⟩ h0 h1 := (dif_pos h0).trans ((dif_neg h1).trans rfl)
      rw [e, case0A_s1 V c ⟨n + 1, hn⟩ h0 h1, pay5_blocks V c ⟨n + 1, hn⟩ (k0_pay2 (F := Ideal)) u cl, Cert.KernelIdeal.Pay0.pay2_apply, zero_add]
      rw [h0, Finset.sum_range_one]
      dsimp only
      congr 1
      omega
    · by_cases h1 : (n + 1) % 16 = 15
      · have e : outsAt0 V c (n + 1) hn = case0C V c ⟨n + 1, hn⟩ h0 h1 (outsAt0 V c n (Nat.lt_of_succ_lt hn)).2.2.1 (outsAt0 V c n (Nat.lt_of_succ_lt hn)).2.2.2 :=
          (dif_neg h0).trans ((dif_pos h1).trans rfl)
        rw [e, case0C_s1 V c ⟨n + 1, hn⟩ h0 h1 _ _, pay5_blocks V c ⟨n + 1, hn⟩ _ u cl, counts_after c n (Nat.lt_of_succ_lt hn) u cl]
        have e1 : (n + 1) % 16 + 1 = (n % 16 + 1) + 1 := by omega
        have e2 : (n + 1) / 16 = n / 16 := by omega
        rw [e1, e2, Finset.sum_range_succ _ (n % 16 + 1)]
        dsimp only
        congr 2
        omega
      · have e : outsAt0 V c (n + 1) hn = case0B V c ⟨n + 1, hn⟩ h0 h1 (outsAt0 V c n (Nat.lt_of_succ_lt hn)).2.2.1 (outsAt0 V c n (Nat.lt_of_succ_lt hn)).2.2.2 :=
          (dif_neg h0).trans ((dif_neg h1).trans rfl)
        rw [e, case0B_s1 V c ⟨n + 1, hn⟩ h0 h1 _ _, pay5_blocks V c ⟨n + 1, hn⟩ _ u cl, counts_after c n (Nat.lt_of_succ_lt hn) u cl]
        have e1 : (n + 1) % 16 + 1 = (n % 16 + 1) + 1 := by omega
        have e2 : (n + 1) / 16 = n / 16 := by omega
        rw [e1, e2, Finset.sum_range_succ _ (n % 16 + 1)]
        dsimp only
        congr 2
        omega

/-- The sixteen row-blocks' terms of a half add up to the sum over the half's rows. -/
theorem sum_half_sums (x : Cert.KSpec.SX.Idx → EReal) (tt : Cert.KSpec.STc.Idx → BitVec 32) (h : Fin 2) (d : Fin 64) (cl : Fin 128) :
    ∑ b ∈ Finset.range 16, sumTerm x tt d cl (h.val * 16 + b)
      = ∑ r : Fin 131072, if Cert.KSpec.labelled tt (Cert.KSpec.halfRow h r) cl.val then x (ix2 (Cert.KSpec.halfRow h r) d) else 0 := by
  rw [Finset.sum_range]
  refine Eq.trans ?_ (Cert.Lib.TileSum.sum_tiles 16 8192 (fun r : Fin 131072 =>
    if Cert.KSpec.labelled tt (Cert.KSpec.halfRow h r) cl.val then x (ix2 (Cert.KSpec.halfRow h r) d) else 0)).symm
  refine Finset.sum_congr rfl fun b _ => ?_
  unfold sumTerm
  refine Finset.sum_congr rfl fun r _ => ?_
  have e : blkRow (h.val * 16 + b.val) r = Cert.KSpec.halfRow h ⟨b.val * 8192 + r.val, by have := b.isLt; have := r.isLt; omega⟩ :=
    Fin.ext (by
      show (h.val * 16 + b.val) % 32 * 8192 + r.val = h.val * 131072 + (b.val * 8192 + r.val)
      have := h.isLt; have := b.isLt; omega)
  rw [e]

theorem sum_half_counts (tt : Cert.KSpec.STc.Idx → BitVec 32) (h : Fin 2) (cl : Fin 128) :
    ∑ b ∈ Finset.range 16, cntTerm tt cl (h.val * 16 + b)
      = ∑ r : Fin 131072, if Cert.KSpec.labelled tt (Cert.KSpec.halfRow h r) cl.val then (1 : EReal) else 0 := by
  rw [Finset.sum_range]
  refine Eq.trans ?_ (Cert.Lib.TileSum.sum_tiles 16 8192 (fun r : Fin 131072 =>
    if Cert.KSpec.labelled tt (Cert.KSpec.halfRow h r) cl.val then (1 : EReal) else 0)).symm
  refine Finset.sum_congr rfl fun b _ => ?_
  unfold cntTerm
  refine Finset.sum_congr rfl fun r _ => ?_
  have e : blkRow (h.val * 16 + b.val) r = Cert.KSpec.halfRow h ⟨b.val * 8192 + r.val, by have := b.isLt; have := r.isLt; omega⟩ :=
    Fin.ext (by
      show (h.val * 16 + b.val) % 32 * 8192 + r.val = h.val * 131072 + (b.val * 8192 + r.val)
      have := h.isLt; have := b.isLt; omega)
  rw [e]

/-- The sixteen terms of half q are the target at an index of half q. -/
theorem half_eq_sums (x : Cert.KSpec.SX.Idx → EReal) (tt : Cert.KSpec.STc.Idx → BitVec 32) (q : ℕ) (hq : q < 2) (d : Fin 64) (cl : Fin 128)
    (i : S2x64x128.Idx) (hi0 : (i 0).val = q) (hi1 : (i 1).val = d.val) (hi2 : (i 2).val = cl.val) :
    ∑ b ∈ Finset.range 16, sumTerm x tt d cl (q * 16 + b) = Cert.KSpec.psum x tt i := by
  obtain ⟨a, b', c', rfl⟩ : ∃ (a : Fin 2) (b' : Fin 64) (c' : Fin 128), i = ix3 a b' c' := ⟨i 0, i 1, i 2, eq_ix3 i⟩
  obtain rfl : q = a.val := hi0.symm
  obtain rfl : d = b' := Fin.ext hi1.symm
  obtain rfl : cl = c' := Fin.ext hi2.symm
  exact sum_half_sums x tt a d cl

/-- At the last row-block of a half the sums' output block holds the half's sixteen terms. -/
theorem out_sums_C (c : Dev nD) (t : Fin cfg0.N) (h0 : ¬t.val % 16 = 0) (h15 : t.val % 16 = 15) (j : S1x64x128.Idx) :
    (outsAt0 V c t.val t.isLt).1 j
      = ∑ b ∈ Finset.range 16, sumTerm (V c main_arg0) (V c main_v0) ⟨(j 1).val, (j 1).isLt⟩ ⟨(j 2).val, (j 2).isLt⟩ (t.val / 16 * 16 + b) := by
  obtain ⟨u, d, cl, rfl⟩ : ∃ (u : Fin 1) (d : Fin 64) (cl : Fin 128), j = ix3 u d cl := ⟨j 0, j 1, j 2, eq_ix3 j⟩
  have hs := sums_after V c t.val t.isLt d cl
  rw [outsAt0_C V c t h0 h15, case0C_s0 V c t h0 h15 _ _, h15] at hs
  rw [outsAt0_C V c t h0 h15, case0C_o2 V c t h0 h15 _ _, Cert.KernelIdeal.Pay0.pay6_apply, hs]

/-- What a flushing point writes back into the sums' array is its block of the target. -/
theorem flushed_sums (c : Dev nD) (t : Fin cfg0.N) (hf : (cfg0.win 2).flush t = true) :
    (dat0 V c).flushed 2 t = ((cfg0.win 2).blk t).view.read (Elt Ideal) (Cert.KSpec.psum (V c main_arg0) (V c main_v0)) := by
  have h15 : t.val % 16 = 15 := (flush0_2 t).mp hf
  have h0 : ¬t.val % 16 = 0 := by omega
  have hN : t.val < 32 := lt_of_lt_of_eq t.isLt (show cfg0.N = 32 from N_0)
  have hh : t.val / 16 < 2 := by omega
  obtain ⟨-, -, -, -, e20, e21, e22, e30, e31, e32⟩ := idx_facts0 t
  show (cfg0.win 2).cut (grid0.coords t) ((dat0 V c).after 2 t) = _
  rw [after0_2, show (outsAt0 V c t.val t.isLt).1
      = (fun j : S1x64x128.Idx => ∑ b ∈ Finset.range 16, sumTerm (V c main_arg0) (V c main_v0) ⟨(j 1).val, (j 1).isLt⟩ ⟨(j 2).val, (j 2).isLt⟩ (t.val / 16 * 16 + b))
    from funext (out_sums_C V c t h0 h15)]
  funext y
  rw [View.read_apply, cast_eq]
  show ∑ b ∈ Finset.range 16, sumTerm (V c main_arg0) (V c main_v0) ⟨(y 1).val, (y 1).isLt⟩ ⟨(y 2).val, (y 2).isLt⟩ (t.val / 16 * 16 + b) = _
  refine half_eq_sums (V c main_arg0) (V c main_v0) (t.val / 16) hh _ _ _ ?_ ?_ ?_
  · show win0_2.index t 0 * 1 + 1 * (y 0).val = t.val / 16
    have hy : (y 0).val < 1 := (y 0).isLt
    rw [e20]; omega
  · show win0_2.index t 1 * 64 + 1 * (y 1).val = (y 1).val
    rw [e21]; omega
  · show win0_2.index t 2 * 128 + 1 * (y 2).val = (y 2).val
    rw [e22]; omega
/-- Every index of the sums' array is in the block some flushing point writes back: half h's at its last row-block. -/
theorem cover_sums (i : S2x64x128.Idx) :
    ∃ t : Fin cfg0.N, (cfg0.win 2).flush t = true ∧ i ∈ ((cfg0.win 2).blk t).view.set := by
  have hN : cfg0.N = 32 := N_0
  have hi0 : (i 0).val < 2 := (i 0).isLt
  have hi1 : (i 1).val < 64 := (i 1).isLt
  have hi2 : (i 2).val < 128 := (i 2).isLt
  have ht : ∃ t : Fin cfg0.N, t.val = (i 0).val * 16 + 15 := ⟨⟨(i 0).val * 16 + 15, by omega⟩, rfl⟩
  obtain ⟨t, ht⟩ := ht
  obtain ⟨-, -, -, -, e20, e21, e22, e30, e31, e32⟩ := idx_facts0 t
  refine ⟨t, (flush0_2 t).mpr (by omega), ?_⟩
  show i ∈ ((View.whole main_v1_0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e20]; omega
  | ⟨1, _⟩ => show win0_2.index t 1 * 64 ≤ (i 1).val ∧ (i 1).val < win0_2.index t 1 * 64 + 64; rw [e21]; omega
  | ⟨2, _⟩ => show win0_2.index t 2 * 128 ≤ (i 2).val ∧ (i 2).val < win0_2.index t 2 * 128 + 128; rw [e22]; omega

/-- The sixteen terms of half q are the target at an index of half q. -/
theorem half_eq_counts (tt : Cert.KSpec.STc.Idx → BitVec 32) (q : ℕ) (hq : q < 2) (cl : Fin 128)
    (i : S2x1x128.Idx) (hi0 : (i 0).val = q) (hi2 : (i 2).val = cl.val) :
    ∑ b ∈ Finset.range 16, cntTerm tt cl (q * 16 + b) = Cert.KSpec.pcnt tt i := by
  obtain ⟨a, b', c', rfl⟩ : ∃ (a : Fin 2) (b' : Fin 1) (c' : Fin 128), i = ix3 a b' c' := ⟨i 0, i 1, i 2, eq_ix3 i⟩
  obtain rfl : q = a.val := hi0.symm

  obtain rfl : cl = c' := Fin.ext hi2.symm
  exact sum_half_counts tt a cl

/-- At the last row-block of a half the counts' output block holds the half's sixteen terms. -/
theorem out_counts_C (c : Dev nD) (t : Fin cfg0.N) (h0 : ¬t.val % 16 = 0) (h15 : t.val % 16 = 15) (j : S1x1x128.Idx) :
    (outsAt0 V c t.val t.isLt).2.1 j
      = ∑ b ∈ Finset.range 16, cntTerm (V c main_v0) ⟨(j 2).val, (j 2).isLt⟩ (t.val / 16 * 16 + b) := by
  obtain ⟨u, d, cl, rfl⟩ : ∃ (u : Fin 1) (d : Fin 1) (cl : Fin 128), j = ix3 u d cl := ⟨j 0, j 1, j 2, eq_ix3 j⟩
  have hs := counts_after V c t.val t.isLt d cl
  rw [outsAt0_C V c t h0 h15, case0C_s1 V c t h0 h15 _ _, h15] at hs
  rw [outsAt0_C V c t h0 h15, case0C_o3 V c t h0 h15 _ _, Cert.KernelIdeal.Pay0.pay7_apply, hs]

/-- What a flushing point writes back into the counts' array is its block of the target. -/
theorem flushed_counts (c : Dev nD) (t : Fin cfg0.N) (hf : (cfg0.win 3).flush t = true) :
    (dat0 V c).flushed 3 t = ((cfg0.win 3).blk t).view.read (Elt Ideal) (Cert.KSpec.pcnt (V c main_v0)) := by
  have h15 : t.val % 16 = 15 := (flush0_3 t).mp hf
  have h0 : ¬t.val % 16 = 0 := by omega
  have hN : t.val < 32 := lt_of_lt_of_eq t.isLt (show cfg0.N = 32 from N_0)
  have hh : t.val / 16 < 2 := by omega
  obtain ⟨-, -, -, -, e20, e21, e22, e30, e31, e32⟩ := idx_facts0 t
  show (cfg0.win 3).cut (grid0.coords t) ((dat0 V c).after 3 t) = _
  rw [after0_3, show (outsAt0 V c t.val t.isLt).2.1
      = (fun j : S1x1x128.Idx => ∑ b ∈ Finset.range 16, cntTerm (V c main_v0) ⟨(j 2).val, (j 2).isLt⟩ (t.val / 16 * 16 + b))
    from funext (out_counts_C V c t h0 h15)]
  funext y
  rw [View.read_apply, cast_eq]
  show ∑ b ∈ Finset.range 16, cntTerm (V c main_v0) ⟨(y 2).val, (y 2).isLt⟩ (t.val / 16 * 16 + b) = _
  refine half_eq_counts (V c main_v0) (t.val / 16) hh _ _ ?_ ?_
  · show win0_3.index t 0 * 1 + 1 * (y 0).val = t.val / 16
    have hy : (y 0).val < 1 := (y 0).isLt
    rw [e30]; omega
  · show win0_3.index t 2 * 128 + 1 * (y 2).val = (y 2).val
    rw [e32]; omega
/-- Every index of the counts' array is in the block some flushing point writes back: half h's at its last row-block. -/
theorem cover_counts (i : S2x1x128.Idx) :
    ∃ t : Fin cfg0.N, (cfg0.win 3).flush t = true ∧ i ∈ ((cfg0.win 3).blk t).view.set := by
  have hN : cfg0.N = 32 := N_0
  have hi0 : (i 0).val < 2 := (i 0).isLt
  have hi1 : (i 1).val < 1 := (i 1).isLt
  have hi2 : (i 2).val < 128 := (i 2).isLt
  have ht : ∃ t : Fin cfg0.N, t.val = (i 0).val * 16 + 15 := ⟨⟨(i 0).val * 16 + 15, by omega⟩, rfl⟩
  obtain ⟨t, ht⟩ := ht
  obtain ⟨-, -, -, -, e20, e21, e22, e30, e31, e32⟩ := idx_facts0 t
  refine ⟨t, (flush0_3 t).mpr (by omega), ?_⟩
  show i ∈ ((View.whole main_v1_1).slice (win0_3.rect t)).set
  rw [View.set_slice_whole, Rect.mem_set_unit]
  intro a
  match a with
  | ⟨0, _⟩ => show win0_3.index t 0 * 1 ≤ (i 0).val ∧ (i 0).val < win0_3.index t 0 * 1 + 1; rw [e30]; omega
  | ⟨1, _⟩ => show win0_3.index t 1 * 1 ≤ (i 1).val ∧ (i 1).val < win0_3.index t 1 * 1 + 1; rw [e31]; omega
  | ⟨2, _⟩ => show win0_3.index t 2 * 128 ≤ (i 2).val ∧ (i 2).val < win0_3.index t 2 * 128 + 128; rw [e32]; omega

end Regions

end Cert.KernelIdeal.Fr.Val0

end
-- ==== Proof.KI.Value0.lean ====
/- What region 0 leaves in its two output arrays: block h of the sums' array is written back once, at the last row-block of half
   h, with the accumulator's contents there, which is the sum over the sixteen row-blocks of the half of each block's term — per
   feature and class, the sum of the feature over the block's rows carrying the class; likewise the counts. -/
import proofs.«406997_j73443940761980_3_alg».proof.Proof.KI.Pieces0
import proofs.«406997_j73443940761980_3_alg».proof.Proof.KI.Value0B
import proofs.«406997_j73443940761980_3_alg».proof.Proof.KSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section Regions
variable (V : (c : Dev nD) → (b : Ref sig .tc) → Buf (Elt Ideal) ((c : Thread nD τ).loc b))

/-- The sums' array after the region, as one function of the rows and the label column the region found. -/
theorem arr0_sums (c : Dev nD) :
    ((dat0 (F := Ideal) V c).arrAt 2 cfg0.N : S2x64x128.Idx → EReal) = Cert.KSpec.psum (V c main_arg0) (V c main_v0) := by
  exact (dat0 (F := Ideal) V c).arrAt_eq_of_cover 2 (Cert.KSpec.psum (V c main_arg0) (V c main_v0)) (Val0.flushed_sums V c) Val0.cover_sums

/-- The counts' array after the region, as one function of the label column the region found. -/
theorem arr0_counts (c : Dev nD) :
    ((dat0 (F := Ideal) V c).arrAt 3 cfg0.N : S2x1x128.Idx → EReal) = Cert.KSpec.pcnt (V c main_v0) := by
  exact (dat0 (F := Ideal) V c).arrAt_eq_of_cover 3 (Cert.KSpec.pcnt (V c main_v0)) (Val0.flushed_counts V c) Val0.cover_counts

end Regions

end Cert.KernelIdeal.Fr

end
-- ==== Proof.Spec.lean ====
/- The common value both programs compute, as one function of the four argument arrays.

   For rows x[n, ·] with class labels t[n]: the count of a class is the number of rows labelled with it, its sum the
   feature-wise sum of those rows, its mean their quotient. A label outside 0..127 matches no class, so such a row
   contributes to nothing. The loss is the squared distance of the LAST class's mean row to every row of the mean
   parameter, plus a middle term, plus the energy of the covariance parameter. The middle term is a sum over the last
   class's rows of squares of projections onto that class's summed centred rows; a class's centred rows sum to zero
   whenever the class has a row at all (the rows being finite), so the middle term is zero. -/
import Idealize.ShloMosaic.PureOps.Ideal
import Idealize.ShloMosaic.Lib.ValueIdx

noncomputable section

namespace Cert.Spec

open Idealize.ShloMosaic Idealize.ShloMosaic.ValueIdx

abbrev SX : Shape := ⟨2, ![262144, 64]⟩
abbrev ST : Shape := ⟨1, ![262144]⟩
abbrev SM : Shape := ⟨2, ![128, 64]⟩
abbrev SC : Shape := ⟨3, ![128, 64, 64]⟩

/-- Row `n` carries class `c`. -/
abbrev inClass (t : ST.Idx → BitVec 32) (c : Fin 128) (n : Fin 262144) : Prop := (t (ix1 n)).toInt = (c.val : ℤ)

/-- How many rows carry class `c`. -/
def cnt (t : ST.Idx → BitVec 32) (c : Fin 128) : EReal :=
  ∑ n : Fin 262144, if inClass t c n then (1 : EReal) else 0

/-- The sum of feature `d` over the rows of class `c`. -/
def sm (x : SX.Idx → EReal) (t : ST.Idx → BitVec 32) (c : Fin 128) (d : Fin 64) : EReal :=
  ∑ n : Fin 262144, if inClass t c n then x (ix2 n d) else 0

/-- The mean of feature `d` over the rows of class `c` (the host's quotient, whatever it makes of an empty class). -/
def mean (x : SX.Idx → EReal) (t : ST.Idx → BitVec 32) (c : Fin 128) (d : Fin 64) : EReal :=
  Ideal.div (sm x t c d) (cnt t c)

/-- The loss from a mean row `μ` and a middle term `q`. -/
def loss (μ : Fin 64 → EReal) (q : EReal) (mp : SM.Idx → EReal) (cp : SC.Idx → EReal) : EReal :=
  ((0 + ∑ j : SM.Idx, (μ ⟨(j 1).val, idx2_lt1 j⟩ - mp j) * (μ ⟨(j 1).val, idx2_lt1 j⟩ - mp j)) + q)
    + (0 + ∑ j : SC.Idx, cp j * cp j)

/-- What both programs return. -/
def value (x : SX.Idx → EReal) (t : ST.Idx → BitVec 32) (mp : SM.Idx → EReal) (cp : SC.Idx → EReal) : EReal :=
  loss (fun d => mean x t 127 d) 0 mp cp

end Cert.Spec

end
-- ==== Proof.KI.Host1.lean ====
/- The host operations between the two passes, read at an index over what the first pass leaves: the two halves' sums and counts
   add up to the class sums and counts of all the rows; their quotient is the class means; the row handed to the second pass as
   its mean row is the last class's mean row, and the scaled row is (sum − count · mean) / count of the last class, which is zero
   whenever that class has a row and the rows are finite. The rows and the label column reach the second pass unchanged. -/
import proofs.«406997_j73443940761980_3_alg».proof.Proof.KI.Main
import proofs.«406997_j73443940761980_3_alg».proof.Proof.KI.Value0
import proofs.«406997_j73443940761980_3_alg».proof.Proof.KSpec
import proofs.«406997_j73443940761980_3_alg».proof.Proof.Spec
import proofs.«406997_j73443940761980_3_alg».proof.Proof.LibTileSum
import proofs.«406997_j73443940761980_3_alg».proof.Proof.LibHostSums
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-! ## The host operations between the passes, as functions of the two arrays the first pass leaves -/

namespace Host1

/-- The halves' sums added: at (d, c) the two halves' sums of feature d over class c, from zero. -/
def sums2 (A : S2x64x128.Idx → EReal) : S64x128.Idx → EReal :=
  Host.reduceAdd (F := Ideal) (φ := .f32) A (constant (F := Ideal) S_ .f32 0x00000000#32) reducesTo_S2x64x128_S64x128_d0 h_S_
/-- … class by feature. -/
def sumsT (A : S2x64x128.Idx → EReal) : S128x64.Idx → EReal :=
  transpose S128x64 [1, 0] (sums2 A) transposes_S64x128_S128x64_1_0
/-- The halves' counts added, from zero. -/
def cnts2 (B : S2x1x128.Idx → EReal) : S1x128.Idx → EReal :=
  Host.reduceAdd (F := Ideal) (φ := .f32) B (constant (F := Ideal) S_ .f32 0x00000000#32) reducesTo_S2x1x128_S1x128_d0 h_S_
/-- … as a column, one entry per class. -/
def cntsC (B : S2x1x128.Idx → EReal) : S128x1.Idx → EReal :=
  shapeCast S128x1 (cnts2 B) shapeCasts_S1x128_S128x1
/-- … repeated along the features. -/
def cntsB (B : S2x1x128.Idx → EReal) : S128x64.Idx → EReal :=
  broadcastInDim S128x64 ![0, 1] bcast_S128x1_S128x64_0_1 (cntsC B)
/-- The quotient of the sums by the counts. -/
def means (A : S2x64x128.Idx → EReal) (B : S2x1x128.Idx → EReal) : S128x64.Idx → EReal :=
  Host.divf (F := Ideal) (φ := .f32) (sumsT A) (cntsB B)
/-- The row of the last class cut out of the means. -/
def mlast (A : S2x64x128.Idx → EReal) (B : S2x1x128.Idx → EReal) : S1x64.Idx → EReal :=
  extractStridedSlice S1x64 ![127, 0] (means A B) slices_S128x64_S1x64_127_0
/-- The sums less count times mean. -/
def centred (A : S2x64x128.Idx → EReal) (B : S2x1x128.Idx → EReal) : S128x64.Idx → EReal :=
  subf (F := Ideal) (φ := .f32) (sumsT A) (mulf (F := Ideal) (φ := .f32) (cntsB B) (means A B))
/-- The last class's count repeated along the features. -/
def cntLast (B : S2x1x128.Idx → EReal) : S1x64.Idx → EReal :=
  broadcastInDim S1x64 ![0, 1] bcast_S1x1_S1x64_0_1 (extractStridedSlice S1x1 ![127, 0] (cntsC B) slices_S128x1_S1x1_127_0)
/-- The last class's row of the sums less count times mean, over the last class's count. -/
def scaled (A : S2x64x128.Idx → EReal) (B : S2x1x128.Idx → EReal) : S1x64.Idx → EReal :=
  Host.divf (F := Ideal) (φ := .f32) (extractStridedSlice S1x64 ![127, 0] (centred A B) slices_S128x64_S1x64_127_0) (cntLast B)

/-! ### Read at an index -/

/-- The sum over the leading axis of extent two is zero plus the two entries. -/
theorem sums2_apply (A : S2x64x128.Idx → EReal) (d : Fin 64) (cl : Fin 128) :
    sums2 A (ix2 d cl) = 0 + (A (ix3 0 d cl) + A (ix3 1 d cl)) := by
  unfold sums2
  simp only [Host.reduceAdd, Ideal.hostReduceAdd_def]
  rw [Ideal.hostReduceAdd_single reducesTo_S2x64x128_S64x128_d0 (by decide)]
  refine congrArg₂ (· + ·) Ideal.ofBits_zero_f32 ?_
  refine (Fin.sum_univ_two _).trans ?_
  refine congrArg₂ (· + ·) (congrArg A ?_) (congrArg A ?_) <;>
    exact funext fun a => Fin.ext (by match a with | ⟨0, _⟩ => rfl | ⟨1, _⟩ => rfl | ⟨2, _⟩ => rfl)

/-- Likewise the counts. -/
theorem cnts2_apply (B : S2x1x128.Idx → EReal) (cl : Fin 128) :
    cnts2 B (ix2 (0 : Fin 1) cl) = 0 + (B (ix3 0 0 cl) + B (ix3 1 0 cl)) := by
  unfold cnts2
  simp only [Host.reduceAdd, Ideal.hostReduceAdd_def]
  rw [Ideal.hostReduceAdd_single reducesTo_S2x1x128_S1x128_d0 (by decide)]
  refine congrArg₂ (· + ·) Ideal.ofBits_zero_f32 ?_
  refine (Fin.sum_univ_two _).trans ?_
  refine congrArg₂ (· + ·) (congrArg B ?_) (congrArg B ?_) <;>
    exact funext fun a => Fin.ext (by match a with | ⟨0, _⟩ => rfl | ⟨1, _⟩ => rfl | ⟨2, _⟩ => rfl)

/-- The transposed sums at (class, feature) are the sums at (feature, class). -/
theorem sumsT_apply (A : S2x64x128.Idx → EReal) (cl : Fin 128) (d : Fin 64) :
    sumsT A (ix2 cl d) = 0 + (A (ix3 0 d cl) + A (ix3 1 d cl)) := by
  unfold sumsT
  rw [transpose_ix2_apply, sums2_apply]

/-- The column of counts at (class, 0) is the row of counts at (0, class): both sit at the row-major position of the
    class's number. -/
theorem cntsC_apply (B : S2x1x128.Idx → EReal) (cl : Fin 128) :
    cntsC B (ix2 cl (0 : Fin 1)) = 0 + (B (ix3 0 0 cl) + B (ix3 1 0 cl)) := by
  unfold cntsC
  rw [← cnts2_apply]
  refine shapeCast_apply _ shapeCasts_S1x128_S128x1 (ix2 cl (0 : Fin 1)) (ix2 (0 : Fin 1) cl) ?_
  rw [Shape.rowMajor_val_two, Shape.rowMajor_val_two]
  show 0 * 128 + cl.val = cl.val * 1 + 0
  omega

/-- The column repeated along the features reads the column's entry of the class. -/
theorem cntsB_apply (B : S2x1x128.Idx → EReal) (cl : Fin 128) (d : Fin 64) :
    cntsB B (ix2 cl d) = 0 + (B (ix3 0 0 cl) + B (ix3 1 0 cl)) := by
  unfold cntsB
  rw [← cntsC_apply]
  exact broadcastInDim_apply _ bcast_S128x1_S128x64_0_1 _ (ix2 cl d) (ix2 cl (0 : Fin 1)) (fun a => match a with
    | ⟨0, _⟩ => by show cl.val = if (128 : Nat) = 1 then 0 else cl.val; rw [if_neg (by decide)]
    | ⟨1, _⟩ => by show 0 = if (1 : Nat) = 1 then 0 else d.val; rw [if_pos rfl])

/-- The quotient at (class, feature). -/
theorem means_apply (A : S2x64x128.Idx → EReal) (B : S2x1x128.Idx → EReal) (cl : Fin 128) (d : Fin 64) :
    means A B (ix2 cl d) = Ideal.div (0 + (A (ix3 0 d cl) + A (ix3 1 d cl))) (0 + (B (ix3 0 0 cl) + B (ix3 1 0 cl))) := by
  rw [← sumsT_apply, ← cntsB_apply B cl d]
  rfl

/-- The cut row at (0, feature) is the means' row 127. -/
theorem mlast_apply (A : S2x64x128.Idx → EReal) (B : S2x1x128.Idx → EReal) (d : Fin 64) :
    mlast A B (ix2 (0 : Fin 1) d) = means A B (ix2 (127 : Fin 128) d) := by
  unfold mlast
  exact slice2_axis0_apply 127 _ slices_S128x64_S1x64_127_0 (0 : Fin 1) d (127 : Fin 128) rfl

/-- The sums less count times mean, at (class, feature). -/
theorem centred_apply (A : S2x64x128.Idx → EReal) (B : S2x1x128.Idx → EReal) (cl : Fin 128) (d : Fin 64) :
    centred A B (ix2 cl d)
      = (0 + (A (ix3 0 d cl) + A (ix3 1 d cl)))
        - (0 + (B (ix3 0 0 cl) + B (ix3 1 0 cl))) * Ideal.div (0 + (A (ix3 0 d cl) + A (ix3 1 d cl))) (0 + (B (ix3 0 0 cl) + B (ix3 1 0 cl))) := by
  rw [← means_apply, ← sumsT_apply, ← cntsB_apply B cl d]
  rfl

/-- The last class's count, whatever the feature. -/
theorem cntLast_apply (B : S2x1x128.Idx → EReal) (d : Fin 64) :
    cntLast B (ix2 (0 : Fin 1) d) = 0 + (B (ix3 0 0 (127 : Fin 128)) + B (ix3 1 0 (127 : Fin 128))) := by
  unfold cntLast
  rw [← cntsC_apply]
  refine (broadcastInDim_apply _ bcast_S1x1_S1x64_0_1 _ (ix2 (0 : Fin 1) d) (ix2 (0 : Fin 1) (0 : Fin 1)) (fun a => match a with
    | ⟨0, _⟩ => by show 0 = if (1 : Nat) = 1 then 0 else 0; rw [if_pos rfl]
    | ⟨1, _⟩ => by show 0 = if (1 : Nat) = 1 then 0 else d.val; rw [if_pos rfl])).trans ?_
  exact slice2_axis0_apply 127 _ slices_S128x1_S1x1_127_0 (0 : Fin 1) (0 : Fin 1) (127 : Fin 128) rfl

/-- The scaled row at (0, feature): with S the last class's sum of the feature and K its count, (S − K · (S / K)) / K. -/
theorem scaled_apply (A : S2x64x128.Idx → EReal) (B : S2x1x128.Idx → EReal) (d : Fin 64) :
    scaled A B (ix2 (0 : Fin 1) d)
      = Ideal.div ((0 + (A (ix3 0 d (127 : Fin 128)) + A (ix3 1 d (127 : Fin 128))))
        - (0 + (B (ix3 0 0 (127 : Fin 128)) + B (ix3 1 0 (127 : Fin 128))))
          * Ideal.div (0 + (A (ix3 0 d (127 : Fin 128)) + A (ix3 1 d (127 : Fin 128)))) (0 + (B (ix3 0 0 (127 : Fin 128)) + B (ix3 1 0 (127 : Fin 128)))))
        (0 + (B (ix3 0 0 (127 : Fin 128)) + B (ix3 1 0 (127 : Fin 128)))) := by
  rw [← centred_apply, ← cntLast_apply B d]
  show Ideal.div (extractStridedSlice S1x64 ![127, 0] (centred A B) slices_S128x64_S1x64_127_0 (ix2 (0 : Fin 1) d)) _ = _
  rw [slice2_axis0_apply 127 _ slices_S128x64_S1x64_127_0 (0 : Fin 1) d (127 : Fin 128) rfl]

/-! ### The arithmetic of the scaled row -/

/-- A real sum less a nonzero real count times their quotient, over the count, is zero. -/
theorem scaled_real_zero (s k : ℝ) (hk : k ≠ 0) :
    Ideal.div ((s : EReal) - (k : EReal) * Ideal.div (s : EReal) (k : EReal)) (k : EReal) = 0 := by
  rw [Ideal.div_coe hk, Ideal.div_coe hk, ← EReal.coe_mul, ← EReal.coe_mul, ← EReal.coe_sub, ← EReal.coe_mul, ← EReal.coe_zero]
  congr 1
  field_simp
  ring

/-- A class's count is the number of its rows. -/
theorem cnt_card (t : S262144.Idx → BitVec 32) (cl : Fin 128) :
    Cert.Spec.cnt t cl = (((Finset.univ.filter fun n : Fin 262144 => Cert.Spec.inClass t cl n).card : ℝ) : EReal) := by
  unfold Cert.Spec.cnt
  rw [← Finset.sum_filter, Cert.Lib.TileSum.sum_ones]

/-- A class's sum of a feature over finite rows is finite. -/
theorem sm_real (x : S262144x64.Idx → EReal) (t : S262144.Idx → BitVec 32) (cl : Fin 128) (d : Fin 64)
    (hx : ∀ i, ∃ r : ℝ, x i = (r : EReal)) : ∃ s : ℝ, Cert.Spec.sm x t cl d = (s : EReal) := by
  unfold Cert.Spec.sm
  refine Cert.Lib.TileSum.exists_real_sum _ _ fun n _ => ?_
  by_cases h : Cert.Spec.inClass t cl n
  · rw [if_pos h]; exact hx _
  · rw [if_neg h]; exact ⟨0, EReal.coe_zero.symm⟩

/-! ### The halves' sums against the sums over all the rows -/

/-- The two halves of the rows make up all the rows: row h · 131072 + r is row r of half h. -/
theorem sum_halves (g : Fin 262144 → EReal) :
    0 + ((∑ r : Fin 131072, g (Cert.KSpec.halfRow 0 r)) + ∑ r : Fin 131072, g (Cert.KSpec.halfRow 1 r)) = ∑ n : Fin 262144, g n := by
  rw [zero_add]
  refine Eq.trans ?_ (Cert.Lib.TileSum.sum_tiles 2 131072 g).symm
  rw [Fin.sum_univ_two]
  rfl

/-- The halves' sums of a class and a feature add up to the class's sum over all the rows, the label column being the
    labels row by row. -/
theorem psum_halves (x : S262144x64.Idx → EReal) (tt : S262144x1.Idx → BitVec 32) (t : S262144.Idx → BitVec 32)
    (ht : ∀ n : Fin 262144, tt (ix2 n (0 : Fin 1)) = t (ix1 n)) (cl : Fin 128) (d : Fin 64) :
    0 + (Cert.KSpec.psum x tt (ix3 0 d cl) + Cert.KSpec.psum x tt (ix3 1 d cl)) = Cert.Spec.sm x t cl d := by
  unfold Cert.Spec.sm
  rw [← sum_halves]
  refine congrArg ((0 : EReal) + ·) (congrArg₂ (· + ·) (Finset.sum_congr rfl fun r _ => ?_) (Finset.sum_congr rfl fun r _ => ?_)) <;>
    exact if_congr (by show (tt (ix2 _ (0 : Fin 1))).toInt = _ ↔ (t (ix1 _)).toInt = _; rw [ht]) rfl rfl

/-- The halves' counts of a class add up to the class's count over all the rows. -/
theorem pcnt_halves (tt : S262144x1.Idx → BitVec 32) (t : S262144.Idx → BitVec 32)
    (ht : ∀ n : Fin 262144, tt (ix2 n (0 : Fin 1)) = t (ix1 n)) (cl : Fin 128) :
    0 + (Cert.KSpec.pcnt tt (ix3 0 0 cl) + Cert.KSpec.pcnt tt (ix3 1 0 cl)) = Cert.Spec.cnt t cl := by
  unfold Cert.Spec.cnt
  rw [← sum_halves]
  refine congrArg ((0 : EReal) + ·) (congrArg₂ (· + ·) (Finset.sum_congr rfl fun r _ => ?_) (Finset.sum_congr rfl fun r _ => ?_)) <;>
    exact if_congr (by show (tt (ix2 _ (0 : Fin 1))).toInt = _ ↔ (t (ix1 _)).toInt = _; rw [ht]) rfl rfl

end Host1

/-! ## The rows and the label column -/

/-- The rows as both passes find them are the argument. -/
theorem host_rows1 (c : Dev nD) : W1 (F := Ideal) m ρ c (Proc.devRef .tc main_arg0) = m ((c : Thread nD τ).loc main_arg0) := by
  exact StableHlo.after_of_writes_sub hostOps0 _ hostOps0_writes (r := main_arg0) (by decide)
theorem host_rows3 (c : Dev nD) : W3 (F := Ideal) m ρ c (Proc.devRef .tc main_arg0) = m ((c : Thread nD τ).loc main_arg0) := by
  calc W3 m ρ c (Proc.devRef .tc main_arg0)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := host_rows1 m ρ c

/-- The label column the first pass finds is the label argument recast from a vector to a column. -/
theorem Host1.W1_v0 (c : Dev nD) :
    W1 (F := Ideal) m ρ c (Proc.devRef .tc main_v0)
      = (shapeCast S262144x1 (m ((c : Thread nD τ).loc main_arg1) : S262144.Idx → BitVec 32) shapeCasts_S262144_S262144x1 : S262144x1.Idx → BitVec 32) := by
  show StableHlo.after hostOps0 (W0 m ρ c) (Proc.devRef .tc main_v0) = _
  after_results
  rfl

/-- The label column both passes find is the label argument, row by row. -/
theorem host_labels1 (c : Dev nD) (n : Fin 262144) :
    (W1 (F := Ideal) m ρ c (Proc.devRef .tc main_v0) : S262144x1.Idx → BitVec 32) (ix2 n (0 : Fin 1))
      = (m ((c : Thread nD τ).loc main_arg1) : S262144.Idx → BitVec 32) (ix1 n) := by
  rw [Host1.W1_v0]
  refine shapeCast_apply _ shapeCasts_S262144_S262144x1 (ix2 n (0 : Fin 1)) (ix1 n) ?_
  rw [Shape.rowMajor_val_two, Shape.rowMajor_val_one]
  show n.val = n.val * 1 + 0
  omega
theorem host_labels3 (c : Dev nD) :
    W3 (F := Ideal) m ρ c (Proc.devRef .tc main_v0) = W1 (F := Ideal) m ρ c (Proc.devRef .tc main_v0) := by
  calc W3 m ρ c (Proc.devRef .tc main_v0)
    _ = W2 m ρ c (Proc.devRef .tc main_v0) := StableHlo.after_of_writes_sub hostOps1 _ hostOps1_writes (r := main_v0) (by decide)
    _ = W1 m ρ c (Proc.devRef .tc main_v0) := (W2_arr m ρ c 1).trans (((dat0 (V1 m ρ) c).arrAt_in 1 rfl _).trans (A_eq0 (V1 m ρ) c 1))

/-! ## What the first pass leaves, and the host operations over it -/

/-- The sums' array after the first pass, over the rows as launched and the label column the pass found. -/
theorem Host1.W2_sums (c : Dev nD) :
    (W2 (F := Ideal) m ρ c (Proc.devRef .tc main_v1_0) : S2x64x128.Idx → EReal)
      = Cert.KSpec.psum (m ((c : Thread nD τ).loc main_arg0)) (W1 (F := Ideal) m ρ c (Proc.devRef .tc main_v0)) := by
  refine ((W2_arr m ρ c 2).trans (arr0_sums (V1 m ρ) c)).trans ?_
  show Cert.KSpec.psum (W1 (F := Ideal) m ρ c (Proc.devRef .tc main_arg0)) (W1 (F := Ideal) m ρ c (Proc.devRef .tc main_v0)) = _
  rw [host_rows1]

/-- The counts' array after the first pass. -/
theorem Host1.W2_counts (c : Dev nD) :
    (W2 (F := Ideal) m ρ c (Proc.devRef .tc main_v1_1) : S2x1x128.Idx → EReal)
      = Cert.KSpec.pcnt (W1 (F := Ideal) m ρ c (Proc.devRef .tc main_v0)) :=
  (W2_arr m ρ c 3).trans (arr0_counts (V1 m ρ) c)

/-- The means' buffer holds the quotient of the two arrays the first pass left. -/
theorem Host1.W3_v7 (c : Dev nD) :
    W3 (F := Ideal) m ρ c (Proc.devRef .tc main_v7)
      = Host1.means (W2 (F := Ideal) m ρ c (Proc.devRef .tc main_v1_0)) (W2 (F := Ideal) m ρ c (Proc.devRef .tc main_v1_1)) := by
  show StableHlo.after hostOps1 (W2 m ρ c) (Proc.devRef .tc main_v7) = _
  after_results
  rfl

/-- The mean row's buffer holds the last class's row of it. -/
theorem Host1.W3_v11 (c : Dev nD) :
    W3 (F := Ideal) m ρ c (Proc.devRef .tc main_v11)
      = Host1.mlast (W2 (F := Ideal) m ρ c (Proc.devRef .tc main_v1_0)) (W2 (F := Ideal) m ρ c (Proc.devRef .tc main_v1_1)) := by
  show StableHlo.after hostOps1 (W2 m ρ c) (Proc.devRef .tc main_v11) = _
  after_results
  rfl

/-- The scaled row's buffer. -/
theorem Host1.W3_v15 (c : Dev nD) :
    W3 (F := Ideal) m ρ c (Proc.devRef .tc main_v15)
      = Host1.scaled (W2 (F := Ideal) m ρ c (Proc.devRef .tc main_v1_0)) (W2 (F := Ideal) m ρ c (Proc.devRef .tc main_v1_1)) := by
  show StableHlo.after hostOps1 (W2 m ρ c) (Proc.devRef .tc main_v15) = _
  after_results
  rfl

/-- The class means the host computes between the passes. -/
theorem host_means (c : Dev nD) (cl : Fin 128) (d : Fin 64) :
    (W3 (F := Ideal) m ρ c (Proc.devRef .tc main_v7) : S128x64.Idx → EReal) (ix2 cl d)
      = Cert.Spec.mean (m ((c : Thread nD τ).loc main_arg0)) (m ((c : Thread nD τ).loc main_arg1)) cl d := by
  rw [Host1.W3_v7, Host1.means_apply, Host1.W2_sums, Host1.W2_counts,
    Host1.psum_halves _ _ _ (host_labels1 m ρ c), Host1.pcnt_halves _ _ (host_labels1 m ρ c)]
  rfl

/-- The mean row handed to the second pass is the last class's. -/
theorem host_mlast (c : Dev nD) (d : Fin 64) :
    (W3 (F := Ideal) m ρ c (Proc.devRef .tc main_v11) : S1x64.Idx → EReal) (ix2 (0 : Fin 1) d)
      = Cert.Spec.mean (m ((c : Thread nD τ).loc main_arg0)) (m ((c : Thread nD τ).loc main_arg1)) 127 d := by
  rw [Host1.W3_v11, Host1.mlast_apply, ← Host1.W3_v7]
  exact host_means m ρ c 127 d

/-- The scaled row handed to the second pass is zero when the last class has a row and the rows are finite. -/
theorem host_scaled_zero (c : Dev nD)
    (hx : ∀ i, ∃ r : ℝ, (m ((c : Thread nD τ).loc main_arg0) : S262144x64.Idx → EReal) i = (r : EReal))
    (hne : ∃ n : Fin 262144, Cert.Spec.inClass (m ((c : Thread nD τ).loc main_arg1)) 127 n) (d : Fin 64) :
    (W3 (F := Ideal) m ρ c (Proc.devRef .tc main_v15) : S1x64.Idx → EReal) (ix2 (0 : Fin 1) d) = (0 : EReal) := by
  rw [Host1.W3_v15, Host1.scaled_apply, Host1.W2_sums, Host1.W2_counts,
    Host1.psum_halves _ _ _ (host_labels1 m ρ c), Host1.pcnt_halves _ _ (host_labels1 m ρ c)]
  obtain ⟨s, hs⟩ := Host1.sm_real _ (m ((c : Thread nD τ).loc main_arg1)) 127 d hx
  obtain ⟨n, hn⟩ := hne
  rw [hs, Host1.cnt_card]
  exact Host1.scaled_real_zero s _
    (Nat.cast_ne_zero.mpr (Finset.card_ne_zero.mpr ⟨n, Finset.mem_filter.mpr ⟨Finset.mem_univ _, hn⟩⟩))

end Cert.KernelIdeal.Fr

end
-- ==== Proof.KI.Pieces1.lean ====
/- What each case of the squared-projection kernel leaves in its accumulator and output block, as the body's arithmetic of the
   point's input blocks and of what the accumulator held: the pieces the run found, read back, are the skeleton's payloads. -/
import proofs.«406997_j73443940761980_3_alg».proof.Proof.KI.Reg1
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The four input blocks at a point, at their literal types: rows, labels, the mean row, the scaled row. -/
abbrev xblk1 (c : Dev nD) (t : Fin cfg1.N) : Vec F S4096x64 .f32 := iblk1 V c 0 t
abbrev tblk1 (c : Dev nD) (t : Fin cfg1.N) : Vec F S4096x1 .i32 := iblk1 V c 1 t
abbrev mblk1 (c : Dev nD) (t : Fin cfg1.N) : Vec F S1x64 .f32 := iblk1 V c 2 t
abbrev sblk1 (c : Dev nD) (t : Fin cfg1.N) : Vec F S1x64 .f32 := iblk1 V c 3 t

/-- The origin of a whole-buffer rectangle, of rank two and of rank three. -/
private theorem hz1_2 : (![0, 0] : Fin 2 → Nat) = fun _ => 0 :=
  funext fun a => match a with | ⟨0, _⟩ => rfl | ⟨1, _⟩ => rfl
private theorem hz1_3 : (![0, 0, 0] : Fin 3 → Nat) = fun _ => 0 :=
  funext fun a => match a with | ⟨0, _⟩ => rfl | ⟨1, _⟩ => rfl | ⟨2, _⟩ => rfl

theorem case1A_s0 (c : Dev nD) (t : Fin cfg1.N) (h0 : t.val % 32 = 0) (h1 : ¬t.val % 32 = 31) :
    (case1A V c t h0 h1).2 = k1_pay2 (xblk1 V c t) (mblk1 V c t) (sblk1 V c t) (tblk1 V c t) (k1_pay1 (F := F)) := by
  unfold case1A
  dsimp only
  rw [View.read_writes_eq_canon _ _ _ (scover1_A_0 V c t h0 h1)]
  unfold run1A kernelRun1_A
  dsimp only
  sl_unfold_words
  rw [View.canon_cons_unit_zero (S := S1x1) hz1_2, View.readCov_unit_zero (S := S1x1) _ hz1_2]
  simp only [View.readAt_eq_ld, (hs1_0 t).read_unread, (hs1_1 t).read_unread, (hs1_2 t).read_unread, (hs1_3 t).read_unread,
    (Memref.isWhole_whole _).read_unread, View.readCov_unit_zero (S := S1x1) _ hz1_2,
    View.ld_unit_zero (S := S4096x64) hz1_2, View.ld_unit_zero (S := S1x64) hz1_2, View.ld_unit_zero (S := S4096x1) hz1_2,
    View.ld_unit_zero (S := S1x1) hz1_2]
theorem case1B_s0 (c : Dev nD) (t : Fin cfg1.N) (h0 : ¬t.val % 32 = 0) (h1 : ¬t.val % 32 = 31) (xs0 : Vec F S1x1 .f32) :
    (case1B V c t h0 h1 xs0).2 = k1_pay2 (xblk1 V c t) (mblk1 V c t) (sblk1 V c t) (tblk1 V c t) xs0 := by
  unfold case1B
  dsimp only
  rw [View.read_writes_eq_canon _ _ _ (scover1_B_0 V c t h0 h1 xs0)]
  unfold run1B kernelRun1_B
  dsimp only
  sl_unfold_words
  rw [View.canon_unit_zero hz1_2]
  simp only [View.readAt_eq_ld, (hs1_0 t).read_unread, (hs1_1 t).read_unread, (hs1_2 t).read_unread, (hs1_3 t).read_unread,
    (Memref.isWhole_whole _).read_unread, View.readCov_unit_zero (S := S1x1) _ hz1_2,
    View.ld_unit_zero (S := S4096x64) hz1_2, View.ld_unit_zero (S := S1x64) hz1_2, View.ld_unit_zero (S := S4096x1) hz1_2,
    View.ld_unit_zero (S := S1x1) hz1_2]
theorem case1C_s0 (c : Dev nD) (t : Fin cfg1.N) (h0 : ¬t.val % 32 = 0) (h1 : t.val % 32 = 31) (xs0 : Vec F S1x1 .f32) :
    (case1C V c t h0 h1 xs0).2 = k1_pay2 (xblk1 V c t) (mblk1 V c t) (sblk1 V c t) (tblk1 V c t) xs0 := by
  unfold case1C
  dsimp only
  rw [View.read_writes_eq_canon _ _ _ (scover1_C_0 V c t h0 h1 xs0)]
  unfold run1C kernelRun1_C
  dsimp only
  sl_unfold_words
  rw [View.canon_unit_zero hz1_2]
  simp only [View.readAt_eq_ld, (hs1_0 t).read_unread, (hs1_1 t).read_unread, (hs1_2 t).read_unread, (hs1_3 t).read_unread,
    (Memref.isWhole_whole _).read_unread, View.readCov_unit_zero (S := S1x1) _ hz1_2,
    View.ld_unit_zero (S := S4096x64) hz1_2, View.ld_unit_zero (S := S1x64) hz1_2, View.ld_unit_zero (S := S4096x1) hz1_2,
    View.ld_unit_zero (S := S1x1) hz1_2]
/-- At the last row-block of a half the output block takes the accumulator's new contents. -/
theorem case1C_o4 (c : Dev nD) (t : Fin cfg1.N) (h0 : ¬t.val % 32 = 0) (h1 : t.val % 32 = 31) (xs0 : Vec F S1x1 .f32) :
    (case1C V c t h0 h1 xs0).1 = k1_pay3 (k1_pay2 (xblk1 V c t) (mblk1 V c t) (sblk1 V c t) (tblk1 V c t) xs0) := by
  unfold case1C
  dsimp only
  rw [View.read_writes_eq_canon _ _ _ (cover1_C_4 V c t h0 h1 xs0)]
  unfold run1C kernelRun1_C
  dsimp only
  sl_unfold_words
  rw [View.canon_unit_zero hz1_3]
  simp only [View.readAt_eq_ld, (hs1_0 t).read_unread, (hs1_1 t).read_unread, (hs1_2 t).read_unread, (hs1_3 t).read_unread,
    (Memref.isWhole_whole _).read_unread, View.readCov_unit_zero (S := S1x1) _ hz1_2,
    View.ld_unit_zero (S := S4096x64) hz1_2, View.ld_unit_zero (S := S1x64) hz1_2, View.ld_unit_zero (S := S4096x1) hz1_2,
    View.ld_unit_zero (S := S1x1) hz1_2]

end Regions

end Cert.KernelIdeal.Fr

end
-- ==== Proof.KI.Value1.lean ====
/- What region 1 leaves in its output array: block h is written back once, at the last row-block of half h, with the accumulator's
   contents there, which is the sum over the thirty-two row-blocks of the half of each block's term — the sum over the block's
   rows labelled 127 of the squared projection of the row, less the mean row, onto the scaled row. -/
import proofs.«406997_j73443940761980_3_alg».proof.Proof.KI.Pieces1
import proofs.«406997_j73443940761980_3_alg».proof.Proof.KSpec
import proofs.«406997_j73443940761980_3_alg».proof.Proof.LibTileSum
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-! ## The payloads at an index, over the extended reals -/

/-- The projection of row r of a block of rows: the sum over the features of (row − mean row) · scaled row. -/
private def bproj (x : FVec Ideal S4096x64 .f32) (m s : FVec Ideal S1x64 .f32) (r : Fin 4096) : EReal :=
  ∑ d : Fin 64, (x (ix2 r d) - m (ix2 (0 : Fin 1) d)) * s (ix2 (0 : Fin 1) d)

/-- A block's term: the sum over its rows labelled 127 of the squared projection. -/
private def bterm (x : FVec Ideal S4096x64 .f32) (m s : FVec Ideal S1x64 .f32) (tl : IVec S4096x1 32) : EReal :=
  ∑ r : Fin 4096, if (tl (ix2 r (0 : Fin 1))).toInt = ((127 : ℕ) : ℤ) then bproj x m s r * bproj x m s r else 0

/-- A 32-bit word equals the word 127 exactly when, read signed, it is 127. -/
private theorem cmpi_eq_127 (w : BitVec 32) : IntOp.cmpi .eq w 127#32 = 1#1 ↔ w.toInt = ((127 : ℕ) : ℤ) := by
  show BitVec.ofBool (w == 127#32) = 1#1 ↔ _
  by_cases hw : w = 127#32
  · subst hw; exact ⟨fun _ => by decide, fun _ => by decide⟩
  · have hb : (w == 127#32) = false := by simpa using hw
    rw [hb]
    exact ⟨fun h => absurd h (by decide), fun h => absurd (BitVec.eq_of_toInt_eq (by rw [h]; decide)) hw⟩

/-- A column of a entries cast to a rows of one entry reads, at (i, u), the column at i. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The row sums of the products, as a column, read at row r: the row's projection. -/
private theorem rowproj_apply (x : FVec Ideal S4096x64 .f32) (m s : FVec Ideal S1x64 .f32) (hφ) (hacc) (r : Fin 4096) :
    shapeCast S4096x1
        (multiReduction FKind.add [1] S4096
          (mulf (subf x (broadcastTo S4096x64 m broadcasts_S1x64_S4096x64)) (broadcastTo S4096x64 s broadcasts_S1x64_S4096x64))
          (0#32) reduces_S4096x64_S4096 hφ hacc)
        shapeCasts_S4096_S4096x1 (ix2 r (0 : Fin 1)) = bproj x m s r := by
  rw [shapeCast_a_a1_apply, Ideal.multiReduction_add_single]
  unfold bproj
  refine Finset.sum_congr rfl fun (d : Fin 64) _ => ?_
  have hl : reduces_S4096x64_S4096.lift (ix1 r) d = ix2 r d :=
    funext fun c => Fin.ext (match c with | ⟨0, _⟩ => rfl | ⟨1, _⟩ => rfl)
  rw [hl]
  show (x (ix2 r d) - broadcastTo S4096x64 m broadcasts_S1x64_S4096x64 (ix2 r d))
      * broadcastTo S4096x64 s broadcasts_S1x64_S4096x64 (ix2 r d) = _
  rw [broadcastTo_1b_ab_apply, broadcastTo_1b_ab_apply]

/-- The sum down a column of one-entry rows, as a one-by-one block, read at its one entry. -/
private theorem colsum_apply (v : FVec Ideal S4096x1 .f32) (hφ) (hacc) :
    shapeCast S1x1 (multiReduction FKind.add [0] S1 v (0#32) reduces_S4096x1_S1 hφ hacc) shapeCasts_S1_S1x1
        (ix2 (0 : Fin 1) (0 : Fin 1)) = ∑ r : Fin 4096, v (ix2 r (0 : Fin 1)) := by
  rw [shapeCast_a_1a_apply, Ideal.multiReduction_add_single]
  refine Finset.sum_congr rfl fun (r : Fin 4096) _ => ?_
  have hl : reduces_S4096x1_S1.lift (ix1 (0 : Fin 1)) r = ix2 r (0 : Fin 1) :=
    funext fun c => Fin.ext (match c with | ⟨0, _⟩ => rfl | ⟨1, _⟩ => rfl)
  rw [hl]

private theorem pay2_apply (x : FVec Ideal S4096x64 .f32) (m s : FVec Ideal S1x64 .f32) (tl : IVec S4096x1 32) (acc : FVec Ideal S1x1 .f32) :
    k1_pay2 (F := Ideal) x m s tl acc (ix2 (0 : Fin 1) (0 : Fin 1)) = acc (ix2 (0 : Fin 1) (0 : Fin 1)) + bterm x m s tl := by
  unfold k1_pay2
  simp only [shapeCast_self]
  refine (congrArg (acc (ix2 (0 : Fin 1) (0 : Fin 1)) + ·) (colsum_apply _ _ _)).trans ?_
  unfold bterm
  refine congrArg (acc (ix2 (0 : Fin 1) (0 : Fin 1)) + ·) (Finset.sum_congr rfl fun r _ => ?_)
  refine (congrArg (fun p => Scalar.select (IntOp.cmpi .eq (tl (ix2 r (0 : Fin 1))) 127#32) (p * p) (Ideal.ofBits .f32 0#32))
    (rowproj_apply x m s _ _ r)).trans ?_
  rw [Ideal.ofBits_zero_f32]
  by_cases hl127 : (tl (ix2 r (0 : Fin 1))).toInt = ((127 : ℕ) : ℤ)
  · rw [if_pos hl127, (cmpi_eq_127 _).2 hl127, select_one]
  · rw [if_neg hl127, eq_zero_of_ne_one (fun h => hl127 ((cmpi_eq_127 _).1 h)), select_zero]

/-- The reset's payload is zero. -/
private theorem pay1_apply : k1_pay1 (F := Ideal) (ix2 (0 : Fin 1) (0 : Fin 1)) = 0 := by
  unfold k1_pay1
  simp only [shapeCast_self]
  show Ideal.ofBits .f32 0#32 = 0
  exact Ideal.ofBits_zero_f32

/-- The output block's payload at its one entry is the accumulator's one entry. -/
private theorem pay3_apply (v : FVec Ideal S1x1 .f32) (j : S1x1x1.Idx) : k1_pay3 (F := Ideal) v j = v (ix2 (0 : Fin 1) (0 : Fin 1)) := by
  unfold k1_pay3
  refine shapeCast_apply v _ j _ ?_
  have h0 : (j 0).val < 1 := (j 0).isLt
  have h1 : (j 1).val < 1 := (j 1).isLt
  have h2 : (j 2).val < 1 := (j 2).isLt
  rw [Shape.rowMajor_val_two, Shape.rowMajor_val_three]
  show 0 * 1 + 0 = ((j 0).val * 1 + (j 1).val) * 1 + (j 2).val
  omega

/-! ## The input blocks as rows of the arrays, the accumulator point by point, and the output array -/

section Regions
variable (V : (c : Dev nD) → (b : Ref sig .tc) → Buf (Elt Ideal) ((c : Thread nD τ).loc b))

/-- The block index of the rows' and of the labels' window at point t is t on the row axis, 0 on the other. -/
private theorem index1_0 : ∀ t : Fin cfg1.N, win1_0.index t 0 = t.val ∧ win1_0.index t 1 = 0 :=
  (by decide +kernel : ∀ t : Fin grid1.N, win1_0.index t 0 = t.val ∧ win1_0.index t 1 = 0)
private theorem index1_1 : ∀ t : Fin cfg1.N, win1_1.index t 0 = t.val ∧ win1_1.index t 1 = 0 :=
  (by decide +kernel : ∀ t : Fin grid1.N, win1_1.index t 0 = t.val ∧ win1_1.index t 1 = 0)
/-- The two row vectors' windows are always at block (0, 0). -/
private theorem index1_2 : ∀ t : Fin cfg1.N, win1_2.index t 0 = 0 ∧ win1_2.index t 1 = 0 :=
  (by decide +kernel : ∀ t : Fin grid1.N, win1_2.index t 0 = 0 ∧ win1_2.index t 1 = 0)
private theorem index1_3 : ∀ t : Fin cfg1.N, win1_3.index t 0 = 0 ∧ win1_3.index t 1 = 0 :=
  (by decide +kernel : ∀ t : Fin grid1.N, win1_3.index t 0 = 0 ∧ win1_3.index t 1 = 0)

/-- The rows' block at point t is rows t·4096 … t·4096 + 4095 of the rows. -/
private theorem xblk1_apply (c : Dev nD) (t : Fin cfg1.N) (r : Fin 4096) (d : Fin 64) (n : Fin 262144) (hn : n.val = t.val * 4096 + r.val) :
    xblk1 V c t (ix2 r d) = (V c main_arg0 : S262144x64.Idx → EReal) (ix2 n d) := by
  unfold xblk1 iblk1
  rw [View.read_apply]
  show V c main_arg0 _ = V c main_arg0 _
  congr 1
  funext a
  apply Fin.ext
  match a with
  | ⟨0, _⟩ => show win1_0.index t 0 * 4096 + 1 * r.val = n.val; rw [(index1_0 t).1, hn]; omega
  | ⟨1, _⟩ => show win1_0.index t 1 * 64 + 1 * d.val = d.val; rw [(index1_0 t).2]; omega

/-- The labels' block at point t is the same rows of the label column. -/
private theorem tblk1_apply (c : Dev nD) (t : Fin cfg1.N) (r : Fin 4096) (n : Fin 262144) (hn : n.val = t.val * 4096 + r.val) :
    tblk1 V c t (ix2 r (0 : Fin 1)) = (V c main_v0 : S262144x1.Idx → BitVec 32) (ix2 n (0 : Fin 1)) := by
  unfold tblk1 iblk1
  rw [View.read_apply]
  show V c main_v0 _ = V c main_v0 _
  congr 1
  funext a
  apply Fin.ext
  match a with
  | ⟨0, _⟩ => show win1_1.index t 0 * 4096 + 1 * r.val = n.val; rw [(index1_1 t).1, hn]; omega
  | ⟨1, _⟩ => show win1_1.index t 1 * 1 + 1 * 0 = 0; rw [(index1_1 t).2]

/-- The mean row's block is the mean row at every point. -/
private theorem mblk1_apply (c : Dev nD) (t : Fin cfg1.N) (d : Fin 64) :
    mblk1 V c t (ix2 (0 : Fin 1) d) = (V c main_v11 : S1x64.Idx → EReal) (ix2 (0 : Fin 1) d) := by
  unfold mblk1 iblk1
  rw [View.read_apply]
  show V c main_v11 _ = V c main_v11 _
  congr 1
  funext a
  apply Fin.ext
  match a with
  | ⟨0, _⟩ => show win1_2.index t 0 * 1 + 1 * 0 = 0; rw [(index1_2 t).1]
  | ⟨1, _⟩ => show win1_2.index t 1 * 64 + 1 * d.val = d.val; rw [(index1_2 t).2]; omega

/-- The scaled row's block is the scaled row at every point. -/
private theorem sblk1_apply (c : Dev nD) (t : Fin cfg1.N) (d : Fin 64) :
    sblk1 V c t (ix2 (0 : Fin 1) d) = (V c main_v15 : S1x64.Idx → EReal) (ix2 (0 : Fin 1) d) := by
  unfold sblk1 iblk1
  rw [View.read_apply]
  show V c main_v15 _ = V c main_v15 _
  congr 1
  funext a
  apply Fin.ext
  match a with
  | ⟨0, _⟩ => show win1_3.index t 0 * 1 + 1 * 0 = 0; rw [(index1_3 t).1]
  | ⟨1, _⟩ => show win1_3.index t 1 * 64 + 1 * d.val = d.val; rw [(index1_3 t).2]; omega

/-- The term of point t: the sum over the rows of its block labelled 127 of the squared projection. -/
private def pterm (c : Dev nD) (t : Fin cfg1.N) : EReal :=
  bterm (xblk1 V c t) (mblk1 V c t) (sblk1 V c t) (tblk1 V c t)

/-- The same by the point's number, zero past the grid. -/
private def ptermN (c : Dev nD) (n : ℕ) : EReal := if h : n < cfg1.N then pterm V c ⟨n, h⟩ else 0

/-- The first row-block of a half leaves its own term in the accumulator. -/
private theorem acc1_A (c : Dev nD) (t : Fin cfg1.N) (h0 : t.val % 32 = 0) (h1 : ¬t.val % 32 = 31) :
    (outsAt1 V c t.val t.isLt).2 (ix2 (0 : Fin 1) (0 : Fin 1)) = pterm V c t := by
  rw [outsAt1_A V c t h0 h1, case1A_s0 V c t h0 h1]
  refine (pay2_apply _ _ _ _ _).trans ?_
  rw [pay1_apply, zero_add]
  rfl

/-- A middle row-block adds its term onto what the point before left. -/
private theorem acc1_B (c : Dev nD) (t : Fin cfg1.N) (h0 : ¬t.val % 32 = 0) (h1 : ¬t.val % 32 = 31) :
    (outsAt1 V c t.val t.isLt).2 (ix2 (0 : Fin 1) (0 : Fin 1))
      = (outsAt1 V c (t.val - 1) (Nat.lt_of_le_of_lt (Nat.sub_le _ _) t.isLt)).2 (ix2 (0 : Fin 1) (0 : Fin 1)) + pterm V c t := by
  rw [outsAt1_B V c t h0 h1, case1B_s0 V c t h0 h1]
  exact pay2_apply _ _ _ _ _

/-- So does the last row-block of a half … -/
private theorem acc1_C (c : Dev nD) (t : Fin cfg1.N) (h0 : ¬t.val % 32 = 0) (h1 : t.val % 32 = 31) :
    (outsAt1 V c t.val t.isLt).2 (ix2 (0 : Fin 1) (0 : Fin 1))
      = (outsAt1 V c (t.val - 1) (Nat.lt_of_le_of_lt (Nat.sub_le _ _) t.isLt)).2 (ix2 (0 : Fin 1) (0 : Fin 1)) + pterm V c t := by
  rw [outsAt1_C V c t h0 h1, case1C_s0 V c t h0 h1]
  exact pay2_apply _ _ _ _ _

/-- … which also fills the output block with the accumulator's new entry. -/
private theorem out1_C (c : Dev nD) (t : Fin cfg1.N) (h0 : ¬t.val % 32 = 0) (h1 : t.val % 32 = 31) (j : S1x1x1.Idx) :
    (outsAt1 V c t.val t.isLt).1 j = (outsAt1 V c t.val t.isLt).2 (ix2 (0 : Fin 1) (0 : Fin 1)) := by
  rw [outsAt1_C V c t h0 h1, case1C_s0 V c t h0 h1, case1C_o4 V c t h0 h1]
  exact pay3_apply _ j

/-- The accumulator after point n: the sum of the terms of the row-blocks of n's half up to n. -/
private theorem acc1_eq (c : Dev nD) : ∀ (n : ℕ) (hn : n < cfg1.N),
    (outsAt1 V c n hn).2 (ix2 (0 : Fin 1) (0 : Fin 1)) = ∑ j ∈ Finset.range (n % 32 + 1), ptermN V c (n / 32 * 32 + j)
  | 0, hn => by
    rw [acc1_A V c ⟨0, hn⟩ (Nat.zero_mod _) (by show ¬(0 % 32 = 31); decide)]
    show _ = ∑ j ∈ Finset.range 1, ptermN V c (0 / 32 * 32 + j)
    rw [Finset.sum_range_one]
    show _ = ptermN V c 0
    unfold ptermN
    rw [dif_pos hn]
  | n + 1, hn => by
    have hN : cfg1.N = 64 := N_1
    by_cases h0 : (n + 1) % 32 = 0
    · have h1 : ¬(n + 1) % 32 = 31 := by omega
      rw [acc1_A V c ⟨n + 1, hn⟩ h0 h1, h0, Finset.sum_range_one]
      rw [show (n + 1) / 32 * 32 + 0 = n + 1 from by omega]
      unfold ptermN
      rw [dif_pos hn]
    · have ih := acc1_eq c n (Nat.lt_of_succ_lt hn)
      have e1 : (n + 1) % 32 = n % 32 + 1 := by omega
      have e2 : (n + 1) / 32 = n / 32 := by omega
      have step : (outsAt1 V c (n + 1) hn).2 (ix2 (0 : Fin 1) (0 : Fin 1))
          = (outsAt1 V c n (Nat.lt_of_succ_lt hn)).2 (ix2 (0 : Fin 1) (0 : Fin 1)) + pterm V c ⟨n + 1, hn⟩ := by
        by_cases h1 : (n + 1) % 32 = 31
        · exact acc1_C V c ⟨n + 1, hn⟩ h0 h1
        · exact acc1_B V c ⟨n + 1, hn⟩ h0 h1
      rw [step, ih, e1, e2, Finset.sum_range_succ (n := n % 32 + 1)]
      refine congrArg (_ + ·) ?_
      rw [show n / 32 * 32 + (n % 32 + 1) = n + 1 from by omega]
      unfold ptermN
      rw [dif_pos hn]

/-- The rows, the label column and the two row vectors the region found, at their literal types. -/
private abbrev xarr (c : Dev nD) : Cert.KSpec.SX.Idx → EReal := V c main_arg0
private abbrev tarr (c : Dev nD) : Cert.KSpec.STc.Idx → BitVec 32 := V c main_v0
private abbrev marr (c : Dev nD) : Cert.KSpec.SR.Idx → EReal := V c main_v11
private abbrev sarr (c : Dev nD) : Cert.KSpec.SR.Idx → EReal := V c main_v15

/-- The target's summand at row n: the squared projection of the row if it is labelled 127, zero otherwise. -/
private def rowterm (c : Dev nD) (n : Fin 262144) : EReal :=
  if Cert.KSpec.labelled (tarr V c) n 127 then
    Cert.KSpec.proj (xarr V c) (marr V c) (sarr V c) n * Cert.KSpec.proj (xarr V c) (marr V c) (sarr V c) n
  else 0

/-- The term of point t = h·32 + j is the sum of the target's summands over rows j·4096 … j·4096 + 4095 of half h. -/
private theorem pterm_eq (c : Dev nD) (t : Fin cfg1.N) (h : Fin 2) (j : Fin 32) (ht : t.val = h.val * 32 + j.val) :
    pterm V c t = ∑ e : Fin 4096, rowterm V c (Cert.KSpec.halfRow h ⟨j.val * 4096 + e.val, by have := j.isLt; have := e.isLt; omega⟩) := by
  unfold pterm bterm
  refine Finset.sum_congr rfl fun e _ => ?_
  have hn : (Cert.KSpec.halfRow h ⟨j.val * 4096 + e.val, by have := j.isLt; have := e.isLt; omega⟩).val = t.val * 4096 + e.val := by
    show h.val * 131072 + (j.val * 4096 + e.val) = _
    rw [ht]; omega
  rw [tblk1_apply V c t e _ hn]
  have hp : bproj (xblk1 V c t) (mblk1 V c t) (sblk1 V c t) e
      = Cert.KSpec.proj (xarr V c) (marr V c) (sarr V c) (Cert.KSpec.halfRow h ⟨j.val * 4096 + e.val, by have := j.isLt; have := e.isLt; omega⟩) := by
    unfold bproj Cert.KSpec.proj
    refine Finset.sum_congr rfl fun d _ => ?_
    rw [xblk1_apply V c t e d _ hn, mblk1_apply, sblk1_apply]
  rw [hp]
  rfl

/-- The thirty-two terms of half h add up to the target's sum over the half's rows. -/
private theorem half_sum (c : Dev nD) (h : Fin 2) :
    ∑ j ∈ Finset.range 32, ptermN V c (h.val * 32 + j) = ∑ r : Fin 131072, rowterm V c (Cert.KSpec.halfRow h r) := by
  have hN : cfg1.N = 64 := N_1
  rw [Finset.sum_range]
  refine Eq.trans ?_ (Cert.Lib.TileSum.sum_tiles 32 4096 (fun r : Fin (32 * 4096) => rowterm V c (Cert.KSpec.halfRow h r))).symm
  refine Finset.sum_congr rfl fun j _ => ?_
  have hlt : h.val * 32 + j.val < cfg1.N := by have := h.isLt; have := j.isLt; omega
  unfold ptermN
  rw [dif_pos hlt]
  exact pterm_eq V c ⟨_, hlt⟩ h j rfl

/-- The output's block index at point t is (t / 32, 0, 0). -/
private theorem index1_4 : ∀ t : Fin cfg1.N, win1_4.index t 0 = t.val / 32 ∧ win1_4.index t 1 = 0 ∧ win1_4.index t 2 = 0 :=
  (by decide +kernel : ∀ t : Fin grid1.N, win1_4.index t 0 = t.val / 32 ∧ win1_4.index t 1 = 0 ∧ win1_4.index t 2 = 0)

/-- The target, as contents of the output array. -/
private abbrev G1 (c : Dev nD) : S2x1x1.Idx → EReal := Cert.KSpec.psq (xarr V c) (tarr V c) (marr V c) (sarr V c)

private theorem G1_apply (c : Dev nD) (i : S2x1x1.Idx) : G1 V c i = ∑ r : Fin 131072, rowterm V c (Cert.KSpec.halfRow (i 0) r) := rfl

/-- The half's sum is the target at every index of the output array whose leading coordinate is the half. -/
private theorem half_eq_G1 (c : Dev nD) (q : ℕ) (hq : q < 2) (i : S2x1x1.Idx) (hi : (i 0).val = q) :
    ∑ j ∈ Finset.range 32, ptermN V c (q * 32 + j) = G1 V c i := by
  have hi' : i 0 = (⟨q, hq⟩ : Fin 2) := Fin.ext hi
  rw [G1_apply, hi']
  exact half_sum V c ⟨q, hq⟩

/-- What a write-back writes is its block of the target: it happens at the last row-block of a half, with the half's sum. -/
private theorem flushed1_eq (c : Dev nD) (t : Fin cfg1.N) (hf : (cfg1.win 4).flush t = true) :
    (dat1 V c).flushed 4 t = ((cfg1.win 4).blk t).view.read (Elt Ideal) (G1 V c) := by
  have hN : cfg1.N = 64 := N_1
  have h1 : t.val % 32 = 31 := (flush1_4 t).mp hf
  have h0 : ¬t.val % 32 = 0 := by omega
  have hh : t.val / 32 < 2 := by have := t.isLt; omega
  show (cfg1.win 4).cut (grid1.coords t) ((dat1 V c).after 4 t) = _
  rw [after1_4, show (outsAt1 V c t.val t.isLt).1 = fun _ => (outsAt1 V c t.val t.isLt).2 (ix2 (0 : Fin 1) (0 : Fin 1)) from
    funext (out1_C V c t h0 h1)]
  funext y
  rw [View.read_apply, cast_eq]
  show (outsAt1 V c t.val t.isLt).2 (ix2 (0 : Fin 1) (0 : Fin 1)) = _
  rw [acc1_eq V c t.val t.isLt, h1]
  refine half_eq_G1 V c (t.val / 32) hh _ ?_
  show win1_4.index t 0 * 1 + 1 * (y 0).val = t.val / 32
  have hy : (y 0).val < 1 := (y 0).isLt
  rw [(index1_4 t).1]; omega

/-- Every index of the output array is in the block written back at the last row-block of its half. -/
private theorem cover1 (c : Dev nD) (i : S2x1x1.Idx) :
    ∃ t : Fin cfg1.N, (cfg1.win 4).flush t = true ∧ i ∈ ((cfg1.win 4).blk t).view.set := by
  have hN : cfg1.N = 64 := N_1
  have hi0 : (i 0).val < 2 := (i 0).isLt
  have hi1 : (i 1).val < 1 := (i 1).isLt
  have hi2 : (i 2).val < 1 := (i 2).isLt
  have hlt : (i 0).val * 32 + 31 < cfg1.N := by omega
  refine ⟨⟨(i 0).val * 32 + 31, hlt⟩, (flush1_4 _).mpr (by show ((i 0).val * 32 + 31) % 32 = 31; omega), ?_⟩
  show i ∈ ((View.whole main_v16).slice (win1_4.rect ⟨(i 0).val * 32 + 31, hlt⟩)).set
  rw [View.set_slice_whole, Rect.mem_set_unit]
  intro a
  have hx := index1_4 ⟨(i 0).val * 32 + 31, hlt⟩
  match a with
  | ⟨0, _⟩ =>
    show win1_4.index ⟨(i 0).val * 32 + 31, hlt⟩ 0 * 1 ≤ (i 0 : Nat) ∧ (i 0 : Nat) < win1_4.index ⟨(i 0).val * 32 + 31, hlt⟩ 0 * 1 + 1
    rw [hx.1]; show ((i 0).val * 32 + 31) / 32 * 1 ≤ (i 0 : Nat) ∧ (i 0 : Nat) < ((i 0).val * 32 + 31) / 32 * 1 + 1; omega
  | ⟨1, _⟩ =>
    show win1_4.index ⟨(i 0).val * 32 + 31, hlt⟩ 1 * 1 ≤ (i 1 : Nat) ∧ (i 1 : Nat) < win1_4.index ⟨(i 0).val * 32 + 31, hlt⟩ 1 * 1 + 1
    rw [hx.2.1]; omega
  | ⟨2, _⟩ =>
    show win1_4.index ⟨(i 0).val * 32 + 31, hlt⟩ 2 * 1 ≤ (i 2 : Nat) ∧ (i 2 : Nat) < win1_4.index ⟨(i 0).val * 32 + 31, hlt⟩ 2 * 1 + 1
    rw [hx.2.2]; omega

/-- The output array after the region, as one function of the rows, the label column and the two row vectors the region found. -/
theorem arr1_sq (c : Dev nD) :
    ((dat1 (F := Ideal) V c).arrAt 4 cfg1.N : S2x1x1.Idx → EReal)
      = Cert.KSpec.psq (V c main_arg0) (V c main_v0) (V c main_v11) (V c main_v15) :=
  (dat1 V c).arrAt_eq_of_cover 4 (G1 V c) (flushed1_eq V c) (cover1 c)

end Regions

end Cert.KernelIdeal.Fr

end
-- ==== Proof.KI.HostValue.lean ====
/- The kernel program's result as one function of the argument arrays: the host operations between and after the two passes,
   read at an index over what the passes leave. The two halves' sums and counts add up to the class sums and counts of all the
   rows; their quotient is the class means; the row the second pass projects onto is (sum − count · mean) / count of the last
   class, which is zero whenever the class has a row (the rows being finite), so every squared projection of a row of that class
   vanishes and the middle term is zero. -/
import proofs.«406997_j73443940761980_3_alg».proof.Proof.KI.Main
import proofs.«406997_j73443940761980_3_alg».proof.Proof.KI.Host1
import proofs.«406997_j73443940761980_3_alg».proof.Proof.KI.Value1
import proofs.«406997_j73443940761980_3_alg».proof.Proof.KSpec
import proofs.«406997_j73443940761980_3_alg».proof.Proof.Spec
import proofs.«406997_j73443940761980_3_alg».proof.Proof.LibTileSum
import proofs.«406997_j73443940761980_3_alg».proof.Proof.LibHostSums
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The last host operations as one function of the class means, the second pass's output and the two parameters. -/
def tailVal (a : FVec Ideal S128x64 .f32) (q : FVec Ideal S2x1x1 .f32) (mp : FVec Ideal S128x64 .f32)
    (cp : FVec Ideal S128x64x64 .f32) : FVec Ideal S_ .f32 :=
  addf
    (addf
      (Host.reduceAdd
        (mulf
          (subf (broadcastInDim S128x64 ![0, 1] bcast_S1x64_S128x64_0_1 (broadcastInDim S1x64 ![1] bcast_S64_S1x64_1
            (shapeCast S64 (extractStridedSlice S1x64 ![127, 0] a slices_S128x64_S1x64_127_0) shapeCasts_S1x64_S64))) mp)
          (subf (broadcastInDim S128x64 ![0, 1] bcast_S1x64_S128x64_0_1 (broadcastInDim S1x64 ![1] bcast_S64_S1x64_1
            (shapeCast S64 (extractStridedSlice S1x64 ![127, 0] a slices_S128x64_S1x64_127_0) shapeCasts_S1x64_S64))) mp))
        (constant (F := Ideal) S_ .f32 0x00000000#32) reducesTo_S128x64_S_d0_1 h_S_)
      (Host.reduceAdd q (constant (F := Ideal) S_ .f32 0x00000000#32) reducesTo_S2x1x1_S_d0_1_2 h_S_))
    (Host.reduceAdd (mulf cp cp) (constant (F := Ideal) S_ .f32 0x00000000#32) reducesTo_S128x64x64_S_d0_1_2 h_S_)

theorem tail_read (Wv : Valuation τ sig (Elt Ideal)) :
    StableHlo.after hostOps2 Wv (Proc.devRef .tc main_v28)
      = tailVal (Wv (Proc.devRef .tc main_v7)) (Wv (Proc.devRef .tc main_v16)) (Wv (Proc.devRef .tc main_arg2)) (Wv (Proc.devRef .tc main_arg3)) := by
  after_results
  rfl

/-- A host float sum over every axis, onto the scalar shape: the initial value plus the sum of all entries. -/
theorem reduceAdd_all {s : Shape} {axes : List (Fin s.rank)} (x : FVec Ideal s .f32) (init : FVec Ideal S_ .f32)
    (h : s.ReducesTo axes S_) (i : S_.Idx) :
    Host.reduceAdd (F := Ideal) x init h h_S_ i = init (Shape.Idx.first h_S_) + ∑ j : s.Idx, x j := by
  simp only [Host.reduceAdd, Ideal.hostReduceAdd_def]
  exact Ideal.hostReduceAdd_total h (fun b => b.elim0) x _ i

/-- Row 127 of the means, recast as a vector and broadcast back to the shape of the mean parameter, reads at (k, d) the
    means at (127, d). -/
theorem lastRow_apply (a : FVec Ideal S128x64 .f32) (j : S128x64.Idx) :
    (broadcastInDim S128x64 ![0, 1] bcast_S1x64_S128x64_0_1 (broadcastInDim S1x64 ![1] bcast_S64_S1x64_1
      (shapeCast S64 (extractStridedSlice S1x64 ![127, 0] a slices_S128x64_S1x64_127_0) shapeCasts_S1x64_S64))) j
      = a (ix2 (127 : Fin 128) ⟨(j 1).val, idx2_lt1 j⟩) := by
  refine (broadcastInDim_apply _ bcast_S1x64_S128x64_0_1 _ j (ix2 (0 : Fin 1) (⟨(j 1).val, idx2_lt1 j⟩ : Fin 64)) ?_).trans ?_
  · intro b
    match b with
    | ⟨0, _⟩ => show 0 = if (1 : Nat) = 1 then 0 else (j 0).val; rw [if_pos rfl]
    | ⟨1, _⟩ => show (j 1).val = if (64 : Nat) = 1 then 0 else (j 1).val; rw [if_neg (by decide)]
  refine (broadcastInDim_apply _ bcast_S64_S1x64_1 _ _ (ix1 (⟨(j 1).val, idx2_lt1 j⟩ : Fin 64)) ?_).trans ?_
  · intro b
    match b with
    | ⟨0, _⟩ => show (j 1).val = if (64 : Nat) = 1 then 0 else (j 1).val; rw [if_neg (by decide)]
  refine (shapeCast_apply _ shapeCasts_S1x64_S64 _ (ix2 (0 : Fin 1) (⟨(j 1).val, idx2_lt1 j⟩ : Fin 64)) ?_).trans ?_
  · rewrite [Shape.rowMajor_val_two, Shape.rowMajor_val_one]
    show 0 * 64 + (j 1).val = (j 1).val
    omega
  refine extractStridedSlice_apply ![127, 0] a slices_S128x64_S1x64_127_0 _ (ix2 (127 : Fin 128) ⟨(j 1).val, idx2_lt1 j⟩) ?_
  intro b
  match b with
  | ⟨0, _⟩ => show 127 = 127 + 0; rfl
  | ⟨1, _⟩ => show (j 1).val = 0 + (j 1).val; omega

/-- The last host operations at the one index of the scalar result: the loss from row 127 of the means and, as the middle term,
    the sum of the second pass's output. -/
theorem tail_apply (a : FVec Ideal S128x64 .f32) (q : FVec Ideal S2x1x1 .f32) (mp : FVec Ideal S128x64 .f32)
    (cp : FVec Ideal S128x64x64 .f32) (i : S_.Idx) :
    tailVal a q mp cp i = Cert.Spec.loss (fun d => a (ix2 (127 : Fin 128) d)) (0 + ∑ j : S2x1x1.Idx, q j) mp cp := by
  unfold tailVal
  rw [addf_apply, addf_apply, reduceAdd_all, reduceAdd_all, reduceAdd_all]
  simp only [constant_apply, Ideal.ofBits_zero_f32, mulf_apply, subf_apply]
  unfold Cert.Spec.loss
  refine congrArg₂ (· + ·) (congrArg₂ (· + ·) (congrArg (fun s : EReal => 0 + s) (Finset.sum_congr rfl fun j _ => ?_)) rfl) rfl
  exact congrArg (fun v : EReal => (v - mp j) * (v - mp j)) (lastRow_apply a j)

/-- The same when every entry of the second pass's output is zero: the middle term is zero. -/
theorem tail_apply_zero (a : FVec Ideal S128x64 .f32) (q : FVec Ideal S2x1x1 .f32) (mp : FVec Ideal S128x64 .f32)
    (cp : FVec Ideal S128x64x64 .f32) (i : S_.Idx) (hq : ∀ j, q j = (0 : EReal)) :
    tailVal a q mp cp i = Cert.Spec.loss (fun d => a (ix2 (127 : Fin 128) d)) 0 mp cp := by
  rw [tail_apply, Finset.sum_eq_zero fun j _ => hq j, add_zero]

section Run
variable (m : (ℓ : Loc nD τ sig) → Buf (Elt Ideal) ℓ) (ρ : Dev nD → PrngReg)

/-! ## What the last host operations find -/

/-- The second pass leaves the class means as the host computed them. -/
theorem W4_main_v7 (c : Dev nD) :
    W4 (F := Ideal) m ρ c (Proc.devRef .tc main_v7) = W3 (F := Ideal) m ρ c (Proc.devRef .tc main_v7) :=
  W4_of_ne m ρ c main_v7 (by decide)

/-- The mean parameter reaches the last host operations as launched. -/
theorem W4_main_arg2 (c : Dev nD) : W4 (F := Ideal) m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

/-- The covariance parameter reaches the last host operations as launched. -/
theorem W4_main_arg3 (c : Dev nD) : W4 (F := Ideal) m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-- The second pass's output array, as the last host operations find it. -/
theorem W4_main_v16 (c : Dev nD) :
    (W4 (F := Ideal) m ρ c (Proc.devRef .tc main_v16) : S2x1x1.Idx → EReal)
      = Cert.KSpec.psq (V3 m ρ c main_arg0) (V3 m ρ c main_v0) (V3 m ρ c main_v11) (V3 m ρ c main_v15) :=
  (W4_arr m ρ c 4).trans (arr1_sq (V3 m ρ) c)

/-! ## The middle term vanishes -/

/-- A row the second pass finds labelled 127 is a row of the last class. -/
theorem inClass_of_labelled (c : Dev nD) (n : Fin 262144) (h : Cert.KSpec.labelled (V3 m ρ c main_v0) n 127) :
    Cert.Spec.inClass (m ((c : Thread nD τ).loc main_arg1)) 127 n := by
  have e : (V3 m ρ c main_v0 : S262144x1.Idx → BitVec 32) (ix2 n (0 : Fin 1))
      = (m ((c : Thread nD τ).loc main_arg1) : S262144.Idx → BitVec 32) (ix1 n) :=
    (congrFun (host_labels3 m ρ c) (ix2 n (0 : Fin 1))).trans (host_labels1 m ρ c n)
  show ((m ((c : Thread nD τ).loc main_arg1) : S262144.Idx → BitVec 32) (ix1 n)).toInt = (((127 : Fin 128)).val : ℤ)
  rw [← e]
  exact h

/-- Every entry of the second pass's output is zero: a row labelled 127 is a row of the last class, so the class has a row and
    the scaled row is zero; the row's projection is then a sum of products with zero. -/
theorem psq_zero (c : Dev nD)
    (hx : ∀ i, ∃ r : ℝ, (m ((c : Thread nD τ).loc main_arg0) : S262144x64.Idx → EReal) i = (r : EReal)) (j : S2x1x1.Idx) :
    Cert.KSpec.psq (V3 m ρ c main_arg0) (V3 m ρ c main_v0) (V3 m ρ c main_v11) (V3 m ρ c main_v15) j = 0 := by
  unfold Cert.KSpec.psq
  refine Finset.sum_eq_zero fun r _ => ?_
  by_cases hl : Cert.KSpec.labelled (V3 m ρ c main_v0) (Cert.KSpec.halfRow (j 0) r) 127
  · rw [if_pos hl]
    have hne : ∃ n : Fin 262144, Cert.Spec.inClass (m ((c : Thread nD τ).loc main_arg1)) 127 n :=
      ⟨_, inClass_of_labelled m ρ c _ hl⟩
    have hp : Cert.KSpec.proj (V3 m ρ c main_arg0) (V3 m ρ c main_v11) (V3 m ρ c main_v15) (Cert.KSpec.halfRow (j 0) r) = 0 := by
      unfold Cert.KSpec.proj
      refine Finset.sum_eq_zero fun d _ => ?_
      have hz : (V3 m ρ c main_v15 : S1x64.Idx → EReal) (ix2 (0 : Fin 1) d) = (0 : EReal) := host_scaled_zero m ρ c hx hne d
      rw [hz, mul_zero]
    rw [hp, mul_zero]
  · rw [if_neg hl]

/-- So every entry of the second pass's output array, as the last host operations find it, is zero. -/
theorem sq_zero (c : Dev nD)
    (hx : ∀ i, ∃ r : ℝ, (m ((c : Thread nD τ).loc main_arg0) : S262144x64.Idx → EReal) i = (r : EReal)) (j : S2x1x1.Idx) :
    (W4 (F := Ideal) m ρ c (Proc.devRef .tc main_v16) : S2x1x1.Idx → EReal) j = (0 : EReal) :=
  (congrFun (W4_main_v16 m ρ c) j).trans (psq_zero m ρ c hx j)

end Run

/-- The kernel program's result buffer after the run holds the common value of the argument arrays, when every entry of the rows
    is a real number. -/
theorem kernel_value (m : (ℓ : Loc nD τ sig) → Buf (Elt Ideal) ℓ) (ρ : Dev nD → PrngReg) (c : Dev nD)
    (hx : ∀ i, ∃ r : ℝ, (m ((c : Thread nD τ).loc main_arg0) : S262144x64.Idx → EReal) i = (r : EReal)) :
    (W5 (F := Ideal) m ρ c (Proc.devRef .tc main_v28) : S_.Idx → EReal)
      = fun _ => Cert.Spec.value (m ((c : Thread nD τ).loc main_arg0)) (m ((c : Thread nD τ).loc main_arg1))
          (m ((c : Thread nD τ).loc main_arg2)) (m ((c : Thread nD τ).loc main_arg3)) := by
  funext i
  -- the result is the last host operations' function of what the second pass leaves
  have h5 : (W5 (F := Ideal) m ρ c (Proc.devRef .tc main_v28) : S_.Idx → EReal)
      = tailVal (W4 (F := Ideal) m ρ c (Proc.devRef .tc main_v7)) (W4 (F := Ideal) m ρ c (Proc.devRef .tc main_v16))
          (W4 (F := Ideal) m ρ c (Proc.devRef .tc main_arg2)) (W4 (F := Ideal) m ρ c (Proc.devRef .tc main_arg3)) :=
    tail_read (W4 (F := Ideal) m ρ c)
  -- the mean row is the last class's
  have hμ : (fun d : Fin 64 => (W4 (F := Ideal) m ρ c (Proc.devRef .tc main_v7) : S128x64.Idx → EReal) (ix2 (127 : Fin 128) d))
      = fun d => Cert.Spec.mean (m ((c : Thread nD τ).loc main_arg0)) (m ((c : Thread nD τ).loc main_arg1)) 127 d :=
    funext fun d => (congrFun (W4_main_v7 m ρ c) _).trans (host_means m ρ c 127 d)
  -- the middle term is zero, every entry of the second pass's output being zero
  rw [h5, tail_apply_zero _ _ _ _ _ (sq_zero m ρ c hx), hμ, W4_main_arg2, W4_main_arg3]
  rfl

end Cert.KernelIdeal.Fr

end
-- ==== Proof.LibRowScatter.lean ====
/-
  The accumulating scatter of ROWS, read at an index.

  For an operand [N, C], a column [R, 1] of scatter indices and updates [R, C] (the update's axis 1 is the window axis,
  the operand's axis 0 the inserted one the scatter index names), update element (n, q') lands on operand element
  (p, q) exactly when the scatter index of row n, read signed, is p's number and q' = q; an index outside 0 … N - 1
  lands nowhere. So over the extended reals the accumulating scatter at (p, q) is the operand there plus the sum, over
  the update rows n whose scatter index is p, of the update at (n, q).
-/
import Idealize.ShloMosaic.PureOps.Ideal
import Idealize.ShloMosaic.PureOps.Contract
import Idealize.ShloMosaic.Lib.ValueIdx

noncomputable section

open scoped BigOperators

namespace Cert.Lib.RowScatter

open Idealize.ShloMosaic Idealize.ShloMosaic.ValueIdx

/-- A sum over the elements that satisfy a condition is the sum of the terms switched by an equivalent condition. -/
theorem sum_filter_of_iff {ι M : Type*} [AddCommMonoid M] (s : Finset ι) (P Q : ι → Prop) [DecidablePred P] [DecidablePred Q]
    (h : ∀ j, P j ↔ Q j) (f : ι → M) : ∑ j ∈ s.filter P, f j = ∑ j ∈ s, if Q j then f j else 0 := by
  rw [Finset.sum_filter]
  refine Finset.sum_congr rfl fun j _ => ?_
  by_cases hq : Q j
  · rw [if_pos hq, if_pos ((h j).mpr hq)]
  · rw [if_neg hq, if_neg (mt (h j).mp hq)]

/-- The dimension numbers of x.at[idx].add(u) for an operand [N, C], scatter indices [R, 1] and updates [R, C]. -/
abbrev putRowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the operand's row axis the window of update element j starts at the scatter index of j's row, read signed. -/
theorem putRow_start0 (j : (⟨2, ![R, C]⟩ : Shape).Idx) (idx : IVec ⟨2, ![R, 1]⟩ w) :
    (putRowDims N R C wf).start j idx 0 = (idx (ix2 (⟨(j 0).val, idx2_lt0 j⟩ : Fin R) (0 : Fin 1))).toInt := by
  unfold ScatterDims.start
  rw [dif_pos (show (0 : Fin 2) ∈ (putRowDims N R C wf).scatterDimsToOperandDims from List.mem_singleton.mpr rfl)]
  have hsi : (putRowDims N R C wf).siIdx j ⟨List.idxOf (0 : Fin 2) (putRowDims N R C wf).scatterDimsToOperandDims,
      List.idxOf_lt_length_iff.2 (List.mem_singleton.mpr rfl)⟩ = ix2 (⟨(j 0).val, idx2_lt0 j⟩ : Fin R) (0 : Fin 1) := by
    funext b; refine Fin.ext ?_
    match b with
    | ⟨0, _⟩ => rfl
    | ⟨1, _⟩ => rfl
  rw [hsi]

/-- On the operand's column axis the window starts at 0. -/
theorem putRow_start1 (j : (⟨2, ![R, C]⟩ : Shape).Idx) (idx : IVec ⟨2, ![R, 1]⟩ w) :
    (putRowDims N R C wf).start j idx 1 = 0 := by
  unfold ScatterDims.start
  rw [dif_neg]
  intro h
  exact absurd (List.mem_singleton.mp h) (show (1 : Fin 2) ≠ 0 by decide)

/-- The window has one row. -/
theorem putRow_window0 (j : (⟨2, ![R, C]⟩ : Shape).Idx) : (putRowDims N R C wf).window j 0 = 0 := by
  unfold ScatterDims.window
  rw [dif_neg]
  simp [ScatterDims.sKept, Shape.kept, List.mem_filter, List.mem_finRange]

/-- Across the columns the window coordinate is the update element's column. -/
theorem putRow_window1 (j : (⟨2, ![R, C]⟩ : Shape).Idx) : (putRowDims N R C wf).window j 1 = (j 1).val := by
  unfold ScatterDims.window
  have hm : (1 : Fin 2) ∈ (putRowDims N R C wf).sKept := by
    simp [ScatterDims.sKept, Shape.kept, List.mem_filter, List.mem_finRange]
  rw [dif_pos hm]
  rfl

/-- Update element j lands at operand element i exactly when the scatter index of j's row, read signed, is i's row
    number and the two are in the same column. -/
theorem putRow_resultIdx?_eq_some_iff (j : (⟨2, ![R, C]⟩ : Shape).Idx) (idx : IVec ⟨2, ![R, 1]⟩ w)
    (i : (⟨2, ![N, C]⟩ : Shape).Idx) :
    (putRowDims N R C wf).resultIdx? j idx = some i
      ↔ (idx (ix2 (⟨(j 0).val, idx2_lt0 j⟩ : Fin R) (0 : Fin 1))).toInt = ((i 0).val : ℤ) ∧ (j 1).val = (i 1).val := by
  have hi0 := idx2_lt0 i
  have hi1 := idx2_lt1 i
  have hj1 := idx2_lt1 j
  have hall : ∀ P : Fin 2 → Prop, (∀ a, P a) ↔ P 0 ∧ P 1 := fun P =>
    ⟨fun h => ⟨h 0, h 1⟩, fun h a => by
      match a with
      | ⟨0, _⟩ => exact h.1
      | ⟨1, _⟩ => exact h.2⟩
  have hs0 : (⟨2, ![N, C]⟩ : Shape).size 0 = N := rfl
  have hs1 : (⟨2, ![N, C]⟩ : Shape).size 1 = C := rfl
  unfold ScatterDims.resultIdx?
  by_cases h : ∀ a : Fin (⟨2, ![N, C]⟩ : Shape).rank, 0 ≤ (putRowDims N R C wf).start j idx a + (putRowDims N R C wf).window j a ∧
      (putRowDims N R C wf).start j idx a + (putRowDims N R C wf).window j a < (⟨2, ![N, C]⟩ : Shape).size a
  · rw [dif_pos h]
    have h0 := h 0
    have h1 := h 1
    rw [putRow_start0, putRow_window0] at h0
    rw [putRow_start1, putRow_window1] at h1
    constructor
    · intro he
      have e := Option.some.inj he
      have e0 := congrArg (fun k : (⟨2, ![N, C]⟩ : Shape).Idx => (k 0).val) e
      have e1 := congrArg (fun k : (⟨2, ![N, C]⟩ : Shape).Idx => (k 1).val) e
      simp only [putRow_start0, putRow_window0, putRow_start1, putRow_window1] at e0 e1
      constructor <;> omega
    · rintro ⟨he0, he1⟩
      congr 1
      funext a
      refine Fin.ext ?_
      match a with
      | ⟨0, _⟩ =>
        show ((putRowDims N R C wf).start j idx 0 + (putRowDims N R C wf).window j 0).toNat = (i 0).val
        rw [putRow_start0, putRow_window0]
        omega
      | ⟨1, _⟩ =>
        show ((putRowDims N R C wf).start j idx 1 + (putRowDims N R C wf).window j 1).toNat = (i 1).val
        rw [putRow_start1, putRow_window1]
        omega
  · rw [dif_neg h]
    constructor
    · intro he; exact absurd he (by simp)
    · rintro ⟨he0, he1⟩
      exfalso
      apply h
      rw [hall]
      rw [putRow_start0, putRow_window0, putRow_start1, putRow_window1, hs0, hs1]
      omega

/-- The accumulating scatter of rows over the extended reals, read at (p, q): the operand there plus the sum, over
    the update rows whose scatter index (read signed) is p, of the update at column q. -/
theorem hostScatterAdd_rows_apply (x : (⟨2, ![N, C]⟩ : Shape).Idx → EReal) (idx : IVec ⟨2, ![R, 1]⟩ w)
    (upd : (⟨2, ![R, C]⟩ : Shape).Idx → EReal) (p : Fin N) (q : Fin C) :
    Ideal.hostScatterAdd (putRowDims N R C wf) x idx upd (ix2 p q)
      = x (ix2 p q) + ∑ n : Fin R, if (idx (ix2 n (0 : Fin 1))).toInt = (p.val : ℤ) then upd (ix2 n q) else 0 := by
  unfold Ideal.hostScatterAdd
  congr 1
  rw [sum_filter_of_iff _ _ _ (fun j => putRow_resultIdx?_eq_some_iff wf j idx (ix2 p q)), sum_idx2]
  refine Finset.sum_congr rfl fun n _ => ?_
  by_cases hn : (idx (ix2 n (0 : Fin 1))).toInt = (p.val : ℤ)
  · rw [if_pos hn, Finset.sum_eq_single q]
    · exact if_pos ⟨hn, rfl⟩
    · intro b _ hb
      exact if_neg fun hc => hb (Fin.ext hc.2)
    · intro hq; exact absurd (Finset.mem_univ q) hq
  · rw [if_neg hn]
    exact Finset.sum_eq_zero fun b _ => if_neg fun hc => hn hc.1

end Cert.Lib.RowScatter

end
-- ==== Proof.LibHostIndex.lean ====
/-
  Index operations of a host program on a FLAT array, read at an index.

  A gather of a flat array at a column of start indices (what x[idx] of a flat array lowers to when idx is flat) is the
  array at the start index, read signed and clamped. A scatter into a flat array at a column of scatter indices lands
  update e at the index the e-th scatter index names, read signed, when that is inside the array. From the second:
  the integer scatter with an associative, commutative body is a fold per element; with the body + and every update 1
  over zeros it COUNTS the updates that land at the element; the accumulating float scatter over the extended reals is
  the operand plus the sum of the updates that land there, as a sum over the update positions.
-/
import Idealize.ShloMosaic.PureOps.Ideal
import Idealize.ShloMosaic.PureOps.Contract
import Idealize.ShloMosaic.Lib.ValueIdx

noncomputable section

open scoped BigOperators

namespace Cert.Lib.HostIndex

open Idealize.ShloMosaic Idealize.ShloMosaic.ValueIdx

/-- A rank-1 index's coordinate is below the extent. -/
theorem idx1_lt {n : Nat} (j : (⟨1, ![n]⟩ : Shape).Idx) : (j 0).val < n := (j 0).isLt

/-- A rank-1 index set is its coordinate range. -/
def idxEquiv1 {n : Nat} : (⟨1, ![n]⟩ : Shape).Idx ≃ Fin n where
  toFun i := ⟨(i 0).val, idx1_lt i⟩
  invFun a := ix1 a
  left_inv i := (eq_ix1 i).symm
  right_inv _ := rfl

/-- A sum over the positions of a flat array that satisfy a condition, as a sum over the coordinate. -/
theorem sum_filter_idx1 {M : Type*} [AddCommMonoid M] {n : Nat} (p : (⟨1, ![n]⟩ : Shape).Idx → Prop) [DecidablePred p]
    (f : (⟨1, ![n]⟩ : Shape).Idx → M) :
    ∑ j ∈ Finset.univ.filter p, f j = ∑ e ∈ Finset.univ.filter (fun e : Fin n => p (ix1 e)), f (ix1 e) := by
  rw [Finset.sum_filter, Finset.sum_filter, ← Equiv.sum_comp (idxEquiv1 (n := n)).symm]
  rfl

/-- The number of positions of a flat array that satisfy a condition, counted over the coordinate. -/
theorem card_filter_idx1 {n : Nat} (p : (⟨1, ![n]⟩ : Shape).Idx → Prop) [DecidablePred p] :
    (Finset.univ.filter p).card = (Finset.univ.filter (fun e : Fin n => p (ix1 e))).card := by
  rw [Finset.card_eq_sum_ones, Finset.card_eq_sum_ones]
  exact sum_filter_idx1 p fun _ => 1

/-! ## The gather of a flat array at a column of start indices -/

section Take
variable {α : Type}

/-- The dimension numbers of x[idx] for a flat operand [N] and start indices [R, 1]: result [R]. -/
abbrev take1Dims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at position y: the operand at the start index of row y, read signed and clamped into [0, N - 1]. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (⟨(y 0).val, idx1_lt y⟩ : Fin R) (0 : Fin 1))).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (⟨(y 0).val, idx1_lt y⟩ : Fin R) (0 : Fin 1) := by
    funext b; refine Fin.ext ?_
    match b with
    | ⟨0, _⟩ => rfl
    | ⟨1, _⟩ => rfl
  rw [hsi]
  rfl

end Take

/-! ## The scatter into a flat array at a column of scatter indices -/

section Put

/-- The dimension numbers of x.at[idx] for a flat operand [N], scatter indices [R, 1] and updates [R]. -/
abbrev put1Dims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- The window of update j starts at the scatter index of row j, read signed. -/
theorem put1_start (j : (⟨1, ![R]⟩ : Shape).Idx) (idx : IVec ⟨2, ![R, 1]⟩ w) :
    (put1Dims N R wf).start j idx 0 = (idx (ix2 (⟨(j 0).val, idx1_lt j⟩ : Fin R) (0 : Fin 1))).toInt := by
  unfold ScatterDims.start
  rw [dif_pos (show (0 : Fin 1) ∈ (put1Dims N R wf).scatterDimsToOperandDims from List.mem_singleton.mpr rfl)]
  have hsi : (put1Dims N R wf).siIdx j ⟨List.idxOf (0 : Fin 1) (put1Dims N R wf).scatterDimsToOperandDims,
      List.idxOf_lt_length_iff.2 (List.mem_singleton.mpr rfl)⟩ = ix2 (⟨(j 0).val, idx1_lt j⟩ : Fin R) (0 : Fin 1) := by
    funext b; refine Fin.ext ?_
    match b with
    | ⟨0, _⟩ => rfl
    | ⟨1, _⟩ => rfl
  rw [hsi]

/-- The window has the one element. -/
theorem put1_window (j : (⟨1, ![R]⟩ : Shape).Idx) : (put1Dims N R wf).window j 0 = 0 := by
  unfold ScatterDims.window
  rw [dif_neg]
  simp [ScatterDims.sKept, Shape.kept, List.mem_filter, List.mem_finRange]

/-- Update j lands at position i exactly when the scatter index of row j, read signed, is i's coordinate. -/
theorem put1_resultIdx?_eq_some_iff (j : (⟨1, ![R]⟩ : Shape).Idx) (idx : IVec ⟨2, ![R, 1]⟩ w) (i : (⟨1, ![N]⟩ : Shape).Idx) :
    (put1Dims N R wf).resultIdx? j idx = some i
      ↔ (idx (ix2 (⟨(j 0).val, idx1_lt j⟩ : Fin R) (0 : Fin 1))).toInt = ((i 0).val : ℤ) := by
  have hi := idx1_lt i
  unfold ScatterDims.resultIdx?
  have hall : ∀ P : Fin 1 → Prop, (∀ a, P a) ↔ P 0 := fun P =>
    ⟨fun h => h 0, fun h a => by obtain rfl : a = 0 := Subsingleton.elim _ _; exact h⟩
  by_cases h : ∀ a : Fin (⟨1, ![N]⟩ : Shape).rank, 0 ≤ (put1Dims N R wf).start j idx a + (put1Dims N R wf).window j a ∧
      (put1Dims N R wf).start j idx a + (put1Dims N R wf).window j a < (⟨1, ![N]⟩ : Shape).size a
  · rw [dif_pos h]
    have h0 := h 0
    rw [put1_start, put1_window] at h0
    constructor
    · intro he
      have := congrArg (fun o : Option (⟨1, ![N]⟩ : Shape).Idx => o.map fun k => (k 0).val) he
      simp only [Option.map_some] at this
      have e := Option.some.inj this
      simp only [put1_start, put1_window] at e
      omega
    · intro he
      congr 1
      funext a
      obtain rfl : a = 0 := Subsingleton.elim _ _
      refine Fin.ext ?_
      show ((put1Dims N R wf).start j idx 0 + (put1Dims N R wf).window j 0).toNat = (i 0).val
      rw [put1_start, put1_window]
      omega
  · rw [dif_neg h]
    constructor
    · intro he; exact absurd he (by simp)
    · intro he
      exfalso
      apply h
      intro a
      obtain rfl : a = 0 := Subsingleton.elim _ _
      rw [put1_start, put1_window]
      have : (⟨1, ![N]⟩ : Shape).size 0 = N := rfl
      rw [this]
      omega

end Put

/-! ## The integer scatter as a fold per element, and as a count -/

section Fold
variable {α ι κ : Type} [DecidableEq ι]

/-- A fold of "update the element the step names" read at one element is the fold of the steps that name it. -/
theorem foldl_step_apply (step : (ι → α) → κ → ι → α) (g : κ → Option ι) (f : α → α → α) (upd : κ → α)
    (hstep : ∀ r n i, step r n i = if g n = some i then f (r i) (upd n) else r i) (i : ι) :
    ∀ (l : List κ) (x : ι → α),
      (l.foldl step x) i = l.foldl (fun a n => if g n = some i then f a (upd n) else a) (x i)
  | [], _ => rfl
  | n :: l, x => by
    rw [List.foldl_cons, List.foldl_cons, foldl_step_apply step g f upd hstep i l, hstep]

/-- Adding 1 at the steps that satisfy a condition counts them. -/
theorem foldl_count (p : κ → Prop) [DecidablePred p] :
    ∀ (l : List κ) (a : BitVec 32),
      l.foldl (fun a n => if p n then a + 1#32 else a) a = a + BitVec.ofNat 32 (l.countP fun n => decide (p n))
  | [], a => by simp
  | n :: l, a => by
    rw [List.foldl_cons, foldl_count p l, List.countP_cons]
    by_cases h : p n
    · simp only [h, if_true, decide_true]
      rw [BitVec.add_assoc]
      congr 1
      apply BitVec.eq_of_toNat_eq
      simp [BitVec.toNat_add, BitVec.toNat_ofNat, Nat.add_comm]
    · simp [h]

end Fold

/-- The steps of a list of all positions that satisfy a condition are as many as the positions that do. -/
theorem countP_finRange {n : Nat} (p : Fin n → Prop) [DecidablePred p] :
    (List.finRange n).countP (fun k => decide (p k)) = (Finset.univ.filter p).card := by
  rw [List.countP_eq_length_filter]
  have : (Finset.univ.filter p : Finset (Fin n)) = ((List.finRange n).filter fun k => decide (p k)).toFinset := by
    ext k; simp
  rw [this, List.toFinset_card_of_nodup ((List.nodup_finRange n).filter _)]

section IntScatter
variable {s si u : Shape} {w : Nat}

/-- The integer scatter read at an element: the fold, over the update positions in row-major order, of the updates that
    land there. -/
theorem scatter_apply (d : ScatterDims s si u) (f : BitVec 32 → BitVec 32 → BitVec 32) (x : s.Idx → BitVec 32)
    (idx : IVec si w) (upd : u.Idx → BitVec 32) (i : s.Idx) :
    Host.scatter d f x idx upd i
      = (List.finRange u.numel).foldl (fun a n => if d.resultIdx? (u.rowMajor.symm n) idx = some i
          then f a (upd (u.rowMajor.symm n)) else a) (x i) := by
  unfold Host.scatter
  refine foldl_step_apply _ (fun n => d.resultIdx? (u.rowMajor.symm n) idx) f (fun n => upd (u.rowMajor.symm n)) ?_ i _ x
  intro r n i'
  cases hg : d.resultIdx? (u.rowMajor.symm n) idx with
  | none => simp
  | some i₀ =>
    by_cases h : i' = i₀
    · subst h; simp
    · have h' : ¬ (i₀ = i') := fun e => h e.symm
      simp [h, h']

/-- The scatter of ones into zeros with the body + counts, at each element, the updates that land there. -/
theorem scatter_ones_apply (d : ScatterDims s si u) (idx : IVec si w) (i : s.Idx) :
    Host.scatter d IntOp.addi (fun _ => 0#32) idx (fun _ => 1#32) i
      = BitVec.ofNat 32 (Finset.univ.filter fun j : u.Idx => d.resultIdx? j idx = some i).card := by
  rw [scatter_apply]
  show (List.finRange u.numel).foldl (fun a n => if d.resultIdx? (u.rowMajor.symm n) idx = some i then a + 1#32 else a) 0#32 = _
  rw [foldl_count (fun n => d.resultIdx? (u.rowMajor.symm n) idx = some i), countP_finRange, BitVec.zero_add]
  congr 1
  exact Finset.card_bij (fun n _ => u.rowMajor.symm n) (fun n hn => by simpa using hn)
    (fun a _ b _ h => u.rowMajor.symm.injective h)
    (fun j hj => ⟨u.rowMajor j, by simpa using hj, by simp⟩)

end IntScatter

end Cert.Lib.HostIndex

end
-- ==== Proof.RefSums.lean ====
/- The reference's class counts, class sums and class means, read at an index: each accumulating scatter at a class is
   the sum over the rows labelled with that class, a label outside 0..127 landing nowhere. -/
import proofs.«406997_j73443940761980_3_alg».proof.Proof.Gen.ReferenceIdeal.Read
import proofs.«406997_j73443940761980_3_alg».proof.Proof.Spec
import proofs.«406997_j73443940761980_3_alg».proof.Proof.LibRowScatter
import proofs.«406997_j73443940761980_3_alg».proof.Proof.LibHostIndex

noncomputable section

open scoped BigOperators

namespace Cert.Lib.HostIndex

open Idealize.ShloMosaic Idealize.ShloMosaic.ValueIdx

/-- The accumulating scatter of single elements into a rank-1 operand, read at an index: the operand there plus the sum
    of the updates whose scatter index, read signed, is that index's number. -/
theorem hostScatterAdd_put1_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (p : Fin N) :
    Ideal.hostScatterAdd (put1Dims N R wf) x idx upd (ix1 p)
      = x (ix1 p) + ∑ n : Fin R, if (idx (ix2 n (0 : Fin 1))).toInt = (p.val : ℤ) then upd (ix1 n) else 0 := by
  unfold Ideal.hostScatterAdd
  congr 1
  rw [Cert.Lib.RowScatter.sum_filter_of_iff _ _ _ (fun j => put1_resultIdx?_eq_some_iff wf j idx (ix1 p)),
    ← Equiv.sum_comp (idxEquiv1 (n := R)).symm]
  rfl

end Cert.Lib.HostIndex

namespace Cert.ReferenceIdeal.RefValue

open Idealize.ShloMosaic Idealize.ShloMosaic.ValueIdx Cert.ReferenceIdeal Cert.ReferenceIdeal.Read

/-- The single-precision pattern of one denotes one. -/
private theorem ofBits_one_f32 : Ideal.ofBits .f32 0x3F800000#32 = 1 := by
  simp [Ideal.ofBits, Ideal.ieee, -EReal.coe_mul]; norm_num

/-- The counts the reference scatters together: at class `c`, the number of rows labelled `c`. -/
theorem ref_cnt (x1 : (⟨S262144, .i32⟩ : BufTy).Contents (Elt Ideal)) (c : Fin 128) :
    val_main_v3 (F := Ideal) x1 (ix1 c) = Cert.Spec.cnt x1 c := by
  unfold val_main_v3 Host.scatterAdd
  rw [Ideal.hostScatterAdd_def]
  have hd : scatter_S128_S262144x1_S262144_n_0_0_1
      = Cert.Lib.HostIndex.put1Dims 128 262144 Facts₀.scatter_S128_S262144x1_S262144_n_0_0_1_wf := rfl
  rw [hd, Cert.Lib.HostIndex.hostScatterAdd_put1_apply, val_main_v1_apply, val_main_cst_0_apply, Ideal.ofBits_def,
    Ideal.ofBits_zero_f32, zero_add]
  unfold Cert.Spec.cnt
  refine Finset.sum_congr rfl fun n _ => ?_
  have hi : idx_main_v2 (ix2 n (0 : Fin 1)) = ix1 n := by
    funext a
    match a with
    | ⟨0, _⟩ => rfl
  rw [val_main_v2_apply, hi, val_main_v0_apply, val_main_cst_apply, Ideal.ofBits_def, ofBits_one_f32]

/-- The sums the reference scatters together: at class `c` and feature `d`, the sum of that feature over the rows labelled `c`. -/
theorem ref_sm (x0 : (⟨S262144x64, .f32⟩ : BufTy).Contents (Elt Ideal)) (x1 : (⟨S262144, .i32⟩ : BufTy).Contents (Elt Ideal))
    (c : Fin 128) (d : Fin 64) :
    val_main_v6 (F := Ideal) x0 x1 (ix2 c d) = Cert.Spec.sm x0 x1 c d := by
  unfold val_main_v6 Host.scatterAdd
  rw [Ideal.hostScatterAdd_def]
  have hd : scatter_S128x64_S262144x1_S262144x64_1_0_0_1
      = Cert.Lib.RowScatter.putRowDims 128 262144 64 Facts₀.scatter_S128x64_S262144x1_S262144x64_1_0_0_1_wf := rfl
  rw [hd, Cert.Lib.RowScatter.hostScatterAdd_rows_apply, val_main_v4_apply, val_main_cst_1_apply, Ideal.ofBits_def,
    Ideal.ofBits_zero_f32, zero_add]
  unfold Cert.Spec.sm
  refine Finset.sum_congr rfl fun n _ => ?_
  have hi : idx_main_v5 (ix2 n (0 : Fin 1)) = ix1 n := by
    funext a
    match a with
    | ⟨0, _⟩ => rfl
  rw [val_main_v5_apply, hi]

/-- The reference's class means. -/
theorem ref_mean (x0 : (⟨S262144x64, .f32⟩ : BufTy).Contents (Elt Ideal)) (x1 : (⟨S262144, .i32⟩ : BufTy).Contents (Elt Ideal))
    (c : Fin 128) (d : Fin 64) :
    val_main_v9 (F := Ideal) x0 x1 (ix2 c d) = Cert.Spec.mean x0 x1 c d := by
  have hi : idx_main_v7 (idx_main_v8 (ix2 c d)) = ix1 c := by
    funext a
    match a with
    | ⟨0, _⟩ => rfl
  rw [val_main_v9_apply, val_main_v8_apply, val_main_v7_apply, Ideal.hostDivf_def, ref_sm, hi, ref_cnt]
  rfl

end Cert.ReferenceIdeal.RefValue

end
-- ==== Proof.RefTail.lean ====
/- The reference's last host operations, read at the one index of the scalar result: the loss from the last class's mean row and
   the middle term. -/
import proofs.«406997_j73443940761980_3_alg».proof.Proof.Gen.ReferenceIdeal.Read
import proofs.«406997_j73443940761980_3_alg».proof.Proof.Spec

noncomputable section

open scoped BigOperators

namespace Cert.ReferenceIdeal.RefValue

open Idealize.ShloMosaic Idealize.ShloMosaic.ValueIdx Cert.ReferenceIdeal Cert.ReferenceIdeal.Read

/-- The reference's result is the loss of the last class's mean row (row 127 of the means) and the middle term. -/
theorem ref_tail (x0 : (⟨S262144x64, .f32⟩ : BufTy).Contents (Elt Ideal)) (x1 : (⟨S262144, .i32⟩ : BufTy).Contents (Elt Ideal))
    (x2 : (⟨S128x64, .f32⟩ : BufTy).Contents (Elt Ideal)) (x3 : (⟨S128x64x64, .f32⟩ : BufTy).Contents (Elt Ideal)) (i : S_.Idx) :
    val_main_v54 (F := Ideal) x0 x1 x2 x3 i
      = Cert.Spec.loss (fun d => val_main_v9 (F := Ideal) x0 x1 (ix2 (127 : Fin 128) d)) (val_main_v43 (F := Ideal) x0 x1 ix0) x2 x3 := by
  -- the squared difference at one index of the mean parameter
  have h49 : ∀ j : S128x64.Idx, val_main_v49 (F := Ideal) x0 x1 x2 j
      = (val_main_v9 (F := Ideal) x0 x1 (ix2 (127 : Fin 128) ⟨(j 1).val, idx2_lt1 j⟩) - x2 j)
        * (val_main_v9 (F := Ideal) x0 x1 (ix2 (127 : Fin 128) ⟨(j 1).val, idx2_lt1 j⟩) - x2 j) := by
    intro j
    have h : idx_main_v44 (idx_main_v45 (idx_main_v46 (idx_main_v47 j)))
        = ix2 (127 : Fin 128) ⟨(j 1).val, idx2_lt1 j⟩ := by
      funext a
      match a with
      | ⟨0, _⟩ => exact Fin.ext rfl
      | ⟨1, _⟩ => exact Fin.ext (Nat.mod_eq_of_lt (j 1).isLt)
    rw [val_main_v49_apply, val_main_v48_apply, val_main_v47_apply, val_main_v46_apply, val_main_v45_apply,
      val_main_v44_apply, h]
    rfl
  -- the square at one index of the covariance parameter
  have h52 : ∀ j : S128x64x64.Idx, val_main_v52 (F := Ideal) x3 j = x3 j * x3 j := fun _ => rfl
  rw [val_main_v54_apply, val_main_v51_apply, val_main_v50_apply, val_main_v53_apply,
    val_main_cst_10_apply, val_main_cst_11_apply, eq_ix0 i]
  simp only [Ideal.addf_def, Ideal.ofBits_def, Ideal.ofBits_zero_f32, h49, h52]
  rfl

end Cert.ReferenceIdeal.RefValue

end
-- ==== Proof.LibRowGather.lean ====
/-
  A row lookup on the host, read at an index. What table[rows] of a matrix table : [N, C] at an integer array rows : [E]
  lowers to: a gather with offset axis 1, collapsed slice axis 0, start index map [0], slices of one whole row, over the
  rows laid out as [E, 1]. Result element (e, k) is the table at row rows[e, 0], read as a signed integer and kept inside
  [0, N − 1] as the host's gather keeps every start index, and at column k.
-/
import Idealize.ShloMosaic.Lib.ValueIdx

noncomputable section

namespace Cert.Lib.RowGather

open Idealize.ShloMosaic Idealize.ShloMosaic.ValueIdx

variable {α : Type}

/-- Those dimension numbers for a table [N, C], rows [E, 1] and result [E, C]; their conditions are decided on a
    program's literal shapes. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Coordinates

variable {N C E w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the table's row axis the operand index is the start index: the word at (e, 0), signed, kept inside the table. -/
theorem coord_row :
    (rowDims N C E wf).start (ix2 e k) idx (0 : Fin 2) + (rowDims N C E wf).batchCoord (ix2 e k) (0 : Fin 2)
      + (rowDims N C E wf).offCoord (ix2 e k) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx (ix2 e k) ⟨List.idxOf (0 : Fin 2) (rowDims N C E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- On the table's column axis the operand index is the result's column. -/
theorem coord_col :
    (rowDims N C E wf).start (ix2 e k) idx (1 : Fin 2) + (rowDims N C E wf).batchCoord (ix2 e k) (1 : Fin 2)
      + (rowDims N C E wf).offCoord (ix2 e k) (1 : Fin 2) = k.val := by
  rw [GatherDims.batchCoord_eq_zero _ _ _ List.not_mem_nil]
  have hs : (rowDims N C E wf).start (ix2 e k) idx (1 : Fin 2) = 0 := by
    unfold GatherDims.start
    rw [dif_neg (fun h => absurd (congrArg Fin.val (List.mem_singleton.mp h)) Nat.one_ne_zero)]
  rw [hs]
  simp only [Nat.add_zero, Nat.zero_add]
  rfl

end Coordinates

/-- The lookup read at (e, k): row rows[e, 0] (signed, kept inside the table), column k. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ => exact coord_row wf idx e k
  | ⟨1, _⟩ => exact coord_col wf idx e k

end Cert.Lib.RowGather

end
-- ==== Proof.RefMiddle.lean ====
/- The reference's middle term is zero: a row of the last class is centred by that class's mean, the centred rows of the class sum
   to zero (the rows being finite and the class having that row), so the row's projection onto the sum is zero. -/
import proofs.«406997_j73443940761980_3_alg».proof.Proof.RefSums
import proofs.«406997_j73443940761980_3_alg».proof.Proof.LibRowGather
import proofs.«406997_j73443940761980_3_alg».proof.Proof.LibTileSum

noncomputable section

open scoped BigOperators

namespace Cert.ReferenceIdeal.RefValue

open Idealize.ShloMosaic Idealize.ShloMosaic.ValueIdx Cert.ReferenceIdeal Cert.ReferenceIdeal.Read

/-- A label that reads 127 is not negative, so the wrap of negative labels leaves it alone. -/
theorem wrap_127 (t : BitVec 32) (h : t.toInt = 127) :
    Scalar.select (IntOp.cmpi .slt t 0#32) (IntOp.addi t 128#32) t = t := by
  have ht : t = 127#32 := BitVec.eq_of_toInt_eq (by rw [h]; rfl)
  subst ht
  rfl

theorem v14_127 (x1 : (⟨S262144, .i32⟩ : BufTy).Contents (Elt Ideal)) (n : Fin 262144)
    (h : (x1 (ix1 n)).toInt = 127) : val_main_v14 (F := Ideal) x1 (ix1 n) = x1 (ix1 n) := by
  rw [val_main_v14_apply, val_main_v11_apply, val_main_v13_apply, val_main_v10_apply, val_main_v12_apply,
    val_main_c_apply, val_main_c_2_apply]
  exact wrap_127 _ h

theorem idx15 (n : Fin 262144) : idx_main_v15 (ix2 n (⟨0, Nat.one_pos⟩ : Fin 1)) = ix1 n := by
  funext a; match a with | ⟨0, _⟩ => rfl

theorem v16_apply (x0 : (⟨S262144x64, .f32⟩ : BufTy).Contents (Elt Ideal)) (x1 : (⟨S262144, .i32⟩ : BufTy).Contents (Elt Ideal))
    (n : Fin 262144) (d : Fin 64) :
    val_main_v16 (F := Ideal) x0 x1 (ix2 n d)
      = val_main_v9 (F := Ideal) x0 x1 (ix2 ⟨min (val_main_v15 (F := Ideal) x1 (ix2 n ⟨0, Nat.one_pos⟩)).toInt.toNat (128 - 1), by omega⟩ d) :=
  Cert.Lib.RowGather.rowGather_apply (by decide) _ _ _ n d

abbrev XT := (⟨S262144x64, .f32⟩ : BufTy).Contents (Elt Ideal)
abbrev TT := (⟨S262144, .i32⟩ : BufTy).Contents (Elt Ideal)

/-- The gathers keep a start index inside the table: one that reads 127 stays 127. -/
theorem fin_min_127 (t : BitVec 32) (h : t.toInt = 127) (p : min t.toInt.toNat (128 - 1) < 128) :
    (⟨min t.toInt.toNat (128 - 1), p⟩ : Fin 128) = 127 :=
  Fin.ext (by show min t.toInt.toNat (128 - 1) = 127; rw [h]; rfl)

theorem v15_127 (x1 : TT) (n : Fin 262144) (h : (x1 (ix1 n)).toInt = 127) :
    val_main_v15 (F := Ideal) x1 (ix2 n ⟨0, Nat.one_pos⟩) = x1 (ix1 n) := by
  rw [val_main_v15_apply, idx15, v14_127 x1 n h]

/-- A row of the last class is centred by that class's mean. -/
theorem v16_127 (x0 : XT) (x1 : TT) (n : Fin 262144) (d : Fin 64) (h : (x1 (ix1 n)).toInt = 127) :
    val_main_v16 (F := Ideal) x0 x1 (ix2 n d) = Cert.Spec.mean x0 x1 127 d := by
  have hv : (val_main_v15 (F := Ideal) x1 (ix2 n ⟨0, Nat.one_pos⟩)).toInt = 127 := by rw [v15_127 x1 n h, h]
  rw [v16_apply, fin_min_127 _ hv, ref_mean]

theorem v17_127 (x0 : XT) (x1 : TT) (n : Fin 262144) (d : Fin 64) (h : (x1 (ix1 n)).toInt = 127) :
    val_main_v17 (F := Ideal) x0 x1 (ix2 n d) = x0 (ix2 n d) - Cert.Spec.mean x0 x1 127 d := by
  rw [val_main_v17_apply, v16_127 x0 x1 n d h]
  rfl

/-- A count of a class's members, taken in the extended reals, is the same count taken in the reals. -/
theorem count_coe {ι : Type} [Fintype ι] (p : ι → Prop) [DecidablePred p] :
    (∑ j, if p j then (1 : EReal) else 0) = ((∑ j, if p j then (1 : ℝ) else 0 : ℝ) : EReal) := by
  rw [Cert.Lib.TileSum.coe_finset_sum]
  refine Finset.sum_congr rfl fun j _ => ?_
  by_cases hj : p j
  · rw [if_pos hj, if_pos hj, EReal.coe_one]
  · rw [if_neg hj, if_neg hj, EReal.coe_zero]

/-- The count of a class that has a member is not zero. -/
theorem count_ne_zero {ι : Type} [Fintype ι] (p : ι → Prop) [DecidablePred p] (i₀ : ι) (h₀ : p i₀) :
    (∑ j, if p j then (1 : ℝ) else 0) ≠ 0 := by
  have h := Finset.single_le_sum (f := fun j => if p j then (1 : ℝ) else 0)
    (fun j _ => by by_cases hj : p j <;> simp [hj]) (Finset.mem_univ i₀)
  have hK1 : (1 : ℝ) ≤ ∑ j, if p j then (1 : ℝ) else 0 := by simpa [h₀] using h
  intro h0
  rw [h0] at hK1
  exact absurd hK1 (by norm_num)

/-- Over the extended reals, for real values: the deviations of a class's values from the class's mean sum to zero when
    the class has a member. The count K is then a real number at least 1, the sum T of the class's values a real number,
    the mean T / K, and the deviations sum to T - (T / K) * K. -/
theorem class_centred_sum_zero {ι : Type} [Fintype ι] (p : ι → Prop) [DecidablePred p] (f : ι → EReal)
    (hf : ∀ i, ∃ r : ℝ, f i = (r : EReal)) (i₀ : ι) (h₀ : p i₀) :
    ∑ i, (if p i then f i - Ideal.div (∑ j, if p j then f j else 0) (∑ j, if p j then (1 : EReal) else 0) else 0) = 0 := by
  choose g hg using hf
  have hcnt := count_coe p
  have hsm : (∑ j, if p j then f j else 0) = ((∑ j, if p j then g j else 0 : ℝ) : EReal) := by
    rw [Cert.Lib.TileSum.coe_finset_sum]
    refine Finset.sum_congr rfl fun j _ => ?_
    by_cases hj : p j
    · rw [if_pos hj, if_pos hj, hg]
    · rw [if_neg hj, if_neg hj, EReal.coe_zero]
  have hK0 := count_ne_zero p i₀ h₀
  rw [hcnt, hsm, Ideal.div_coe hK0, ← EReal.coe_mul]
  have hterm : ∀ i, (if p i then f i - (((∑ j, if p j then g j else 0) * (1 / ∑ j, if p j then (1 : ℝ) else 0) : ℝ) : EReal) else 0)
      = (((if p i then g i else 0) - (∑ j, if p j then g j else 0) * (1 / ∑ j, if p j then (1 : ℝ) else 0) * (if p i then 1 else 0) : ℝ) : EReal) := by
    intro i
    by_cases hi : p i
    · rw [if_pos hi, if_pos hi, if_pos hi, mul_one, hg, EReal.coe_sub]
    · rw [if_neg hi, if_neg hi, if_neg hi, mul_zero, sub_zero, EReal.coe_zero]
  rw [Finset.sum_congr rfl (fun i _ => hterm i), ← Cert.Lib.TileSum.coe_finset_sum, Finset.sum_sub_distrib, ← Finset.mul_sum,
    mul_assoc, one_div, inv_mul_cancel₀ hK0, mul_one, sub_self, EReal.coe_zero]

theorem idx19 (m : Fin 262144) : idx_main_v19 (ix2 m (0 : Fin 1)) = ix1 m := by
  funext a; match a with | ⟨0, _⟩ => rfl

theorem c127 : (((127 : Fin 128).val : ℕ) : ℤ) = 127 := rfl

/-- The centred rows of the last class, scattered together: zero in every feature, the class having a row. -/
theorem v20_127 (x0 : XT) (x1 : TT) (hx : ∀ i, ∃ r : ℝ, x0 i = (r : EReal)) (d : Fin 64)
    (n₀ : Fin 262144) (h₀ : (x1 (ix1 n₀)).toInt = 127) :
    val_main_v20 (F := Ideal) x0 x1 (ix2 (127 : Fin 128) d) = 0 := by
  have hsc : val_main_v20 (F := Ideal) x0 x1 (ix2 (127 : Fin 128) d)
      = val_main_v18 (F := Ideal) (ix2 (127 : Fin 128) d)
        + ∑ m : Fin 262144, if (val_main_v19 (F := Ideal) x1 (ix2 m (0 : Fin 1))).toInt = (((127 : Fin 128).val : ℕ) : ℤ)
            then val_main_v17 (F := Ideal) x0 x1 (ix2 m d) else 0 :=
    Cert.Lib.RowScatter.hostScatterAdd_rows_apply _ _ _ _ (127 : Fin 128) d
  rw [hsc, val_main_v18_apply, val_main_cst_3_apply, Ideal.ofBits_def, Ideal.ofBits_zero_f32, zero_add, c127]
  have hterm : ∀ m : Fin 262144,
      (if (val_main_v19 (F := Ideal) x1 (ix2 m (0 : Fin 1))).toInt = 127 then val_main_v17 (F := Ideal) x0 x1 (ix2 m d) else 0)
        = if (x1 (ix1 m)).toInt = 127 then x0 (ix2 m d)
            - Ideal.div (∑ j : Fin 262144, if (x1 (ix1 j)).toInt = 127 then x0 (ix2 j d) else 0)
                (∑ j : Fin 262144, if (x1 (ix1 j)).toInt = 127 then (1 : EReal) else 0) else 0 := by
    intro m
    rw [val_main_v19_apply, idx19]
    by_cases hm : (x1 (ix1 m)).toInt = 127
    · rw [if_pos hm, if_pos hm, v17_127 x0 x1 m d hm]
      rfl
    · rw [if_neg hm, if_neg hm]
  rw [Finset.sum_congr rfl (fun m _ => hterm m)]
  exact class_centred_sum_zero (fun m : Fin 262144 => (x1 (ix1 m)).toInt = 127) (fun m => x0 (ix2 m d)) (fun m => hx _) n₀ h₀

theorem v25_127 (x1 : TT) (n : Fin 262144) (h : (x1 (ix1 n)).toInt = 127) :
    val_main_v25 (F := Ideal) x1 (ix1 n) = x1 (ix1 n) := by
  rw [val_main_v25_apply, val_main_v22_apply, val_main_v24_apply, val_main_v21_apply, val_main_v23_apply,
    val_main_c_4_apply, val_main_c_5_apply]
  exact wrap_127 _ h

theorem idx26 (n : Fin 262144) : idx_main_v26 (ix2 n (⟨0, Nat.one_pos⟩ : Fin 1)) = ix1 n := by
  funext a; match a with | ⟨0, _⟩ => rfl

theorem v27_apply (x0 : XT) (x1 : TT) (n : Fin 262144) (d : Fin 64) :
    val_main_v27 (F := Ideal) x0 x1 (ix2 n d)
      = val_main_v20 (F := Ideal) x0 x1 (ix2 ⟨min (val_main_v26 (F := Ideal) x1 (ix2 n ⟨0, Nat.one_pos⟩)).toInt.toNat (128 - 1), by omega⟩ d) :=
  Cert.Lib.RowGather.rowGather_apply (by decide) _ _ _ n d

/-- A row of the last class reads the last class's scattered sum: zero. -/
theorem v27_127 (x0 : XT) (x1 : TT) (hx : ∀ i, ∃ r : ℝ, x0 i = (r : EReal)) (n : Fin 262144) (d : Fin 64)
    (h : (x1 (ix1 n)).toInt = 127) : val_main_v27 (F := Ideal) x0 x1 (ix2 n d) = 0 := by
  have hv : (val_main_v26 (F := Ideal) x1 (ix2 n ⟨0, Nat.one_pos⟩)).toInt = 127 := by
    rw [val_main_v26_apply, idx26, v25_127 x1 n h, h]
  rw [v27_apply, fin_min_127 _ hv, v20_127 x0 x1 hx d n h]

theorem idx29 (n : Fin 262144) (k : Fin 64) : idx_main_v29 (ix1 n) k = ix2 n k := by
  funext a; match a with | ⟨0, _⟩ => rfl | ⟨1, _⟩ => rfl

/-- The row's product with that zero, summed over the features: zero. -/
theorem v29_127 (x0 : XT) (x1 : TT) (hx : ∀ i, ∃ r : ℝ, x0 i = (r : EReal)) (n : Fin 262144)
    (h : (x1 (ix1 n)).toInt = 127) : val_main_v29 (F := Ideal) x0 x1 (ix1 n) = 0 := by
  rw [val_main_v29_apply, val_main_cst_6_apply, Ideal.ofBits_def, Ideal.ofBits_zero_f32, zero_add]
  refine Finset.sum_eq_zero fun k _ => ?_
  rw [idx29, val_main_v28_apply, v27_127 x0 x1 hx n k h]
  exact mul_zero _

theorem v34_127 (x1 : TT) (n : Fin 262144) (h : (x1 (ix1 n)).toInt = 127) :
    val_main_v34 (F := Ideal) x1 (ix1 n) = x1 (ix1 n) := by
  rw [val_main_v34_apply, val_main_v31_apply, val_main_v33_apply, val_main_v30_apply, val_main_v32_apply,
    val_main_c_7_apply, val_main_c_8_apply]
  exact wrap_127 _ h

theorem idx35 (n : Fin 262144) : idx_main_v35 (ix2 n (0 : Fin 1)) = ix1 n := by
  funext a; match a with | ⟨0, _⟩ => rfl

theorem v36_apply (x1 : TT) (n : Fin 262144) :
    val_main_v36 (F := Ideal) x1 (ix1 n)
      = val_main_v3 (F := Ideal) x1 (ix1 ⟨min (val_main_v35 (F := Ideal) x1 (ix2 n (0 : Fin 1))).toInt.toNat (128 - 1), by omega⟩) :=
  Cert.Lib.HostIndex.gather_take1_apply (by decide) _ _ _ (ix1 n)

/-- A row of the last class reads the last class's count. -/
theorem v36_127 (x1 : TT) (n : Fin 262144) (h : (x1 (ix1 n)).toInt = 127) :
    val_main_v36 (F := Ideal) x1 (ix1 n) = Cert.Spec.cnt x1 127 := by
  have hv : (val_main_v35 (F := Ideal) x1 (ix2 n (0 : Fin 1))).toInt = 127 := by
    rw [val_main_v35_apply, idx35, v34_127 x1 n h, h]
  rw [v36_apply, fin_min_127 _ hv, ref_cnt]

/-- Zero divided by the count of a class that has a row is zero, and so is its square. -/
theorem v38_127 (x0 : XT) (x1 : TT) (hx : ∀ i, ∃ r : ℝ, x0 i = (r : EReal)) (n : Fin 262144)
    (h : (x1 (ix1 n)).toInt = 127) : val_main_v38 (F := Ideal) x0 x1 (ix1 n) = 0 := by
  have h37 : val_main_v37 (F := Ideal) x0 x1 (ix1 n) = 0 := by
    rw [val_main_v37_apply, v29_127 x0 x1 hx n h, v36_127 x1 n h, Ideal.hostDivf_def]
    unfold Cert.Spec.cnt
    rw [count_coe, Ideal.div_coe (count_ne_zero _ n h), zero_mul]
  rw [val_main_v38_apply, h37]
  exact mul_zero _

theorem idx40 (m : Fin 262144) : idx_main_v40 (ix2 m (0 : Fin 1)) = ix1 m := by
  funext a; match a with | ⟨0, _⟩ => rfl

/-- The squares scattered by class: the last class receives only zeros. -/
theorem v41_127 (x0 : XT) (x1 : TT) (hx : ∀ i, ∃ r : ℝ, x0 i = (r : EReal)) :
    val_main_v41 (F := Ideal) x0 x1 (ix1 (127 : Fin 128)) = 0 := by
  have hsc : val_main_v41 (F := Ideal) x0 x1 (ix1 (127 : Fin 128))
      = val_main_v39 (F := Ideal) (ix1 (127 : Fin 128))
        + ∑ m : Fin 262144, if (val_main_v40 (F := Ideal) x1 (ix2 m (0 : Fin 1))).toInt = (((127 : Fin 128).val : ℕ) : ℤ)
            then val_main_v38 (F := Ideal) x0 x1 (ix1 m) else 0 :=
    Cert.Lib.HostIndex.hostScatterAdd_put1_apply _ _ _ _ (127 : Fin 128)
  rw [hsc, val_main_v39_apply, val_main_cst_9_apply, Ideal.ofBits_def, Ideal.ofBits_zero_f32, zero_add, c127]
  refine Finset.sum_eq_zero fun m _ => ?_
  rw [val_main_v40_apply, idx40]
  by_cases hm : (x1 (ix1 m)).toInt = 127
  · rw [if_pos hm, v38_127 x0 x1 hx m hm]
  · rw [if_neg hm]

theorem idx42 : idx_main_v42 (ix1 (0 : Fin 1)) = ix1 (127 : Fin 128) := by
  funext a; match a with | ⟨0, _⟩ => rfl

/-- The middle term of the reference's loss vanishes when every entry of the rows is a real number. -/
theorem ref_middle (x0 : (⟨S262144x64, .f32⟩ : BufTy).Contents (Elt Ideal)) (x1 : (⟨S262144, .i32⟩ : BufTy).Contents (Elt Ideal))
    (hx : ∀ i, ∃ r : ℝ, x0 i = (r : EReal)) :
    val_main_v43 (F := Ideal) x0 x1 ix0 = 0 := by
  have hk : (S1.rowMajor (ix1 (0 : Fin 1))).val = (S_.rowMajor ix0).val := by
    rw [Shape.rowMajor_val_one]
    have h1 : S_.numel = 1 := by decide
    have h2 := (S_.rowMajor ix0).isLt
    show 0 = (S_.rowMajor ix0).val
    omega
  unfold val_main_v43
  rw [shapeCast_apply _ _ ix0 (ix1 (0 : Fin 1)) hk, val_main_v42_apply, idx42, v41_127 x0 x1 hx]

end Cert.ReferenceIdeal.RefValue

end
-- ==== Proof.RefValue.lean ====
/- The reference's result is the common value: its last operations give the loss of the last class's mean row and the middle
   term; the mean row is the class mean; the middle term is zero. -/
import proofs.«406997_j73443940761980_3_alg».proof.Proof.RefSums
import proofs.«406997_j73443940761980_3_alg».proof.Proof.RefTail
import proofs.«406997_j73443940761980_3_alg».proof.Proof.RefMiddle

noncomputable section

namespace Cert.ReferenceIdeal.RefValue

open Idealize.ShloMosaic Idealize.ShloMosaic.ValueIdx Cert.ReferenceIdeal Cert.ReferenceIdeal.Read

theorem ref_value (x0 : (⟨S262144x64, .f32⟩ : BufTy).Contents (Elt Ideal)) (x1 : (⟨S262144, .i32⟩ : BufTy).Contents (Elt Ideal))
    (x2 : (⟨S128x64, .f32⟩ : BufTy).Contents (Elt Ideal)) (x3 : (⟨S128x64x64, .f32⟩ : BufTy).Contents (Elt Ideal))
    (hx : ∀ i, ∃ r : ℝ, x0 i = (r : EReal)) :
    val_main_v54 (F := Ideal) x0 x1 x2 x3 = fun _ => Cert.Spec.value x0 x1 x2 x3 := by
  funext i
  have hμ : (fun d => val_main_v9 (F := Ideal) x0 x1 (ix2 (127 : Fin 128) d)) = fun d => Cert.Spec.mean x0 x1 127 d :=
    funext fun d => ref_mean x0 x1 127 d
  rw [ref_tail x0 x1 x2 x3 i, ref_middle x0 x1 hx, hμ]
  rfl

end Cert.ReferenceIdeal.RefValue

end
-- ==== Proof.Finite.lean ====
/- Under the precondition every entry of the rows is a real number: the precondition's first conjunct says that each entry's
   absolute value is below +∞, and an extended real with that property is neither +∞ nor -∞. -/
import proofs.«406997_j73443940761980_3_alg».proof.Pre_finite_inputs
import proofs.«406997_j73443940761980_3_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx

/-- The precondition holds only of rows whose entries are all real numbers. -/
theorem rows_real [Cert.Pre_finite_inputs.Facts]
    (x0 : FVec Ideal Cert.Pre_finite_inputs.S262144x64 .f32) (x1 : IVec Cert.Pre_finite_inputs.S262144 32)
    (x2 : FVec Ideal Cert.Pre_finite_inputs.S128x64 .f32) (x3 : FVec Ideal Cert.Pre_finite_inputs.S128x64x64 .f32)
    (h : Cert.Pre_finite_inputs.fn (F := Ideal) x0 x1 x2 x3 = fun _ => 1#1) :
    ∀ i, ∃ r : ℝ, x0 i = (r : EReal) := by
  intro i
  haveI : Subsingleton Cert.Pre_finite_inputs.S_.Idx := ⟨fun a b => funext fun d => d.elim0⟩
  -- the precondition at its one index: a conjunction of three, of which the first is the conjunction over all entries of the rows
  have h0 := congrFun h ix0
  unfold Cert.Pre_finite_inputs.fn at h0
  dsimp only at h0
  obtain ⟨h8, _⟩ := IntOp.andi_eq_one.1 h0
  obtain ⟨h3, _⟩ := IntOp.andi_eq_one.1 h8
  have hi := Host.reduce_andi_all _ _ _ _ _ h3 i
  -- the bound every entry is compared with is +∞
  have hb : broadcastInDim Cert.Pre_finite_inputs.S262144x64 ![] Cert.Pre_finite_inputs.Facts.bcast_S_S262144x64
      (constant (F := Ideal) Cert.Pre_finite_inputs.S_ .f32 0x7F800000#32) i = (⊤ : EReal) := by
    show Ideal.ofBits .f32 0x7F800000#32 = ⊤
    simp [Ideal.ofBits, Ideal.ieee]
  -- the entry's absolute value is below +∞
  have hc : Ideal.cmp .olt (max (x0 i) (-(x0 i)))
      (broadcastInDim Cert.Pre_finite_inputs.S262144x64 ![] Cert.Pre_finite_inputs.Facts.bcast_S_S262144x64
        (constant (F := Ideal) Cert.Pre_finite_inputs.S_ .f32 0x7F800000#32) i) = 1#1 := hi
  rw [hb] at hc
  have hlt : max (x0 i) (-(x0 i)) < (⊤ : EReal) := by
    unfold Ideal.cmp at hc
    by_contra hn
    simp [hn] at hc
  -- an extended real whose absolute value is below +∞ is a real
  have key : ∀ y : EReal, max y (-y) < ⊤ → ∃ r : ℝ, y = (r : EReal) := by
    intro y hy
    induction y using EReal.rec with
    | bot => simp at hy
    | top => simp at hy
    | coe r => exact ⟨r, rfl⟩
  exact key (x0 i) hlt

end Cert.Finite

end
-- ==== Proof.lean ====
/- The two programs compute one function of their arguments.

   The kernel makes two passes over the rows, each split in two halves. The first accumulates, per class and feature, the sum of
   the rows carrying the class (a product of the rows with the one-hot matrix of the labels) and the class counts; the host adds
   the halves and divides: the class means. The second pass sums, over the rows of the last class, the squared projection of
   the row less the class's mean row onto the row (sum − count · mean) / count of that class. The reference scatters ones and rows
   by label, divides, centres every row by its class's mean, scatters the centred rows by label, and sums the squared
   projections of the last class's rows onto that class's summed centred rows over the count. A label outside 0 … 127 matches no
   class on either side. Over the extended reals, with finite rows, both projections are onto the zero row whenever the last class
   has a row, and both sums are empty otherwise: the middle term is zero on both sides, and what remains — the squared distance
   of the last class's mean row to the mean parameter's rows plus the energy of the covariance parameter — is the same
   expression of equal class means.

   Each program runs to the end and leaves its arguments unchanged; the kernel's two regions carry their accumulators from grid
   point to grid point in their invariants. -/
import proofs.«406997_j73443940761980_3_alg».proof.Defs
import proofs.«406997_j73443940761980_3_alg».proof.Proof.Gen.Kernel
import proofs.«406997_j73443940761980_3_alg».proof.Proof.Gen.KernelIdeal
import proofs.«406997_j73443940761980_3_alg».proof.Proof.Gen.ReferenceIdeal
import proofs.«406997_j73443940761980_3_alg».proof.Proof.Gen.Pre_finite_inputs
import proofs.«406997_j73443940761980_3_alg».proof.Proof.Gen.ReferenceIdeal.Run
import proofs.«406997_j73443940761980_3_alg».proof.Proof.Gen.ReferenceIdeal.Read
import proofs.«406997_j73443940761980_3_alg».proof.Proof.K.Main
import proofs.«406997_j73443940761980_3_alg».proof.Proof.KI.Main
import proofs.«406997_j73443940761980_3_alg».proof.Proof.KI.HostValue
import proofs.«406997_j73443940761980_3_alg».proof.Proof.RefValue
import proofs.«406997_j73443940761980_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the common value of the (agreeing, finite) arguments in their result buffers. -/
theorem algebraic : Cert.algebraic_KernelIdeal_ReferenceIdeal := by
  intro m ρ m' ρ' hpre hagree
  refine ⟨fun c => Cert.KernelIdeal.Fr.W5 (F := Ideal) m ρ c (Proc.devRef .tc Cert.KernelIdeal.main_v28), Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  have hx := Cert.Finite.rows_real _ _ _ _ (hpre c)
  rw [Cert.ReferenceIdeal.Read.val_main_v54_eq, (hagree c).1, (hagree c).2.1, (hagree c).2.2.1, (hagree c).2.2.2]
  exact (Cert.ReferenceIdeal.RefValue.ref_value _ _ _ _ hx).trans (Cert.KernelIdeal.Fr.kernel_value m ρ c hx).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
